-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S128x3 : Shape := ⟨2, ![128, 3]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S3 .f32) (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  let main_v54 : FVec F S3 .f32 := Host.absf main_arg13
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S128x3 .f32) (main_arg13 : FVec F S3 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x3 .f32 := Host.absf main_arg12
  let main_cst_18 : FVec F S_ .f32 := constant S_ .f32 0x7F800000#32
  let main_v50 : FVec F S128x3 .f32 := broadcastInDim S128x3 ![] bcast_S_S128x3 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S128x3 .f32) (main_arg13 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : IVec S2x800000 32) (main_arg2 : FVec F S800000 .f32) (main_arg3 : IVec S50000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S128x3 .f32) (main_arg13 : FVec F S3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S128x3 : Shape := ⟨2, ![128, 3]⟩
abbrev S3 : Shape := ⟨1, ![3]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S850000x64 : Shape := ⟨2, ![850000, 64]⟩
abbrev S1x64 : Shape := ⟨2, ![1, 64]⟩
abbrev S64x1 : Shape := ⟨2, ![64, 1]⟩
abbrev S64x3 : Shape := ⟨2, ![64, 3]⟩
abbrev S1x3 : Shape := ⟨2, ![1, 3]⟩

abbrev nBuf : Space → Nat
  | .hbm => 90
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x3, .f32⟩
  | .hbm, ⟨13, _⟩ => ⟨S3, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S50000, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x64, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x64, .f32⟩
  | .hbm, ⟨50, _⟩ => ⟨S850000x1, .f32⟩
  | .hbm, ⟨51, _⟩ => ⟨S850000x64, .f32⟩
  | .hbm, ⟨52, _⟩ => ⟨S850000x64, .f32⟩
  | .hbm, ⟨53, _⟩ => ⟨S_, .f32⟩
  | .hbm, ⟨54, _⟩ => ⟨S50000x64, .f32⟩
  | .hbm, ⟨55, _⟩ => ⟨S850000x1, .i32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x64, .f32⟩
  | .hbm, ⟨68, _⟩ => ⟨S850000x1, .f32⟩
  | .hbm, ⟨69, _⟩ => ⟨S850000x64, .f32⟩
  | .hbm, ⟨70, _⟩ => ⟨S850000x64, .f32⟩
  | .hbm, ⟨71, _⟩ => ⟨S_, .f32⟩
  | .hbm, ⟨72, _⟩ => ⟨S50000x64, .f32⟩
  | .hbm, ⟨73, _⟩ => ⟨S850000x1, .i32⟩
  | .hbm, ⟨74, _⟩ => ⟨S50000x64, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S64, .f32⟩
  | .hbm, ⟨79, _⟩ => ⟨S50000x1, .i32⟩
  | .hbm, ⟨80, _⟩ => ⟨S64, .f32⟩
  | .hbm, ⟨81, _⟩ => ⟨S64x1, .f32⟩
  | .hbm, ⟨82, _⟩ => ⟨S64x3, .f32⟩
  | .hbm, ⟨83, _⟩ => ⟨S64x3, .f32⟩
  | .hbm, ⟨84, _⟩ => ⟨S50000x1, .i32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x3, .f32⟩
  | .hbm, ⟨89, _⟩ => ⟨S64x3, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x1, .i32⟩
  | .local _ .vmem, ⟨21, _⟩ => ⟨S5000x1, .i32⟩
  | .local _ .vmem, ⟨22, _⟩ => ⟨S64x1, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S64x3, .f32⟩
  | .local _ .vmem, ⟨28, _⟩ => ⟨S64x3, .f32⟩
  | .local _ .vmem, ⟨29, _⟩ => ⟨S1x3, .f32⟩
  | .local _ .vmem, ⟨30, _⟩ => ⟨S64x3, .f32⟩
  | .local _ .vmem, ⟨31, _⟩ => ⟨S64x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_12 : BitVec 32 := 0#32
  let v28 : BitVec 1 := Scalar.cmpi .ne v27 c0_i32_12
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x3 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x3 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x3 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x3 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64 : S_.BroadcastsInDim S64 (![] : Fin 0 → Fin S64.rank)
  bcast_S50000_S50000x1_0 : S50000.BroadcastsInDim S50000x1 (![0] : Fin 1 → Fin S50000x1.rank)
  shapeCasts_S64_S64x1 : S64.ShapeCasts S64x1
  slices_S128x3_S64x3_0_0 : S128x3.Slices ![0, 0] S64x3
  slices_S128x3_S64x3_64_0 : S128x3.Slices ![64, 0] S64x3
  shapeCasts_S3_S1x3 : S3.ShapeCasts S1x3
  shapeCasts_S64x64_S64x64 : S64x64.ShapeCasts S64x64
  iota_S5000x64_d1_w32 : S5000x64.Iotas .tc 32 [1]
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  broadcasts_S1x64_S64x64 : S1x64.Broadcasts S64x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S64x3 : S1x3.Broadcasts S64x3
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64_S50000x1_S50000_n_0_0_1_wf : ScatterDims.WF S64 S50000x1 S50000 [] [0] [0] 1
  dot_S5000x64_S5000x64_S64x64_0_0_1_1_n_n_wf : DotDims.WF S5000x64 S5000x64 S64x64 [0] [0] [1] [1] [] []
  dot_S64x64_S64x64_S64x64_1_0_0_1_n_n_wf : DotDims.WF S64x64 S64x64 S64x64 [1] [0] [0] [1] [] []
  dot_S64x64_S64x3_S64x3_1_0_0_1_n_n_wf : DotDims.WF S64x64 S64x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x3.size a ≤ S64x3.size a
  hwx2_9 : ∀ i : grid2.Coords, EltTy.bits .f32 = 32 ∨ (Rect.block (s := S64x3) S64x3.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x3.size a ≤ S64x3.size a
  hwx2_10 : ∀ i : grid2.Coords, EltTy.bits .f32 = 32 ∨ (Rect.block (s := S64x3) S64x3.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x3.size a ≤ S1x3.size a
  hwx2_11 : ∀ i : grid2.Coords, EltTy.bits .f32 = 32 ∨ (Rect.block (s := S1x3) S1x3.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x3.size a ≤ S64x3.size a
  hwx2_12 : ∀ i : grid2.Coords, EltTy.bits .f32 = 32 ∨ (Rect.block (s := S64x3) S64x3.size (cc2_transform_12 i) (hinb2_12 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x3_S64x3_1_0_0_1_n_n : DotDims S64x64 S64x3 S64x3 where
  lhsContracting := [1]
  rhsContracting := [0]
  lhsNonContracting := [0]
  rhsNonContracting := [1]
  lhsBatch := []
  rhsBatch := []
  wf := dot_S64x64_S64x3_S64x3_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v52) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S64x3.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S64x3.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v59) S1x3.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v60) S64x3.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k2_cond2 i == 1#1) | ⟨_ + 13, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S128x3 : Shape := ⟨2, ![128, 3]⟩
abbrev S3 : Shape := ⟨1, ![3]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S64x128 : Shape := ⟨2, ![64, 128]⟩
abbrev S64x3 : Shape := ⟨2, ![64, 3]⟩
abbrev S1x3 : Shape := ⟨2, ![1, 3]⟩

abbrev nBuf : Space → Nat
  | .hbm => 137
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S128x3, .f32⟩
  | 13 => ⟨S3, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x64, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x64, .f32⟩
  | 69 => ⟨S850000x1, .f32⟩
  | 70 => ⟨S850000x64, .f32⟩
  | 71 => ⟨S850000x64, .f32⟩
  | 72 => ⟨S_, .f32⟩
  | 73 => ⟨S50000x64, .f32⟩
  | 74 => ⟨S850000x1, .i32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x64, .f32⟩
  | 92 => ⟨S850000x1, .f32⟩
  | 93 => ⟨S850000x64, .f32⟩
  | 94 => ⟨S850000x64, .f32⟩
  | 95 => ⟨S_, .f32⟩
  | 96 => ⟨S50000x64, .f32⟩
  | 97 => ⟨S850000x1, .i32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S64x64, .f32⟩
  | 104 => ⟨S50000x1, .i32⟩
  | 105 => ⟨S64x64, .f32⟩
  | 106 => ⟨S_, .f32⟩
  | 107 => ⟨S50000, .f32⟩
  | 108 => ⟨S_, .f32⟩
  | 109 => ⟨S64, .f32⟩
  | 110 => ⟨S50000x1, .i32⟩
  | 111 => ⟨S64, .f32⟩
  | 112 => ⟨S_, .f32⟩
  | 113 => ⟨S64, .f32⟩
  | 114 => ⟨S64, .f32⟩
  | 115 => ⟨S64x1, .f32⟩
  | 116 => ⟨S64x64, .f32⟩
  | 117 => ⟨S64x64, .f32⟩
  | 118 => ⟨S64x64, .f32⟩
  | 119 => ⟨S1x64, .f32⟩
  | 120 => ⟨S64x64, .f32⟩
  | 121 => ⟨S64x64, .f32⟩
  | 122 => ⟨S_, .f32⟩
  | 123 => ⟨S64x64, .f32⟩
  | 124 => ⟨S64x64, .f32⟩
  | 125 => ⟨S64x64, .f32⟩
  | 126 => ⟨S1x64, .f32⟩
  | 127 => ⟨S64x64, .f32⟩
  | _ => ⟨S50000x64, .f32⟩

abbrev hbmTy0_1 (i : Nat) : BufTy := match i % 128 with
  | 0 => ⟨S64x64, .f32⟩
  | 1 => ⟨S_, .f32⟩
  | 2 => ⟨S64x64, .f32⟩
  | 3 => ⟨S64x64, .f32⟩
  | 4 => ⟨S64x128, .f32⟩
  | 5 => ⟨S64x3, .f32⟩
  | 6 => ⟨S1x3, .f32⟩
  | 7 => ⟨S64x3, .f32⟩
  | 8 => ⟨S64x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call1_cst : Ref sig .tc := ⟨.hbm, 79, rfl⟩
abbrev main_call1_v0 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call2_cst : Ref sig .tc := ⟨.hbm, 122, rfl⟩
abbrev main_call2_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call3_cst : Ref sig .tc := ⟨.hbm, 129, rfl⟩
abbrev main_call3_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  concatenates_S64x64_S64x64_S64x128_d1 : Shape.Concatenates [S64x64, S64x64] S64x128 1
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x64_S64x64_1_0_0_1_n_n_wf : DotDims.WF S64x64 S64x64 S64x64 [1] [0] [0] [1] [] []
  dot_S64x128_S128x3_S64x3_1_0_0_1_n_n_wf : DotDims.WF S64x128 S128x3 S64x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

class Facts : Prop extends Facts₀ where

variable [Facts]
-- ==== Proof.K.Reg0.lean ====
/- The first TensorCore region: on each of ten row tiles, out = (x · W1) scaled row by row by dis.
   Its four windows are 0: the 5000x64 tile of x, 1: the 64x64 weights W1 (brought in once), 2: the 5000x1 tile
   of dis, 3: the 5000x64 tile of the result. Everything is stated at an arbitrary assignment V of contents
   to the core's buffers at the moment the region is entered. -/
import proofs.«415102_j60859686584588_3_alg».proof.Proof.Gen.Kernel.Launch
import proofs.«415102_j60859686584588_3_alg».proof.Proof.Gen.Kernel.Skeleton
import proofs.«415102_j60859686584588_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the blocks of its windows -/

/-- The block of window w at grid point t, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! # The whole-buffer rectangles the body reads and writes through -/

/-- All of a 5000x64 tile (the x tile, and the result tile). -/
abbrev tileRect0 : Rect S5000x64 := Rect.unit (s := S5000x64) ![0, 0] S5000x64.size inb_S5000x64_S5000x64_0_0
/-- All of the 64x64 weights. -/
abbrev weightRect0 : Rect S64x64 := Rect.unit (s := S64x64) ![0, 0] S64x64.size inb_S64x64_S64x64_0_0
/-- All of a 5000x1 tile of the row scale. -/
abbrev scaleRect0 : Rect S5000x1 := Rect.unit (s := S5000x1) ![0, 0] S5000x1.size inb_S5000x1_S5000x1_0_0

/-- The offsets of those rectangles are zero on both axes. -/
theorem zeroOffsets0 : (![0, 0] : Fin 2 → Nat) = fun _ => 0 := by
  funext a; fin_cases a <;> rfl

/-! # What the body leaves in the result window -/

/-- The result tile after the body, from the three input tiles: the one store, whose payload is computed from
    the three whole-buffer loads. -/
def out0_3 (x0 : Vec F S5000x64 .f32) (x1 : Vec F S64x64 .f32) (x2 : Vec F S5000x1 .f32) : Vec F S5000x64 .f32 :=
  View.canon [⟨tileRect0, k0_pay1 (View.ld x0 tileRect0) (View.ld x1 weightRect0) (View.ld x2 scaleRect0)⟩]

/-- One store through the whole tile leaves its payload, and a load through a whole buffer reads it unchanged. -/
theorem out0_3_eq (x0 : Vec F S5000x64 .f32) (x1 : Vec F S64x64 .f32) (x2 : Vec F S5000x1 .f32) :
    out0_3 x0 x1 x2 = k0_pay1 x0 x1 x2 := by
  unfold out0_3
  rw [View.canon_unit_zero zeroOffsets0]
  simp only [View.ld_unit_zero (S := S5000x64) zeroOffsets0, View.ld_unit_zero (S := S64x64) zeroOffsets0,
    View.ld_unit_zero (S := S5000x1) zeroOffsets0]

/-- The one store reaches every index of the result tile: its rectangle is the whole tile. -/
theorem covers0_3 (p : Vec F S5000x64 .f32) (y : S5000x64.Idx) :
    ∃ pc ∈ ([⟨tileRect0, p⟩] : List (View.Piece (Elt F) S5000x64 .f32)), y ∈ pc.1.set :=
  ⟨⟨tileRect0, p⟩, List.mem_singleton_self _, View.mem_set_unit_zero zeroOffsets0 inb_S5000x64_S5000x64_0_0 y⟩

/-! # The body on whole buffers -/

set_option maxHeartbeats 1000000 in
/-- Run on four whole buffers, the three inputs reading x0, x1, x2 and the result buffer holding anything, the body
    ends with the inputs as they were and the result buffer reading out0_3 x0 x1 x2. (It also reads the result
    buffer once before the store; nothing depends on what it finds there.) -/
theorem transform_scale_triple (c : Dev nD) (E : Set ℕ) (i : grid0.Coords)
    (a1 : Memref sig .tc .vmem S5000x64 .f32) (h1 : a1.IsWhole) (a2 : Memref sig .tc .vmem S64x64 .f32) (h2 : a2.IsWhole)
    (a3 : Memref sig .tc .vmem S5000x1 .f32) (h3 : a3.IsWhole) (a4 : Memref sig .tc .vmem S5000x64 .f32) (h4 : a4.IsWhole)
    (x0 : Vec F S5000x64 .f32) (x1 : Vec F S64x64 .f32) (x2 : Vec F S5000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1 x2)) -∗ K ⟨⟩))
      ⊢ wp frame (wpE (defs₀ (F := F)) Variants.none c none) E (cc0__transform_scale_kernel i a1 h1 a2 h2 a3 h3 a4 h4) K := by
  simp only [cc0__transform_scale_kernel_eq_skeleton]; unfold cc0__transform_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0_3 _)

/-! # The proof data of the pipeline -/

/-- On core c: the arrays as the region finds them; after the body at point t each input buffer still holds its
    block and the result buffer holds out0_3 of the three input blocks; the invariant is the untouched rest;
    nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # What each input buffer holds when the body runs

An input window is uncut and never idle, and the body leaves its block in place; so at every point its current
buffer holds the block of that point, whether it was brought in there or (the weights, after the first point)
carried over with an unmoved block index. -/

theorem held0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem held0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem held0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! # The body obligation -/

/-- What the body is handed at point t, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the triple above applies; the invariant and what is owed
    pass through untouched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (transform_scale_triple c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact body_at0 V c t

end Cert.Kernel.Hand

end
-- ==== Proof.K.Reg1.lean ====
/- The second TensorCore region: on each of ten row tiles,
   out = (relu(agg1 scaled row by row by dis, plus the bias row b1) · W2) scaled row by row by dis.
   Its five windows are 0: the 5000x64 tile of agg1, 1: the 5000x1 tile of dis, 2: the 1x64 bias row b1 (brought
   in once), 3: the 64x64 weights W2 (brought in once), 4: the 5000x64 tile of the result. Everything is stated at
   an arbitrary assignment V of contents to the core's buffers at the moment the region is entered. -/
import proofs.«415102_j60859686584588_3_alg».proof.Proof.Gen.Kernel.Launch
import proofs.«415102_j60859686584588_3_alg».proof.Proof.Gen.Kernel.Skeleton
import proofs.«415102_j60859686584588_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the blocks of its windows -/

/-- The block of window w at grid point t, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! # The whole-buffer rectangles the body reads and writes through -/

/-- All of a 5000x64 tile (the agg1 tile, and the result tile). -/
abbrev tileRect1 : Rect S5000x64 := Rect.unit (s := S5000x64) ![0, 0] S5000x64.size inb_S5000x64_S5000x64_0_0
/-- All of a 5000x1 tile of the row scale. -/
abbrev scaleRect1 : Rect S5000x1 := Rect.unit (s := S5000x1) ![0, 0] S5000x1.size inb_S5000x1_S5000x1_0_0
/-- All of the 1x64 bias row. -/
abbrev biasRect1 : Rect S1x64 := Rect.unit (s := S1x64) ![0, 0] S1x64.size inb_S1x64_S1x64_0_0
/-- All of the 64x64 weights. -/
abbrev weightRect1 : Rect S64x64 := Rect.unit (s := S64x64) ![0, 0] S64x64.size inb_S64x64_S64x64_0_0

/-- The offsets of those rectangles are zero on both axes. -/
theorem zeroOffsets1 : (![0, 0] : Fin 2 → Nat) = fun _ => 0 := by
  funext a; fin_cases a <;> rfl

/-! # What the body leaves in the result window -/

/-- The result tile after the body, from the four input tiles: the one store, whose payload is computed from
    the whole-buffer loads (the row scale is loaded twice, once for each of its two uses). -/
def out1_4 (x0 : Vec F S5000x64 .f32) (x1 : Vec F S5000x1 .f32) (x2 : Vec F S1x64 .f32) (x3 : Vec F S64x64 .f32) : Vec F S5000x64 .f32 :=
  View.canon [⟨tileRect1, k1_pay1 (View.ld x0 tileRect1) (View.ld x1 scaleRect1) (View.ld x2 biasRect1) (View.ld x3 weightRect1)
    (View.ld x1 scaleRect1)⟩]

/-- One store through the whole tile leaves its payload, and a load through a whole buffer reads it unchanged. -/
theorem out1_4_eq (x0 : Vec F S5000x64 .f32) (x1 : Vec F S5000x1 .f32) (x2 : Vec F S1x64 .f32) (x3 : Vec F S64x64 .f32) :
    out1_4 x0 x1 x2 x3 = k1_pay1 x0 x1 x2 x3 x1 := by
  unfold out1_4
  rw [View.canon_unit_zero zeroOffsets1]
  simp only [View.ld_unit_zero (S := S5000x64) zeroOffsets1, View.ld_unit_zero (S := S5000x1) zeroOffsets1,
    View.ld_unit_zero (S := S1x64) zeroOffsets1, View.ld_unit_zero (S := S64x64) zeroOffsets1]

/-- The one store reaches every index of the result tile: its rectangle is the whole tile. -/
theorem covers1_4 (p : Vec F S5000x64 .f32) (y : S5000x64.Idx) :
    ∃ pc ∈ ([⟨tileRect1, p⟩] : List (View.Piece (Elt F) S5000x64 .f32)), y ∈ pc.1.set :=
  ⟨⟨tileRect1, p⟩, List.mem_singleton_self _, View.mem_set_unit_zero zeroOffsets1 inb_S5000x64_S5000x64_0_0 y⟩

/-! # The body on whole buffers -/

set_option maxHeartbeats 1000000 in
/-- Run on five whole buffers, the four inputs reading x0, x1, x2, x3 and the result buffer holding anything, the
    body ends with the inputs as they were and the result buffer reading out1_4 x0 x1 x2 x3. (It reads the row
    scale twice, and the result buffer once before the store; nothing depends on what it finds in the latter.) -/
theorem relu_bias_transform_scale_triple (c : Dev nD) (E : Set ℕ) (i : grid1.Coords)
    (a1 : Memref sig .tc .vmem S5000x64 .f32) (h1 : a1.IsWhole) (a2 : Memref sig .tc .vmem S5000x1 .f32) (h2 : a2.IsWhole)
    (a3 : Memref sig .tc .vmem S1x64 .f32) (h3 : a3.IsWhole) (a4 : Memref sig .tc .vmem S64x64 .f32) (h4 : a4.IsWhole)
    (a5 : Memref sig .tc .vmem S5000x64 .f32) (h5 : a5.IsWhole)
    (x0 : Vec F S5000x64 .f32) (x1 : Vec F S5000x1 .f32) (x2 : Vec F S1x64 .f32) (x3 : Vec F S64x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out1_4 x0 x1 x2 x3)) -∗ K ⟨⟩))
      ⊢ wp frame (wpE (defs₀ (F := F)) Variants.none c none) E
          (cc1__relu_bias_transform_scale_kernel i a1 h1 a2 h2 a3 h3 a4 h4 a5 h5) K := by
  simp only [cc1__relu_bias_transform_scale_kernel_eq_skeleton]; unfold cc1__relu_bias_transform_scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1_4 _)

/-! # The proof data of the pipeline -/

/-- On core c: the arrays as the region finds them; after the body at point t each input buffer still holds its
    block and the result buffer holds out1_4 of the four input blocks; the invariant is the untouched rest;
    nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! # What each input buffer holds when the body runs

An input window is uncut and never idle, and the body leaves its block in place; so at every point its current
buffer holds the block of that point, whether it was brought in there or (the bias row and the weights, after the
first point) carried over with an unmoved block index. -/

theorem held1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem held1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem held1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem held1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! # The body obligation -/

/-- What the body is handed at point t, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the input buffers hold their blocks, so the triple above applies; the invariant and what is owed
    pass through untouched. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (relu_bias_transform_scale_triple c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact body_at1 V c t

end Cert.Kernel.Hand

end
-- ==== Proof.K.Reg2a.lean ====
import proofs.«415102_j60859686584588_3_alg».proof.Proof.Gen.Kernel.Launch
import proofs.«415102_j60859686584588_3_alg».proof.Proof.Gen.Kernel.Skeleton
import proofs.«415102_j60859686584588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 (pooling and head): what its three control cases share

The kernel accumulates, tile by tile, the per-graph sums of the normalised second-layer features into a
64x64 scratch that it carries from grid point to grid point, zeroing it at the first point, and at the last
point computes the head from the pooled sums and stores it into the output window. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (an input not
fetched at a point has the block index of the point before), for any proof data whose array is `V`'s and whose body
leaves the block in place: the windows are uncut and no input is ever idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The two tests on the grid coordinate -/

/-- The test "this is the first grid point", as the body computes it from the coordinate. -/
abbrev condFirst2 (i : grid2.Coords) : Prop := (Scalar.cmpi .ne (Scalar.extui (Scalar.cmpi .eq (BitVec.ofNat 32 (i 0).val) 0#32)) 0#32) = 1#1
/-- It holds at point 0 only. -/
theorem condFirst2_iff : ∀ t : Fin cfg2.N, condFirst2 (grid2.coords t) ↔ t.val = 0 :=
  (by decide +kernel : ∀ t : Fin grid2.N, condFirst2 (grid2.coords t) ↔ t.val = 0)

/-- The test "this is the last grid point". -/
abbrev condLast2 (i : grid2.Coords) : Prop := k2_cond2 i = 1#1
/-- It holds at point 9 only. -/
theorem condLast2_iff : ∀ t : Fin cfg2.N, condLast2 (grid2.coords t) ↔ t.val = 9 :=
  (by decide +kernel : ∀ t : Fin grid2.N, condLast2 (grid2.coords t) ↔ t.val = 9)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
theorem live2_7 : ∀ t : Fin cfg2.N, cfg2.idle 7 (grid2.coords t) = false := by decide +kernel
theorem live2_8 : ∀ t : Fin cfg2.N, cfg2.idle 8 (grid2.coords t) = false := by decide +kernel
theorem live2_9 : ∀ t : Fin cfg2.N, cfg2.idle 9 (grid2.coords t) = false := by decide +kernel
theorem live2_10 : ∀ t : Fin cfg2.N, cfg2.idle 10 (grid2.coords t) = false := by decide +kernel
theorem live2_11 : ∀ t : Fin cfg2.N, cfg2.idle 11 (grid2.coords t) = false := by decide +kernel
/-- Away from the last point the output window is idle: the head is not stored there, -/
theorem idle2_12 : ∀ t : Fin cfg2.N, ¬condLast2 (grid2.coords t) → cfg2.idle 12 (grid2.coords t) = true := by decide +kernel
/-- and its block is not written back there. -/
theorem noFlush2_12 : ∀ t : Fin cfg2.N, ¬condLast2 (grid2.coords t) → (cfg2.win 12).flush t = false := by decide +kernel
/-- At the last point it is live. -/
theorem live2_12 : ∀ t : Fin cfg2.N, condLast2 (grid2.coords t) → cfg2.idle 12 (grid2.coords t) = false := by decide +kernel

/-! ## The scratch and the region invariant -/

/-- The scratch as a memref: a whole scoped buffer of the kernel's own, passed beside the windows. -/
abbrev scM2 : Memref sig .tc .vmem S64x64 .f32 := Memref.whole cc2_scratch0

/-- The core's scoped buffers other than this pipeline's staging buffers and the scratch, each at anything. -/
abbrev others2 (c : Dev nD) : sProp 𝕄 :=
  Pipeline.scopedRestBut (Ix := Unit) (Name := ℕ) (U := UR sig nD τ) (Lvl := ℕ) (Val := Elt F) spec2 c [cc2_scratch0]

/-- The class's invariant with the scratch split off as a memref owned at some contents. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [bigSepL_singleton, scM2, others2, owns_whole]
  rfl

/-- The whole-shape rectangle's offsets, however the zeros are spelt. -/
theorem hz2 : (![0, 0] : Fin 2 → Nat) = fun _ => 0 := by funext a; fin_cases a <;> rfl

end Cert.Kernel.Hand

end
-- ==== Proof.K.Reg2b.lean ====
import proofs.«415102_j60859686584588_3_alg».proof.Proof.K.Reg2a
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at the first grid point

The scratch is zeroed, then the tile's contribution is added to what was just stored; the head is not computed and the
output window's buffer is left as found. -/

set_option maxHeartbeats 1000000 in
/-- On whole memrefs — the inputs' at contents `x·`, the output's at `xo`, the scratch at anything — the body at a
    point where the first-point test holds and the last-point test fails runs to the continuation holding the inputs'
    and the output's as they were and the scratch at zero plus the tile's contribution. -/
theorem run2_first (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S64x3 .f32) (harg11 : arg11.IsWhole) (arg12 : Memref sig .tc .vmem S1x3 .f32) (harg12 : arg12.IsWhole) (arg13 : Memref sig .tc .vmem S64x3 .f32) (harg13 : arg13.IsWhole) (arg14 : Memref sig .tc .vmem S64x64 .f32) (harg14 : arg14.IsWhole)
    (hc0 : condFirst2 i) (hc1 : ¬condLast2 i) (x0 : Vec F S5000x64 .f32) (x1 : Vec F S5000x1 .f32) (x2 : Vec F S1x64 .f32) (x3 : Vec F S5000x1 .i32) (x4 : Vec F S64x1 .f32) (x5 : Vec F S64x64 .f32) (x6 : Vec F S1x64 .f32) (x7 : Vec F S64x64 .f32) (x8 : Vec F S1x64 .f32) (x9 : Vec F S64x3 .f32) (x10 : Vec F S64x3 .f32) (x11 : Vec F S1x3 .f32) (xo : Vec F S64x3 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
            ∗ owns (c : Thread nD τ) arg14 fullShare (k2_pay2 x0 x1 x2 x3 (k2_pay1 (F := F)))) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, HO⟩, ⟨%ds, %fs, -, HS⟩, Hk⟩
  subst hf0 hf1 hf2 hf3 hf4 hf5 hf6 hf7 hf8 hf9 hf10 hf11 hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HO]
  · iexists fo; isplitr; · ipureintro; rfl
    iexact HO
  iexists _; isplitr
  swap; · iexact HS
  ipureintro
  sl_unfold_words
  rw [View.read_writes_eq_canon _ _ _ (fun y => ⟨_, List.mem_cons_self, View.mem_set_unit_zero hz2 inb_S64x64_S64x64_0_0 y⟩),
    View.canon_cons_unit_zero (S := S64x64) hz2]
  simp only [View.readAt_eq_ld, View.ld_unit_zero (S := S5000x64) hz2, View.ld_unit_zero (S := S5000x1) hz2,
    View.ld_unit_zero (S := S1x64) hz2, View.readCov_unit_zero (S := S64x64) _ hz2]

end Cert.Kernel.Hand

end
-- ==== Proof.K.Reg2c.lean ====
import proofs.«415102_j60859686584588_3_alg».proof.Proof.K.Reg2b
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at a grid point that is neither the first nor the last

The tile's contribution is added to the pooled sums the point before left; the head is not computed and the output
window's buffer is left as found. -/

set_option maxHeartbeats 1000000 in
/-- On whole memrefs — the inputs' at contents `x·`, the output's at `xo`, the scratch at `xs` — the body at a
    point where both tests fail runs to the continuation holding the inputs' and the output's as they were and the
    scratch at `xs` plus the tile's contribution. -/
theorem run2_mid (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S64x3 .f32) (harg11 : arg11.IsWhole) (arg12 : Memref sig .tc .vmem S1x3 .f32) (harg12 : arg12.IsWhole) (arg13 : Memref sig .tc .vmem S64x3 .f32) (harg13 : arg13.IsWhole) (arg14 : Memref sig .tc .vmem S64x64 .f32) (harg14 : arg14.IsWhole)
    (hc0 : ¬condFirst2 i) (hc1 : ¬condLast2 i) (x0 : Vec F S5000x64 .f32) (x1 : Vec F S5000x1 .f32) (x2 : Vec F S1x64 .f32) (x3 : Vec F S5000x1 .i32) (x4 : Vec F S64x1 .f32) (x5 : Vec F S64x64 .f32) (x6 : Vec F S1x64 .f32) (x7 : Vec F S64x64 .f32) (x8 : Vec F S1x64 .f32) (x9 : Vec F S64x3 .f32) (x10 : Vec F S64x3 .f32) (x11 : Vec F S1x3 .f32) (xo : Vec F S64x3 .f32) (xs : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo ∗ owns (c : Thread nD τ) arg14 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
            ∗ owns (c : Thread nD τ) arg14 fullShare (k2_pay2 x0 x1 x2 x3 xs)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, HO⟩, ⟨%fs, %hfs, HS⟩, Hk⟩
  subst hf0 hf1 hf2 hf3 hf4 hf5 hf6 hf7 hf8 hf9 hf10 hf11 hfo hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HO]
  · iexists fo; isplitr; · ipureintro; rfl
    iexact HO
  iexists _; isplitr
  swap; · iexact HS
  ipureintro
  sl_unfold_words
  rw [View.read_writes_eq_canon _ _ _ (fun y => ⟨_, List.mem_cons_self, View.mem_set_unit_zero hz2 inb_S64x64_S64x64_0_0 y⟩),
    View.canon_unit_zero (S := S64x64) hz2]
  simp only [View.readAt_eq_ld, View.ld_unit_zero (S := S5000x64) hz2, View.ld_unit_zero (S := S5000x1) hz2,
    View.ld_unit_zero (S := S1x64) hz2, View.ld_unit_zero (S := S64x64) hz2]

end Cert.Kernel.Hand

end
-- ==== Proof.K.Reg2d.lean ====
import proofs.«415102_j60859686584588_3_alg».proof.Proof.K.Reg2c
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at the last grid point

The tile's contribution is added to the pooled sums the point before left; then the head is computed from the
completed sums and stored whole into the output window's buffer. -/

set_option maxHeartbeats 1000000 in
/-- On whole memrefs — the inputs' at contents `x·`, the output's at anything, the scratch at `xs` — the body at a
    point where the first-point test fails and the last-point test holds runs to the continuation holding the inputs' as
    they were, the scratch at `xs` plus the tile's contribution, and the output's at the head over those sums. -/
theorem run2_last (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S64x3 .f32) (harg11 : arg11.IsWhole) (arg12 : Memref sig .tc .vmem S1x3 .f32) (harg12 : arg12.IsWhole) (arg13 : Memref sig .tc .vmem S64x3 .f32) (harg13 : arg13.IsWhole) (arg14 : Memref sig .tc .vmem S64x64 .f32) (harg14 : arg14.IsWhole)
    (hc0 : ¬condFirst2 i) (hc1 : condLast2 i) (x0 : Vec F S5000x64 .f32) (x1 : Vec F S5000x1 .f32) (x2 : Vec F S1x64 .f32) (x3 : Vec F S5000x1 .i32) (x4 : Vec F S64x1 .f32) (x5 : Vec F S64x64 .f32) (x6 : Vec F S1x64 .f32) (x7 : Vec F S64x64 .f32) (x8 : Vec F S1x64 .f32) (x9 : Vec F S64x3 .f32) (x10 : Vec F S64x3 .f32) (x11 : Vec F S1x3 .f32) (xs : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (k2_pay3 (k2_pay4 x4 (k2_pay2 x0 x1 x2 x3 xs) x5 x7 x6 x8 x9 x10) x11)
            ∗ owns (c : Thread nD τ) arg14 fullShare (k2_pay2 x0 x1 x2 x3 xs)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%dout, %fo, -, HO⟩, ⟨%fs, %hfs, HS⟩, Hk⟩
  subst hf0 hf1 hf2 hf3 hf4 hf5 hf6 hf7 hf8 hf9 hf10 hf11 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HO]
  · iexists _; isplitr
    swap; · iexact HO
    ipureintro
    sl_unfold_words
    rw [View.read_writes_eq_canon _ _ _ (fun y => ⟨_, List.mem_cons_self, View.mem_set_unit_zero hz2 inb_S64x3_S64x3_0_0 y⟩),
      View.canon_unit_zero (S := S64x3) hz2]
    simp only [View.readAt_eq_ld, View.ld_unit_zero (S := S5000x64) hz2, View.ld_unit_zero (S := S5000x1) hz2,
      View.ld_unit_zero (S := S1x64) hz2, View.ld_unit_zero (S := S64x64) hz2, View.ld_unit_zero (S := S64x1) hz2,
      View.ld_unit_zero (S := S64x3) hz2, View.ld_unit_zero (S := S1x3) hz2, View.readCov_unit_zero (S := S64x64) _ hz2]
  iexists _; isplitr
  swap; · iexact HS
  ipureintro
  sl_unfold_words
  rw [View.read_writes_eq_canon _ _ _ (fun y => ⟨_, List.mem_cons_self, View.mem_set_unit_zero hz2 inb_S64x64_S64x64_0_0 y⟩),
    View.canon_unit_zero (S := S64x64) hz2]
  simp only [View.readAt_eq_ld, View.ld_unit_zero (S := S5000x64) hz2, View.ld_unit_zero (S := S5000x1) hz2,
    View.ld_unit_zero (S := S1x64) hz2, View.ld_unit_zero (S := S64x64) hz2]

end Cert.Kernel.Hand

end
-- ==== Proof.K.Reg2.lean ====
import proofs.«415102_j60859686584588_3_alg».proof.Proof.K.Reg2d

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 (pooling and head): the proof data and the body obligation, at the entry contents `V` -/

/-! ## The pooled sums, point by point -/

/-- The scratch after the body at point `n`: the first point zeroes it and adds its tile's contribution, each later
    point adds its own to what the point before left. -/
def scr2 (c : Dev nD) : (n : ℕ) → n < cfg2.N → Vec F S64x64 .f32
  | 0, h0 => k2_pay2 (iblk2 V c 0 ⟨0, h0⟩) (iblk2 V c 1 ⟨0, h0⟩) (iblk2 V c 2 ⟨0, h0⟩) (iblk2 V c 3 ⟨0, h0⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩) (scr2 c n (Nat.lt_of_succ_lt hn))

theorem scr2_zero (c : Dev nD) (h0 : 0 < cfg2.N) : scr2 V c 0 h0 = k2_pay2 (iblk2 V c 0 ⟨0, h0⟩) (iblk2 V c 1 ⟨0, h0⟩) (iblk2 V c 2 ⟨0, h0⟩) (iblk2 V c 3 ⟨0, h0⟩) (k2_pay1 (F := F)) := by
  rw [scr2]

theorem scr2_succ (c : Dev nD) (n : ℕ) (hn : n + 1 < cfg2.N) : scr2 V c (n + 1) hn = k2_pay2 (iblk2 V c 0 ⟨n + 1, hn⟩) (iblk2 V c 1 ⟨n + 1, hn⟩) (iblk2 V c 2 ⟨n + 1, hn⟩) (iblk2 V c 3 ⟨n + 1, hn⟩) (scr2 V c n (Nat.lt_of_succ_lt hn)) := by
  rw [scr2]

/-- At the first point. -/
theorem scr2_first (c : Dev nD) (t : Fin cfg2.N) (h : t.val = 0) :
    scr2 V c t.val t.isLt = k2_pay2 (iblk2 V c 0 t) (iblk2 V c 1 t) (iblk2 V c 2 t) (iblk2 V c 3 t) (k2_pay1 (F := F)) := by
  obtain ⟨n, hn⟩ := t
  cases n with
  | zero => exact scr2_zero V c hn
  | succ n => exact absurd h (Nat.succ_ne_zero n)

/-- At a later point: its contribution over what the point before left. -/
theorem scr2_pos (c : Dev nD) (t : Fin cfg2.N) (h : t.val ≠ 0) :
    scr2 V c t.val t.isLt = k2_pay2 (iblk2 V c 0 t) (iblk2 V c 1 t) (iblk2 V c 2 t) (iblk2 V c 3 t)
      (scr2 V c (t.val - 1) (Nat.lt_of_le_of_lt (Nat.sub_le _ _) t.isLt)) := by
  obtain ⟨n, hn⟩ := t
  cases n with
  | zero => exact absurd rfl h
  | succ n => exact scr2_succ V c n hn

/-- The head over the pooled sums at point `t`: what the last point stores into the output window. -/
def head2 (c : Dev nD) (t : Fin cfg2.N) : Vec F S64x3 .f32 :=
  k2_pay3 (k2_pay4 (iblk2 V c 4 t) (scr2 V c t.val t.isLt) (iblk2 V c 5 t) (iblk2 V c 7 t) (iblk2 V c 6 t) (iblk2 V c 8 t) (iblk2 V c 9 t) (iblk2 V c 10 t)) (iblk2 V c 11 t)

/-! ## The region invariant -/

/-- Before position `n`: before the first point the class's invariant (every scoped buffer that is no staging
    buffer of this pipeline at anything, the generator register at some state); afterwards the same with the scratch
    held at the pooled sums the point before left. -/
def Phi2S (c : Dev nD) : (n : ℕ) → n ≤ cfg2.N → sProp 𝕄
  | 0, _ => Pipeline.ΦA spec2 c
  | n + 1, hn => iprop(iprop(owns (c : Thread nD τ) scM2 fullShare (scr2 V c n hn) ∗ others2 (F := F) c) ∗ (∃ r, prngReg c r))

theorem Phi2S_zero (c : Dev nD) (n : ℕ) (h : n ≤ cfg2.N) (hz : n = 0) : Phi2S V c n h = Pipeline.ΦA spec2 c := by
  subst hz; rfl

theorem Phi2S_succ (c : Dev nD) (n : ℕ) (hn : n < cfg2.N) :
    Phi2S V c (n + 1) hn = iprop(iprop(owns (c : Thread nD τ) scM2 fullShare (scr2 V c n hn) ∗ others2 (F := F) c) ∗ (∃ r, prngReg c r)) := rfl

theorem Phi2S_pos (c : Dev nD) (n : ℕ) (h : n ≤ cfg2.N) (hz : n ≠ 0) :
    Phi2S V c n h = iprop(iprop(owns (c : Thread nD τ) scM2 fullShare (scr2 V c (n - 1) (by omega)) ∗ others2 (F := F) c) ∗ (∃ r, prngReg c r)) := by
  cases n with
  | zero => exact absurd rfl hz
  | succ n => rfl

/-! ## The proof data -/

/-- The arrays as the region finds them; after the body at point `t` each input's buffer at its block and the
    output's at the head over the pooled sums there (read at the last point only: elsewhere the window is idle and
    not written back); the invariant `Phi2S`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => head2 V c t
  Φ t := Phi2S V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = head2 V c t := by dsimp only [dat2]

theorem after2_12_last (c : Dev nD) (t : Fin cfg2.N) (ht : t.val = 9) : (dat2 V c).after 12 t = k2_pay3 (k2_pay4 (iblk2 V c 4 t) (scr2 V c t.val t.isLt) (iblk2 V c 5 t) (iblk2 V c 7 t) (iblk2 V c 6 t) (iblk2 V c 8 t) (iblk2 V c 9 t) (iblk2 V c 10 t)) (iblk2 V c 11 t) := by
  dsimp only [dat2, head2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

theorem Phi2S_castSucc (c : Dev nD) (t : Fin cfg2.N) :
    (dat2 V c).Φ t.castSucc = Phi2S V c t.val (Nat.le_of_lt t.isLt) := by
  dsimp only [dat2]; simp only [Fin.coe_castSucc]

theorem Phi2_first (c : Dev nD) : (dat2 V c).Φ 0 = Pipeline.ΦA spec2 c := by
  rw [show (dat2 V c).Φ 0 = Phi2S V c 0 (Nat.zero_le _) from rfl, Phi2S_zero V c 0 _ rfl]

theorem Phi2_last (c : Dev nD) : (dat2 V c).Φ (Fin.last _) ⊢ (Pipeline.ΦA spec2 c : sProp 𝕄) := by
  rw [show (dat2 V c).Φ (Fin.last cfg2.N) = Phi2S V c (Fin.last cfg2.N).val (Nat.le_of_lt_succ (Fin.last cfg2.N).isLt) from rfl,
    Phi2S_pos V c _ _ (by rw [Fin.val_last]; have : cfg2.N = 10 := N_2; omega), PhiA2_eq]
  iintro ⟨⟨HS, HR⟩, Hg⟩
  isplitl [HS HR]
  · isplitl [HS]
    · iexists _; iexact HS
    iexact HR
  iexact Hg

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 4800000 in
/-- The body at any point. The inputs' memrefs hold their blocks; the closed forms of the two tests say which of
    the three control cases the point is in, and that case's run applies. The invariant hands the body the scratch — at
    anything at the first point, at the pooled sums the point before left afterwards — with the other scoped buffers and
    the generator register, which pass through unread, and takes the scratch back at this point's pooled sums. Away from
    the last point the output window is idle and its buffer goes back as found; at the last point it holds the head. The
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = Phi2S V c (t.val + 1) t.isLt from rfl, Phi2S_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  rw [show (dat2 V c).leavesExact 5 t = owns (c : Thread nD τ) (st2_5 t) fullShare ((dat2 V c).after 5 t) from by
    unfold Dat.leavesExact; rw [live2_5 t], after2_5]
  rw [show (dat2 V c).leavesExact 6 t = owns (c : Thread nD τ) (st2_6 t) fullShare ((dat2 V c).after 6 t) from by
    unfold Dat.leavesExact; rw [live2_6 t], after2_6]
  rw [show (dat2 V c).leavesExact 7 t = owns (c : Thread nD τ) (st2_7 t) fullShare ((dat2 V c).after 7 t) from by
    unfold Dat.leavesExact; rw [live2_7 t], after2_7]
  rw [show (dat2 V c).leavesExact 8 t = owns (c : Thread nD τ) (st2_8 t) fullShare ((dat2 V c).after 8 t) from by
    unfold Dat.leavesExact; rw [live2_8 t], after2_8]
  rw [show (dat2 V c).leavesExact 9 t = owns (c : Thread nD τ) (st2_9 t) fullShare ((dat2 V c).after 9 t) from by
    unfold Dat.leavesExact; rw [live2_9 t], after2_9]
  rw [show (dat2 V c).leavesExact 10 t = owns (c : Thread nD τ) (st2_10 t) fullShare ((dat2 V c).after 10 t) from by
    unfold Dat.leavesExact; rw [live2_10 t], after2_10]
  rw [show (dat2 V c).leavesExact 11 t = owns (c : Thread nD τ) (st2_11 t) fullShare ((dat2 V c).after 11 t) from by
    unfold Dat.leavesExact; rw [live2_11 t], after2_11]
  have hN : t.val < 10 := lt_of_lt_of_eq t.isLt (show cfg2.N = 10 from N_2)
  by_cases h0 : t.val = 0
  · have hc0 : condFirst2 (grid2.coords t) := (condFirst2_iff t).mpr h0
    have hc1 : ¬condLast2 (grid2.coords t) := fun h => by have := (condLast2_iff t).mp h; omega
    rw [Dat.leavesExact_idle (dat2 V c) 12 t (idle2_12 t hc1) (noFlush2_12 t hc1)]
    rw [scr2_first V c t h0]
    rw [Phi2S_castSucc V c t, Phi2S_zero V c _ _ h0, PhiA2_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run2_first c (grid2.coords t) _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) ((dat2 V c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · have hc0 : ¬condFirst2 (grid2.coords t) := fun h => h0 ((condFirst2_iff t).mp h)
    rw [scr2_pos V c t h0]
    rw [Phi2S_castSucc V c t, Phi2S_pos V c _ _ h0]
    by_cases h9 : t.val = 9
    · have hc1 : condLast2 (grid2.coords t) := (condLast2_iff t).mpr h9
      rw [show (dat2 V c).leavesExact 12 t = owns (c : Thread nD τ) (st2_12 t) fullShare ((dat2 V c).after 12 t) from by
        unfold Dat.leavesExact; rw [live2_12 t hc1], after2_12]
      unfold head2
      rw [scr2_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run2_last c (grid2.coords t) _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (scr2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS]; · iexact HS
      iintro ⟨H0, H1, H2, H3, H4, H5, H6, H7, H8, H9, H10, H11, H12, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have hc1 : ¬condLast2 (grid2.coords t) := fun h => h9 ((condLast2_iff t).mp h)
      rw [Dat.leavesExact_idle (dat2 V c) 12 t (idle2_12 t hc1) (noFlush2_12 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run2_mid c (grid2.coords t) _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) ((dat2 V c).before 12 t d12) (scr2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists d12; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/- The run of @main on the TensorCores. Its eight items — three stretches of host operations, the first region, a
   stretch, the second region, a stretch, the third region — are taken in order. What each core's buffers hold at
   every boundary is a fold from the launch memory: a stretch takes the contents to what its operations compute from
   them; a region leaves each of its windows' arrays at what the pipeline's write-backs leave and every other buffer as
   it was entered. Between two items a core holds every unscoped buffer whole at the boundary's contents, its generator
   register at some state, and owes nothing. Every weakly fair execution terminates, and the final memory holds the
   last boundary's contents; in particular every argument ends as launched, and the result's array ends at the single
   write-back of the third region's last point. -/
import proofs.«415102_j60859686584588_3_alg».proof.Proof.K.Reg0
import proofs.«415102_j60859686584588_3_alg».proof.Proof.K.Reg1
import proofs.«415102_j60859686584588_3_alg».proof.Proof.K.Reg2
import proofs.«415102_j60859686584588_3_alg».proof.Proof.Gen.Kernel.Launch
import proofs.«415102_j60859686584588_3_alg».proof.Proof.Gen.Kernel.Skeleton
import proofs.«415102_j60859686584588_3_alg».proof.Proof.Gen.Kernel.Points
import proofs.«415102_j60859686584588_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What a core's buffers hold at each boundary of @main

Eight items run in order: three stretches of host operations (the edge lists with their self loops and the
degrees' inverse square roots; the zeroing of the scale at rows of degree zero; the scale as a column), the first
region, a stretch (the first aggregation and the bias as a row), the second region, a stretch (the second
aggregation and the operands of the head), the third region. A stretch takes the contents to what its operations
compute from them. A region leaves each of its windows' arrays at what its write-backs leave, and every other buffer
as it was entered. -/

/-- At launch. -/
abbrev W0 : Dev nD → Valuation τ sig (Elt F) := fun c b => m (c, b)
/-- After the first stretch. -/
abbrev W1 : Dev nD → Valuation τ sig (Elt F) := fun c => StableHlo.after hostOps0 (W0 m c)
/-- After the second stretch. -/
abbrev W2 : Dev nD → Valuation τ sig (Elt F) := fun c => StableHlo.after hostOps0_1 (W1 m c)
/-- After the third stretch: what the first region is entered from. -/
abbrev W3 : Dev nD → Valuation τ sig (Elt F) := fun c => StableHlo.after hostOps0_2 (W2 m c)
/-- The same three, read at the TensorCore's references. -/
abbrev V1 : (c : Dev nD) → (b : Ref sig .tc) → Buf (Elt F) ((c : Thread nD τ).loc b) := fun c b => W1 m c (Proc.devRef .tc b)
abbrev V2 : (c : Dev nD) → (b : Ref sig .tc) → Buf (Elt F) ((c : Thread nD τ).loc b) := fun c b => W2 m c (Proc.devRef .tc b)
abbrev V3 : (c : Dev nD) → (b : Ref sig .tc) → Buf (Elt F) ((c : Thread nD τ).loc b) := fun c b => W3 m c (Proc.devRef .tc b)

/-- When the first region is left: its four arrays at what the pipeline leaves, the rest as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c (Proc.devRef .tc b)
/-- After the stretch between the first two regions: what the second region is entered from. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c (Proc.devRef .tc b)
/-- When the second region is left: its five arrays at what the pipeline leaves, the rest as entered. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c (Proc.devRef .tc b)
/-- After the stretch between the last two regions: what the third region is entered from. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c (Proc.devRef .tc b)
/-- When the third region is left, which is the end: its thirteen arrays at what the pipeline leaves, the rest as
    entered. -/
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c (Proc.devRef .tc b)

/-! ## A stretch changes only what it writes -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h

/-! ## A region changes only the array of its result -/

/-- The first region: a window's array holds what the pipeline leaves in it; -/
theorem W4_arr (c : Dev nD) (w : Fin cfg0.W) :
    W4 m c (Proc.devRef .tc (Pipeline.arrRef spec0 w)) = (dat0 (V3 m) c).arrAt w cfg0.N := by
  rw [W4]; exact Pipeline.withArrays_arr spec0 launch0.win.arr_inj c (W3 m c) _ w
/-- a buffer that is no window's array is as entered; -/
theorem W4_of_ne (c : Dev nD) (b : Ref sig .tc) (hb : ∀ w, Pipeline.arrRef spec0 w ≠ b) :
    W4 m c (Proc.devRef .tc b) = W3 m c (Proc.devRef .tc b) := by
  rw [W4]; exact Pipeline.withArrays_of_ne spec0 c (W3 m c) _ b hb
/-- the result's array holds the fold of the ten write-backs; -/
theorem W4_out (c : Dev nD) : W4 m c (Proc.devRef .tc main_v19) = (dat0 (V3 m) c).arrAt 3 cfg0.N := W4_arr m c 3
/-- an operand's array is only read, so it too is as entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
/-- Every window but the last is an operand's. -/
theorem operands0 : ∀ w : Fin cfg0.W, Pipeline.arrRef spec0 w ≠ main_v19 → (cfg0.win w).isOut = false := by decide
/-- So every buffer but the result's is as entered. -/
theorem W4_keep (c : Dev nD) (b : Ref sig .tc) (hb : b ≠ main_v19) : W4 m c (Proc.devRef .tc b) = W3 m c (Proc.devRef .tc b) := by
  by_cases h : ∃ w, Pipeline.arrRef spec0 w = b
  · obtain ⟨w, rfl⟩ := h
    exact W4_in m c w (operands0 w hb)
  · exact W4_of_ne m c b fun w e => h ⟨w, e⟩

/-- The second region, likewise. -/
theorem W6_arr (c : Dev nD) (w : Fin cfg1.W) :
    W6 m c (Proc.devRef .tc (Pipeline.arrRef spec1 w)) = (dat1 (V5 m) c).arrAt w cfg1.N := by
  rw [W6]; exact Pipeline.withArrays_arr spec1 launch1.win.arr_inj c (W5 m c) _ w
theorem W6_of_ne (c : Dev nD) (b : Ref sig .tc) (hb : ∀ w, Pipeline.arrRef spec1 w ≠ b) :
    W6 m c (Proc.devRef .tc b) = W5 m c (Proc.devRef .tc b) := by
  rw [W6]; exact Pipeline.withArrays_of_ne spec1 c (W5 m c) _ b hb
theorem W6_out (c : Dev nD) : W6 m c (Proc.devRef .tc main_v34) = (dat1 (V5 m) c).arrAt 4 cfg1.N := W6_arr m c 4
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
theorem operands1 : ∀ w : Fin cfg1.W, Pipeline.arrRef spec1 w ≠ main_v34 → (cfg1.win w).isOut = false := by decide
theorem W6_keep (c : Dev nD) (b : Ref sig .tc) (hb : b ≠ main_v34) : W6 m c (Proc.devRef .tc b) = W5 m c (Proc.devRef .tc b) := by
  by_cases h : ∃ w, Pipeline.arrRef spec1 w = b
  · obtain ⟨w, rfl⟩ := h
    exact W6_in m c w (operands1 w hb)
  · exact W6_of_ne m c b fun w e => h ⟨w, e⟩

/-- The third region, likewise; its result's array is written back once, at the last point. -/
theorem W8_arr (c : Dev nD) (w : Fin cfg2.W) :
    W8 m c (Proc.devRef .tc (Pipeline.arrRef spec2 w)) = (dat2 (V7 m) c).arrAt w cfg2.N := by
  rw [W8]; exact Pipeline.withArrays_arr spec2 launch2.win.arr_inj c (W7 m c) _ w
theorem W8_of_ne (c : Dev nD) (b : Ref sig .tc) (hb : ∀ w, Pipeline.arrRef spec2 w ≠ b) :
    W8 m c (Proc.devRef .tc b) = W7 m c (Proc.devRef .tc b) := by
  rw [W8]; exact Pipeline.withArrays_of_ne spec2 c (W7 m c) _ b hb
theorem W8_out (c : Dev nD) : W8 m c (Proc.devRef .tc main_v60) = (dat2 (V7 m) c).arrAt 12 cfg2.N := W8_arr m c 12
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
theorem operands2 : ∀ w : Fin cfg2.W, Pipeline.arrRef spec2 w ≠ main_v60 → (cfg2.win w).isOut = false := by decide
theorem W8_keep (c : Dev nD) (b : Ref sig .tc) (hb : b ≠ main_v60) : W8 m c (Proc.devRef .tc b) = W7 m c (Proc.devRef .tc b) := by
  by_cases h : ∃ w, Pipeline.arrRef spec2 w = b
  · obtain ⟨w, rfl⟩ := h
    exact W8_in m c w (operands2 w hb)
  · exact W8_of_ne m c b fun w e => h ⟨w, e⟩

/-! ## The arguments end as launched

No stretch writes an argument and no region has one for its result, so the contents at an argument's buffer walk
back through the eight items to the launch memory. -/

/-- A buffer no stretch writes and that is no region's result holds at the end what it held at launch. -/
theorem W8_of_unwritten (c : Dev nD) (b : Ref sig .tc) (h0 : b ∉ hostOps0_W) (h1 : b ∉ hostOps0_1_W) (h2 : b ∉ hostOps0_2_W)
    (h3 : b ≠ main_v19) (h4 : b ∉ hostOps1_W) (h5 : b ≠ main_v34) (h6 : b ∉ hostOps2_W) (h7 : b ≠ main_v60) :
    W8 m c (Proc.devRef .tc b) = m ((c : Thread nD τ).loc b) :=
  (W8_keep m c b h7).trans <| (W7_of m c b h6).trans <| (W6_keep m c b h5).trans <| (W5_of m c b h4).trans <|
    (W4_keep m c b h3).trans <| (W3_of m c b h2).trans <| (W2_of m c b h1).trans <| (W1_of m c b h0).trans rfl

theorem W8_main_arg0 (c : Dev nD) : W8 m c (Proc.devRef .tc main_arg0) = m ((c : Thread nD τ).loc main_arg0) :=
  W8_of_unwritten m c main_arg0 (by decide) (by decide) (by decide) (by decide) (by decide) (by decide) (by decide) (by decide)
theorem W8_main_arg1 (c : Dev nD) : W8 m c (Proc.devRef .tc main_arg1) = m ((c : Thread nD τ).loc main_arg1) :=
  W8_of_unwritten m c main_arg1 (by decide) (by decide) (by decide) (by decide) (by decide) (by decide) (by decide) (by decide)
theorem W8_main_arg2 (c : Dev nD) : W8 m c (Proc.devRef .tc main_arg2) = m ((c : Thread nD τ).loc main_arg2) :=
  W8_of_unwritten m c main_arg2 (by decide) (by decide) (by decide) (by decide) (by decide) (by decide) (by decide) (by decide)
theorem W8_main_arg3 (c : Dev nD) : W8 m c (Proc.devRef .tc main_arg3) = m ((c : Thread nD τ).loc main_arg3) :=
  W8_of_unwritten m c main_arg3 (by decide) (by decide) (by decide) (by decide) (by decide) (by decide) (by decide) (by decide)
theorem W8_main_arg4 (c : Dev nD) : W8 m c (Proc.devRef .tc main_arg4) = m ((c : Thread nD τ).loc main_arg4) :=
  W8_of_unwritten m c main_arg4 (by decide) (by decide) (by decide) (by decide) (by decide) (by decide) (by decide) (by decide)
theorem W8_main_arg5 (c : Dev nD) : W8 m c (Proc.devRef .tc main_arg5) = m ((c : Thread nD τ).loc main_arg5) :=
  W8_of_unwritten m c main_arg5 (by decide) (by decide) (by decide) (by decide) (by decide) (by decide) (by decide) (by decide)
theorem W8_main_arg6 (c : Dev nD) : W8 m c (Proc.devRef .tc main_arg6) = m ((c : Thread nD τ).loc main_arg6) :=
  W8_of_unwritten m c main_arg6 (by decide) (by decide) (by decide) (by decide) (by decide) (by decide) (by decide) (by decide)
theorem W8_main_arg7 (c : Dev nD) : W8 m c (Proc.devRef .tc main_arg7) = m ((c : Thread nD τ).loc main_arg7) :=
  W8_of_unwritten m c main_arg7 (by decide) (by decide) (by decide) (by decide) (by decide) (by decide) (by decide) (by decide)
theorem W8_main_arg8 (c : Dev nD) : W8 m c (Proc.devRef .tc main_arg8) = m ((c : Thread nD τ).loc main_arg8) :=
  W8_of_unwritten m c main_arg8 (by decide) (by decide) (by decide) (by decide) (by decide) (by decide) (by decide) (by decide)
theorem W8_main_arg9 (c : Dev nD) : W8 m c (Proc.devRef .tc main_arg9) = m ((c : Thread nD τ).loc main_arg9) :=
  W8_of_unwritten m c main_arg9 (by decide) (by decide) (by decide) (by decide) (by decide) (by decide) (by decide) (by decide)
theorem W8_main_arg10 (c : Dev nD) : W8 m c (Proc.devRef .tc main_arg10) = m ((c : Thread nD τ).loc main_arg10) :=
  W8_of_unwritten m c main_arg10 (by decide) (by decide) (by decide) (by decide) (by decide) (by decide) (by decide) (by decide)
theorem W8_main_arg11 (c : Dev nD) : W8 m c (Proc.devRef .tc main_arg11) = m ((c : Thread nD τ).loc main_arg11) :=
  W8_of_unwritten m c main_arg11 (by decide) (by decide) (by decide) (by decide) (by decide) (by decide) (by decide) (by decide)
theorem W8_main_arg12 (c : Dev nD) : W8 m c (Proc.devRef .tc main_arg12) = m ((c : Thread nD τ).loc main_arg12) :=
  W8_of_unwritten m c main_arg12 (by decide) (by decide) (by decide) (by decide) (by decide) (by decide) (by decide) (by decide)
theorem W8_main_arg13 (c : Dev nD) : W8 m c (Proc.devRef .tc main_arg13) = m ((c : Thread nD τ).loc main_arg13) :=
  W8_of_unwritten m c main_arg13 (by decide) (by decide) (by decide) (by decide) (by decide) (by decide) (by decide) (by decide)

/-! # The proof data of the three pipelines, and what a core holds between items -/

/-- Each pipeline's proof data at the contents its region is entered from. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c

abbrev 𝒱₀ : Variants := Variants.none
/-- No core owes another anything, so no level is assigned. -/
abbrev L : GSem nD τ sig → Finset Unit := fun _ => ∅
abbrev lv : GSem nD τ sig → Unit → ℕ := fun _ _ => 0
/-- What a core holds between items beside its buffers: its generator register at some state, and that it owes nothing. -/
abbrev R (c : Dev nD) : sProp 𝕄 := iprop((∃ r, prngReg c r) ∗ ∃ W, owes (c : Thread nD τ) (0 : CellTallies nD τ sig Unit) W)

/-- A stretch of host operations as a segment: from every unscoped buffer at contents W it runs to the same buffers
    at what its operations compute from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among those a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A core that owes nothing owes nothing within any bound that admits every pair; -/
theorem owes_within (c : Dev nD) (B : Set (SemLoc sig × Unit)) (hB : ∀ x, x ∈ B) :
    (iprop(∃ W, owes (c : Thread nD τ) (0 : CellTallies nD τ sig Unit) W) : sProp 𝕄) ⊢ Pipeline.owesWithin c 0 B := by
  iintro ⟨%W, Howes⟩
  iexists W
  isplitr; · ipureintro; exact fun x _ => hB x
  iexact Howes
/-- and conversely, forgetting the bound. -/
theorem owes_of_within (c : Dev nD) (B : Set (SemLoc sig × Unit)) :
    (Pipeline.owesWithin c 0 B : sProp 𝕄) ⊢ iprop(∃ W, owes (c : Thread nD τ) (0 : CellTallies nD τ sig Unit) W) := by
  iintro ⟨%W, -, Howes⟩
  iexists W
  iexact Howes

/-! # The regions as segments -/

/-- Entering the first region: out of every unscoped buffer at the boundary's contents come the region's arrays at the contents
    its proof data starts from and, beside them, the unscoped buffers that are no window's array; the generator register
    goes to the invariant; nothing is owed; the pipeline has no prefetched table. -/
theorem enter0 (c : Dev nD) :
    iprop(iprop(StableHlo.held (c : Thread nD τ) (Pipeline.ucRefs τ sig) (W3 m c) ∗ R c)
        ∗ Pipeline.ownSems0 (fun k : PEmpty => k.elim) c ∗ levAts L lv)
      ⊢ |={Set.univ}=> (iprop((pdats m 0 c).arrays ((pdats m 0 c).arrAt · 0)
          ∗ Pipeline.prefHeld (pcfgs (F := F) 0).pre c (fun _ => fullShare) (adm (F := F) 0).1
          ∗ (pdats m 0 c).owesAt () 0 ∗ iprop(∃ r, prngReg c r)
          ∗ Pipeline.unscopedRest (Ix := Unit) (Name := ℕ) (U := UR sig nD τ) (Lvl := ℕ) spec0 c (V3 m c)) : sProp 𝕄) := by
  have hsplit := Pipeline.arrays_of_unscopedBufs (p := 0) (pcfgs (F := F)) adm (pdats m) launch0.win launch0.arr_whole c
    ((pdats m 0 c).share_full fun _ => rfl) (V3 m c) fun _ => rfl
  rw [Pipeline.unscopedBufs_held] at hsplit
  rw [Pipeline.ownSems0_none]
  iintro ⟨⟨Hbufs, Hreg, Howes⟩, -, -⟩
  ihave Hparts := hsplit $$ Hbufs
  icases Hparts with ⟨Harr, Hrest⟩
  imodintro
  isplitl [Harr]; · iexact Harr
  isplitr
  · unfold Pipeline.prefHeld
    rw [show (Finset.univ : Finset (Fin 0)) = ∅ from rfl, BI.bigSep_empty]
    iempintro
  isplitl [Howes]
  · iapply (owes_within c _ fun _ => Or.inl trivial)
    iexact Howes
  isplitl [Hreg]; · iexact Hreg
  iexact Hrest

/-- Leaving it: the arrays at what the pipeline leaves, beside the unscoped buffers that are no window's array as they
    were entered, are every unscoped buffer at the next boundary's contents; the generator register comes back; nothing
    is owed. -/
theorem leave0 (c : Dev nD) :
    (iprop((pdats m 0 c).arrays ((pdats m 0 c).arrAt · cfg0.N) ∗ (pdats m 0 c).owesAt () (Fin.last cfg0.N)
        ∗ iprop(∃ r, prngReg c r)
        ∗ Pipeline.unscopedRest (Ix := Unit) (Name := ℕ) (U := UR sig nD τ) (Lvl := ℕ) spec0 c (V3 m c)) : sProp 𝕄)
      ⊢ |={Set.univ}=> iprop(StableHlo.held (c : Thread nD τ) (Pipeline.ucRefs τ sig) (W4 m c) ∗ R c) := by
  have hjoin := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V3 m c) (V4 m c) ((pdats m 0 c).arrAt · cfg0.N) (fun w => (W4_arr m c w).symm)
    (fun b hb => W4_of_ne m c b fun w e => hb (Finset.mem_image.mpr ⟨w, Finset.mem_univ _, e⟩))
  rw [Pipeline.unscopedBufs_held] at hjoin
  iintro ⟨Harr, Howes, Hreg, Hrest⟩
  imodintro
  isplitl [Harr Hrest]
  · iapply hjoin
    isplitl [Harr] <;> iassumption
  isplitl [Hreg]; · iexact Hreg
  iapply (owes_of_within c _)
  iexact Howes

set_option backward.isDefEq.respectTransparency.types false in
/-- The first region as a segment: entered from every unscoped buffer at the contents before it, left at
    the contents after it, the generator register through the invariant and back, no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero (pcfgs (F := F)) adm (pdats m) () L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := enter0 m c
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none]
    rw [show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := leave0 m c

/-- Entering the second region: out of every unscoped buffer at the boundary's contents come the region's arrays at the contents
    its proof data starts from and, beside them, the unscoped buffers that are no window's array; the generator register
    goes to the invariant; nothing is owed; the pipeline has no prefetched table. -/
theorem enter1 (c : Dev nD) :
    iprop(iprop(StableHlo.held (c : Thread nD τ) (Pipeline.ucRefs τ sig) (W5 m c) ∗ R c)
        ∗ Pipeline.ownSems0 (fun k : PEmpty => k.elim) c ∗ levAts L lv)
      ⊢ |={Set.univ}=> (iprop((pdats m 1 c).arrays ((pdats m 1 c).arrAt · 0)
          ∗ Pipeline.prefHeld (pcfgs (F := F) 1).pre c (fun _ => fullShare) (adm (F := F) 1).1
          ∗ (pdats m 1 c).owesAt () 0 ∗ iprop(∃ r, prngReg c r)
          ∗ Pipeline.unscopedRest (Ix := Unit) (Name := ℕ) (U := UR sig nD τ) (Lvl := ℕ) spec1 c (V5 m c)) : sProp 𝕄) := by
  have hsplit := Pipeline.arrays_of_unscopedBufs (p := 1) (pcfgs (F := F)) adm (pdats m) launch1.win launch1.arr_whole c
    ((pdats m 1 c).share_full fun _ => rfl) (V5 m c) fun _ => rfl
  rw [Pipeline.unscopedBufs_held] at hsplit
  rw [Pipeline.ownSems0_none]
  iintro ⟨⟨Hbufs, Hreg, Howes⟩, -, -⟩
  ihave Hparts := hsplit $$ Hbufs
  icases Hparts with ⟨Harr, Hrest⟩
  imodintro
  isplitl [Harr]; · iexact Harr
  isplitr
  · unfold Pipeline.prefHeld
    rw [show (Finset.univ : Finset (Fin 0)) = ∅ from rfl, BI.bigSep_empty]
    iempintro
  isplitl [Howes]
  · iapply (owes_within c _ fun _ => Or.inl trivial)
    iexact Howes
  isplitl [Hreg]; · iexact Hreg
  iexact Hrest

/-- Leaving it: the arrays at what the pipeline leaves, beside the unscoped buffers that are no window's array as they
    were entered, are every unscoped buffer at the next boundary's contents; the generator register comes back; nothing
    is owed. -/
theorem leave1 (c : Dev nD) :
    (iprop((pdats m 1 c).arrays ((pdats m 1 c).arrAt · cfg1.N) ∗ (pdats m 1 c).owesAt () (Fin.last cfg1.N)
        ∗ iprop(∃ r, prngReg c r)
        ∗ Pipeline.unscopedRest (Ix := Unit) (Name := ℕ) (U := UR sig nD τ) (Lvl := ℕ) spec1 c (V5 m c)) : sProp 𝕄)
      ⊢ |={Set.univ}=> iprop(StableHlo.held (c : Thread nD τ) (Pipeline.ucRefs τ sig) (W6 m c) ∗ R c) := by
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V5 m c) (V6 m c) ((pdats m 1 c).arrAt · cfg1.N) (fun w => (W6_arr m c w).symm)
    (fun b hb => W6_of_ne m c b fun w e => hb (Finset.mem_image.mpr ⟨w, Finset.mem_univ _, e⟩))
  rw [Pipeline.unscopedBufs_held] at hjoin
  iintro ⟨Harr, Howes, Hreg, Hrest⟩
  imodintro
  isplitl [Harr Hrest]
  · iapply hjoin
    isplitl [Harr] <;> iassumption
  isplitl [Hreg]; · iexact Hreg
  iapply (owes_of_within c _)
  iexact Howes

set_option backward.isDefEq.respectTransparency.types false in
/-- The second region as a segment: entered from every unscoped buffer at the contents before it, left at
    the contents after it, the generator register through the invariant and back, no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero (pcfgs (F := F)) adm (pdats m) () L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := enter1 m c
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none]
    rw [show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := leave1 m c

/-- Entering the third region: out of every unscoped buffer at the boundary's contents come the region's arrays at the contents
    its proof data starts from and, beside them, the unscoped buffers that are no window's array; the generator register
    goes to the invariant; nothing is owed; the pipeline has no prefetched table. -/
theorem enter2 (c : Dev nD) :
    iprop(iprop(StableHlo.held (c : Thread nD τ) (Pipeline.ucRefs τ sig) (W7 m c) ∗ R c)
        ∗ Pipeline.ownSems0 (fun k : PEmpty => k.elim) c ∗ levAts L lv)
      ⊢ |={Set.univ}=> (iprop((pdats m 2 c).arrays ((pdats m 2 c).arrAt · 0)
          ∗ Pipeline.prefHeld (pcfgs (F := F) 2).pre c (fun _ => fullShare) (adm (F := F) 2).1
          ∗ (pdats m 2 c).owesAt () 0 ∗ iprop(∃ r, prngReg c r)
          ∗ Pipeline.unscopedRest (Ix := Unit) (Name := ℕ) (U := UR sig nD τ) (Lvl := ℕ) spec2 c (V7 m c)) : sProp 𝕄) := by
  have hsplit := Pipeline.arrays_of_unscopedBufs (p := 2) (pcfgs (F := F)) adm (pdats m) launch2.win launch2.arr_whole c
    ((pdats m 2 c).share_full fun _ => rfl) (V7 m c) fun _ => rfl
  rw [Pipeline.unscopedBufs_held] at hsplit
  rw [Pipeline.ownSems0_none]
  iintro ⟨⟨Hbufs, Hreg, Howes⟩, -, -⟩
  ihave Hparts := hsplit $$ Hbufs
  icases Hparts with ⟨Harr, Hrest⟩
  imodintro
  isplitl [Harr]; · iexact Harr
  isplitr
  · unfold Pipeline.prefHeld
    rw [show (Finset.univ : Finset (Fin 0)) = ∅ from rfl, BI.bigSep_empty]
    iempintro
  isplitl [Howes]
  · iapply (owes_within c _ fun _ => Or.inl trivial)
    iexact Howes
  isplitl [Hreg]; · iexact Hreg
  iexact Hrest

/-- Leaving it: the arrays at what the pipeline leaves, beside the unscoped buffers that are no window's array as they
    were entered, are every unscoped buffer at the next boundary's contents; the generator register comes back; nothing
    is owed. -/
theorem leave2 (c : Dev nD) :
    (iprop((pdats m 2 c).arrays ((pdats m 2 c).arrAt · cfg2.N) ∗ (pdats m 2 c).owesAt () (Fin.last cfg2.N)
        ∗ iprop(∃ r, prngReg c r)
        ∗ Pipeline.unscopedRest (Ix := Unit) (Name := ℕ) (U := UR sig nD τ) (Lvl := ℕ) spec2 c (V7 m c)) : sProp 𝕄)
      ⊢ |={Set.univ}=> iprop(StableHlo.held (c : Thread nD τ) (Pipeline.ucRefs τ sig) (W8 m c) ∗ R c) := by
  have hjoin := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (V7 m c) (V8 m c) ((pdats m 2 c).arrAt · cfg2.N) (fun w => (W8_arr m c w).symm)
    (fun b hb => W8_of_ne m c b fun w e => hb (Finset.mem_image.mpr ⟨w, Finset.mem_univ _, e⟩))
  rw [Pipeline.unscopedBufs_held] at hjoin
  iintro ⟨Harr, Howes, Hreg, Hrest⟩
  imodintro
  isplitl [Harr Hrest]
  · iapply hjoin
    isplitl [Harr] <;> iassumption
  isplitl [Hreg]; · iexact Hreg
  iapply (owes_of_within c _)
  iexact Howes

set_option backward.isDefEq.respectTransparency.types false in
/-- The third region as a segment: entered from every unscoped buffer at the contents before it, left at
    the contents after it, the generator register through the invariant and back, no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero (pcfgs (F := F)) adm (pdats m) () L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := enter2 m c
  hin c := by
    rw [show (pdats m 2 c).Φ 0 = Pipeline.ΦA spec2 c from Phi2_first (V7 m) c]
    unfold Pipeline.ΦA
    iintro ⟨Hreg, -, Hscoped⟩
    isplitl [Hscoped]; · iexact Hscoped
    iexact Hreg
  hout c := by
    rw [Pipeline.ownSems0_none]
    refine (Phi2_last (V7 m) c).trans ?_
    unfold Pipeline.ΦA
    iintro ⟨Hscoped, Hreg⟩
    isplitl [Hreg]; · iexact Hreg
    isplitr; · iempintro
    iexact Hscoped
  hexit c := leave2 m c

/-! # @main as its segments, and the launch -/

/-- The eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- @main is the run of those segments. -/
theorem main_run (c : Dev nD) : main (F := F) c = Pipeline.Seg.run (segs m) := (main_chain c).trans (by chain_rfl)

/-- What a core holds at the end, but for owing nothing: every unscoped buffer at the last contents, the generator
    register at some state. -/
abbrev Tₙ (c : Dev nD) : sProp 𝕄 := iprop(StableHlo.held (c : Thread nD τ) (Pipeline.ucRefs τ sig) (W8 m c) ∗ ∃ r, prngReg c r)

/-- What the third region leaves is that, beside the core owing nothing: the same three things, grouped otherwise. -/
theorem end_state (c : Dev nD) :
    (iprop(StableHlo.held (c : Thread nD τ) (Pipeline.ucRefs τ sig) (W8 m c) ∗ R c) : sProp 𝕄)
      ⊢ iprop(Tₙ m c ∗ ∃ W, owes (c : Thread nD τ) (0 : CellTallies nD τ sig Unit) W) := by
  iintro ⟨Hbufs, Hreg, Howes⟩
  isplitr [Howes]
  · isplitl [Hbufs]
    · iexact Hbufs
    · iexact Hreg
  · iexact Howes

/-- What a core holds at the end, read against a final state: that state's memory has the last contents at every
    unscoped buffer. -/
theorem final_read (c : Dev nD) (s' : Phys nD τ sig (Elt F)) :
    (iprop(Tₙ m c ∗ SI s') : sProp 𝕄)
      ⊢ |={Set.univ}=> iprop(⌜∀ b ∈ Pipeline.ucRefs τ sig, s'.mem.mem (((c : Thread nD τ)).1, b) = W8 m c b⌝ ∗ SI s') := by
  have hread := pointsTo_read_all (Ix := Unit) (Name := ℕ) (U := UR sig nD τ) (Lvl := ℕ)
    (Pipeline.ucRefs τ sig) (fun b => (((c : Thread nD τ)).1, b)) (W8 m c) s'
  iintro ⟨⟨Hbufs, -⟩, HSI⟩
  unfold StableHlo.held
  imodintro
  iapply hread
  isplitl [Hbufs]
  · iexact Hbufs
  · iexact HSI

set_option backward.isDefEq.respectTransparency.types false in
/-- THE RUN: every weakly fair execution of @main from memory m with every counter at zero terminates, and the final
    memory holds, on every core and at every unscoped buffer, the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch's ghost element is the pipelines' own, and the cores are handed nothing beside it
      have hown : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) := .rfl
      rw [BI.bigSep_emp_const]
      iintro Hown
      imodintro
      isplitl [Hown]
      · iapply hown; iexact Hown
      · iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => end_state m c⟩)
    (hinit := by
      -- at launch a core has its unscoped buffers at the launch memory, its generator register as seeded, and owes nothing
      refine Pipeline.initEach L lv fun c => ?_
      have hbufs : (unscopedBufs c (fun b => m ((c : Thread nD τ).loc b)) : sProp 𝕄)
          = StableHlo.held (c : Thread nD τ) (Pipeline.ucRefs τ sig) (W0 m c) := Pipeline.unscopedBufs_held c (W0 m c)
      rw [hbufs]
      iintro ⟨⟨Hbufs, -, Howes, -, Hreg, -⟩, -⟩
      imodintro
      isplitl [Hbufs]; · iexact Hbufs
      isplitl [Hreg]
      · iexists (ρ c); iexact Hreg
      · iexists ∅; iexact Howes)
    (QY := fun c s => ∀ b ∈ Pipeline.ucRefs τ sig, s.mem (((c : Thread nD τ)).1, b) = W8 m c b)
    (hfin := fun c s' => final_read m c s')
    (hQ := fun s h => h)

/-- THE FRAME: every weakly fair execution of @main from memory m with every counter at zero terminates, and every
    argument's array ends holding what it held at launch: each is an unscoped buffer, which ends at the last
    boundary's contents, and those walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W8_main_arg0 m c),
      (h c _ (mem_uc main_arg1 (by decide))).trans (W8_main_arg1 m c),
      (h c _ (mem_uc main_arg2 (by decide))).trans (W8_main_arg2 m c),
      (h c _ (mem_uc main_arg3 (by decide))).trans (W8_main_arg3 m c),
      (h c _ (mem_uc main_arg4 (by decide))).trans (W8_main_arg4 m c),
      (h c _ (mem_uc main_arg5 (by decide))).trans (W8_main_arg5 m c),
      (h c _ (mem_uc main_arg6 (by decide))).trans (W8_main_arg6 m c),
      (h c _ (mem_uc main_arg7 (by decide))).trans (W8_main_arg7 m c),
      (h c _ (mem_uc main_arg8 (by decide))).trans (W8_main_arg8 m c),
      (h c _ (mem_uc main_arg9 (by decide))).trans (W8_main_arg9 m c),
      (h c _ (mem_uc main_arg10 (by decide))).trans (W8_main_arg10 m c),
      (h c _ (mem_uc main_arg11 (by decide))).trans (W8_main_arg11 m c),
      (h c _ (mem_uc main_arg12 (by decide))).trans (W8_main_arg12 m c),
      (h c _ (mem_uc main_arg13 (by decide))).trans (W8_main_arg13 m c)⟩) (run_main m ρ)

end Cert.Kernel.Hand

end
-- ==== Proof.KI.Reg0.lean ====
/- The first TensorCore region: on each of ten row tiles, out = (x · W1) scaled row by row by dis.
   Its four windows are 0: the 5000x64 tile of x, 1: the 64x64 weights W1 (brought in once), 2: the 5000x1 tile
   of dis, 3: the 5000x64 tile of the result. Everything is stated at an arbitrary assignment V of contents
   to the core's buffers at the moment the region is entered. -/
import proofs.«415102_j60859686584588_3_alg».proof.Proof.Gen.KernelIdeal.Launch
import proofs.«415102_j60859686584588_3_alg».proof.Proof.Gen.KernelIdeal.Skeleton
import proofs.«415102_j60859686584588_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the blocks of its windows -/

/-- The block of window w at grid point t, read from the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! # The whole-buffer rectangles the body reads and writes through -/

/-- All of a 5000x64 tile (the x tile, and the result tile). -/
abbrev tileRect0 : Rect S5000x64 := Rect.unit (s := S5000x64) ![0, 0] S5000x64.size inb_S5000x64_S5000x64_0_0
/-- All of the 64x64 weights. -/
abbrev weightRect0 : Rect S64x64 := Rect.unit (s := S64x64) ![0, 0] S64x64.size inb_S64x64_S64x64_0_0
/-- All of a 5000x1 tile of the row scale. -/
abbrev scaleRect0 : Rect S5000x1 := Rect.unit (s := S5000x1) ![0, 0] S5000x1.size inb_S5000x1_S5000x1_0_0

/-- The offsets of those rectangles are zero on both axes. -/
theorem zeroOffsets0 : (![0, 0] : Fin 2 → Nat) = fun _ => 0 := by
  funext a; fin_cases a <;> rfl

/-! # What the body leaves in the result window -/

/-- The result tile after the body, from the three input tiles: the one store, whose payload is computed from
    the three whole-buffer loads. -/
def out0_3 (x0 : Vec F S5000x64 .f32) (x1 : Vec F S64x64 .f32) (x2 : Vec F S5000x1 .f32) : Vec F S5000x64 .f32 :=
  View.canon [⟨tileRect0, k0_pay1 (View.ld x0 tileRect0) (View.ld x1 weightRect0) (View.ld x2 scaleRect0)⟩]

/-- One store through the whole tile leaves its payload, and a load through a whole buffer reads it unchanged. -/
theorem out0_3_eq (x0 : Vec F S5000x64 .f32) (x1 : Vec F S64x64 .f32) (x2 : Vec F S5000x1 .f32) :
    out0_3 x0 x1 x2 = k0_pay1 x0 x1 x2 := by
  unfold out0_3
  rw [View.canon_unit_zero zeroOffsets0]
  simp only [View.ld_unit_zero (S := S5000x64) zeroOffsets0, View.ld_unit_zero (S := S64x64) zeroOffsets0,
    View.ld_unit_zero (S := S5000x1) zeroOffsets0]

/-- The one store reaches every index of the result tile: its rectangle is the whole tile. -/
theorem covers0_3 (p : Vec F S5000x64 .f32) (y : S5000x64.Idx) :
    ∃ pc ∈ ([⟨tileRect0, p⟩] : List (View.Piece (Elt F) S5000x64 .f32)), y ∈ pc.1.set :=
  ⟨⟨tileRect0, p⟩, List.mem_singleton_self _, View.mem_set_unit_zero zeroOffsets0 inb_S5000x64_S5000x64_0_0 y⟩

/-! # The body on whole buffers -/

set_option maxHeartbeats 1000000 in
/-- Run on four whole buffers, the three inputs reading x0, x1, x2 and the result buffer holding anything, the body
    ends with the inputs as they were and the result buffer reading out0_3 x0 x1 x2. (It also reads the result
    buffer once before the store; nothing depends on what it finds there.) -/
theorem transform_scale_triple (c : Dev nD) (E : Set ℕ) (i : grid0.Coords)
    (a1 : Memref sig .tc .vmem S5000x64 .f32) (h1 : a1.IsWhole) (a2 : Memref sig .tc .vmem S64x64 .f32) (h2 : a2.IsWhole)
    (a3 : Memref sig .tc .vmem S5000x1 .f32) (h3 : a3.IsWhole) (a4 : Memref sig .tc .vmem S5000x64 .f32) (h4 : a4.IsWhole)
    (x0 : Vec F S5000x64 .f32) (x1 : Vec F S64x64 .f32) (x2 : Vec F S5000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1 x2)) -∗ K ⟨⟩))
      ⊢ wp frame (wpE (defs₀ (F := F)) Variants.none c none) E (cc0__transform_scale_kernel i a1 h1 a2 h2 a3 h3 a4 h4) K := by
  simp only [cc0__transform_scale_kernel_eq_skeleton]; unfold cc0__transform_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0_3 _)

/-! # The proof data of the pipeline -/

/-- On core c: the arrays as the region finds them; after the body at point t each input buffer still holds its
    block and the result buffer holds out0_3 of the three input blocks; the invariant is the untouched rest;
    nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # What each input buffer holds when the body runs

An input window is uncut and never idle, and the body leaves its block in place; so at every point its current
buffer holds the block of that point, whether it was brought in there or (the weights, after the first point)
carried over with an unmoved block index. -/

theorem held0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem held0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem held0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! # The body obligation -/

/-- What the body is handed at point t, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the triple above applies; the invariant and what is owed
    pass through untouched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (transform_scale_triple c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact body_at0 V c t

end Cert.KernelIdeal.Hand

end
-- ==== Proof.KI.Reg1.lean ====
/- The second TensorCore region: on each of ten row tiles,
   out = (relu(agg1 scaled row by row by dis, plus the bias row b1) · W2) scaled row by row by dis.
   Its five windows are 0: the 5000x64 tile of agg1, 1: the 5000x1 tile of dis, 2: the 1x64 bias row b1 (brought
   in once), 3: the 64x64 weights W2 (brought in once), 4: the 5000x64 tile of the result. Everything is stated at
   an arbitrary assignment V of contents to the core's buffers at the moment the region is entered. -/
import proofs.«415102_j60859686584588_3_alg».proof.Proof.Gen.KernelIdeal.Launch
import proofs.«415102_j60859686584588_3_alg».proof.Proof.Gen.KernelIdeal.Skeleton
import proofs.«415102_j60859686584588_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the blocks of its windows -/

/-- The block of window w at grid point t, read from the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! # The whole-buffer rectangles the body reads and writes through -/

/-- All of a 5000x64 tile (the agg1 tile, and the result tile). -/
abbrev tileRect1 : Rect S5000x64 := Rect.unit (s := S5000x64) ![0, 0] S5000x64.size inb_S5000x64_S5000x64_0_0
/-- All of a 5000x1 tile of the row scale. -/
abbrev scaleRect1 : Rect S5000x1 := Rect.unit (s := S5000x1) ![0, 0] S5000x1.size inb_S5000x1_S5000x1_0_0
/-- All of the 1x64 bias row. -/
abbrev biasRect1 : Rect S1x64 := Rect.unit (s := S1x64) ![0, 0] S1x64.size inb_S1x64_S1x64_0_0
/-- All of the 64x64 weights. -/
abbrev weightRect1 : Rect S64x64 := Rect.unit (s := S64x64) ![0, 0] S64x64.size inb_S64x64_S64x64_0_0

/-- The offsets of those rectangles are zero on both axes. -/
theorem zeroOffsets1 : (![0, 0] : Fin 2 → Nat) = fun _ => 0 := by
  funext a; fin_cases a <;> rfl

/-! # What the body leaves in the result window -/

/-- The result tile after the body, from the four input tiles: the one store, whose payload is computed from
    the whole-buffer loads (the row scale is loaded twice, once for each of its two uses). -/
def out1_4 (x0 : Vec F S5000x64 .f32) (x1 : Vec F S5000x1 .f32) (x2 : Vec F S1x64 .f32) (x3 : Vec F S64x64 .f32) : Vec F S5000x64 .f32 :=
  View.canon [⟨tileRect1, k1_pay1 (View.ld x0 tileRect1) (View.ld x1 scaleRect1) (View.ld x2 biasRect1) (View.ld x3 weightRect1)
    (View.ld x1 scaleRect1)⟩]

/-- One store through the whole tile leaves its payload, and a load through a whole buffer reads it unchanged. -/
theorem out1_4_eq (x0 : Vec F S5000x64 .f32) (x1 : Vec F S5000x1 .f32) (x2 : Vec F S1x64 .f32) (x3 : Vec F S64x64 .f32) :
    out1_4 x0 x1 x2 x3 = k1_pay1 x0 x1 x2 x3 x1 := by
  unfold out1_4
  rw [View.canon_unit_zero zeroOffsets1]
  simp only [View.ld_unit_zero (S := S5000x64) zeroOffsets1, View.ld_unit_zero (S := S5000x1) zeroOffsets1,
    View.ld_unit_zero (S := S1x64) zeroOffsets1, View.ld_unit_zero (S := S64x64) zeroOffsets1]

/-- The one store reaches every index of the result tile: its rectangle is the whole tile. -/
theorem covers1_4 (p : Vec F S5000x64 .f32) (y : S5000x64.Idx) :
    ∃ pc ∈ ([⟨tileRect1, p⟩] : List (View.Piece (Elt F) S5000x64 .f32)), y ∈ pc.1.set :=
  ⟨⟨tileRect1, p⟩, List.mem_singleton_self _, View.mem_set_unit_zero zeroOffsets1 inb_S5000x64_S5000x64_0_0 y⟩

/-! # The body on whole buffers -/

set_option maxHeartbeats 1000000 in
/-- Run on five whole buffers, the four inputs reading x0, x1, x2, x3 and the result buffer holding anything, the
    body ends with the inputs as they were and the result buffer reading out1_4 x0 x1 x2 x3. (It reads the row
    scale twice, and the result buffer once before the store; nothing depends on what it finds in the latter.) -/
theorem relu_bias_transform_scale_triple (c : Dev nD) (E : Set ℕ) (i : grid1.Coords)
    (a1 : Memref sig .tc .vmem S5000x64 .f32) (h1 : a1.IsWhole) (a2 : Memref sig .tc .vmem S5000x1 .f32) (h2 : a2.IsWhole)
    (a3 : Memref sig .tc .vmem S1x64 .f32) (h3 : a3.IsWhole) (a4 : Memref sig .tc .vmem S64x64 .f32) (h4 : a4.IsWhole)
    (a5 : Memref sig .tc .vmem S5000x64 .f32) (h5 : a5.IsWhole)
    (x0 : Vec F S5000x64 .f32) (x1 : Vec F S5000x1 .f32) (x2 : Vec F S1x64 .f32) (x3 : Vec F S64x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out1_4 x0 x1 x2 x3)) -∗ K ⟨⟩))
      ⊢ wp frame (wpE (defs₀ (F := F)) Variants.none c none) E
          (cc1__relu_bias_transform_scale_kernel i a1 h1 a2 h2 a3 h3 a4 h4 a5 h5) K := by
  simp only [cc1__relu_bias_transform_scale_kernel_eq_skeleton]; unfold cc1__relu_bias_transform_scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1_4 _)

/-! # The proof data of the pipeline -/

/-- On core c: the arrays as the region finds them; after the body at point t each input buffer still holds its
    block and the result buffer holds out1_4 of the four input blocks; the invariant is the untouched rest;
    nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! # What each input buffer holds when the body runs

An input window is uncut and never idle, and the body leaves its block in place; so at every point its current
buffer holds the block of that point, whether it was brought in there or (the bias row and the weights, after the
first point) carried over with an unmoved block index. -/

theorem held1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem held1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem held1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem held1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! # The body obligation -/

/-- What the body is handed at point t, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the input buffers hold their blocks, so the triple above applies; the invariant and what is owed
    pass through untouched. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (relu_bias_transform_scale_triple c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact body_at1 V c t

end Cert.KernelIdeal.Hand

end
-- ==== Proof.KI.Reg2a.lean ====
import proofs.«415102_j60859686584588_3_alg».proof.Proof.Gen.KernelIdeal.Launch
import proofs.«415102_j60859686584588_3_alg».proof.Proof.Gen.KernelIdeal.Skeleton
import proofs.«415102_j60859686584588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 (pooling and head): what its three control cases share

The kernel accumulates, tile by tile, the per-graph sums of the normalised second-layer features into a
64x64 scratch that it carries from grid point to grid point, zeroing it at the first point, and at the last
point computes the head from the pooled sums and stores it into the output window. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (an input not
fetched at a point has the block index of the point before), for any proof data whose array is `V`'s and whose body
leaves the block in place: the windows are uncut and no input is ever idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The two tests on the grid coordinate -/

/-- The test "this is the first grid point", as the body computes it from the coordinate. -/
abbrev condFirst2 (i : grid2.Coords) : Prop := (Scalar.cmpi .ne (Scalar.extui (Scalar.cmpi .eq (BitVec.ofNat 32 (i 0).val) 0#32)) 0#32) = 1#1
/-- It holds at point 0 only. -/
theorem condFirst2_iff : ∀ t : Fin cfg2.N, condFirst2 (grid2.coords t) ↔ t.val = 0 :=
  (by decide +kernel : ∀ t : Fin grid2.N, condFirst2 (grid2.coords t) ↔ t.val = 0)

/-- The test "this is the last grid point". -/
abbrev condLast2 (i : grid2.Coords) : Prop := k2_cond2 i = 1#1
/-- It holds at point 9 only. -/
theorem condLast2_iff : ∀ t : Fin cfg2.N, condLast2 (grid2.coords t) ↔ t.val = 9 :=
  (by decide +kernel : ∀ t : Fin grid2.N, condLast2 (grid2.coords t) ↔ t.val = 9)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
theorem live2_5 : ∀ t : Fin cfg2.N, cfg2.idle 5 (grid2.coords t) = false := by decide +kernel
theorem live2_6 : ∀ t : Fin cfg2.N, cfg2.idle 6 (grid2.coords t) = false := by decide +kernel
theorem live2_7 : ∀ t : Fin cfg2.N, cfg2.idle 7 (grid2.coords t) = false := by decide +kernel
theorem live2_8 : ∀ t : Fin cfg2.N, cfg2.idle 8 (grid2.coords t) = false := by decide +kernel
theorem live2_9 : ∀ t : Fin cfg2.N, cfg2.idle 9 (grid2.coords t) = false := by decide +kernel
theorem live2_10 : ∀ t : Fin cfg2.N, cfg2.idle 10 (grid2.coords t) = false := by decide +kernel
theorem live2_11 : ∀ t : Fin cfg2.N, cfg2.idle 11 (grid2.coords t) = false := by decide +kernel
/-- Away from the last point the output window is idle: the head is not stored there, -/
theorem idle2_12 : ∀ t : Fin cfg2.N, ¬condLast2 (grid2.coords t) → cfg2.idle 12 (grid2.coords t) = true := by decide +kernel
/-- and its block is not written back there. -/
theorem noFlush2_12 : ∀ t : Fin cfg2.N, ¬condLast2 (grid2.coords t) → (cfg2.win 12).flush t = false := by decide +kernel
/-- At the last point it is live. -/
theorem live2_12 : ∀ t : Fin cfg2.N, condLast2 (grid2.coords t) → cfg2.idle 12 (grid2.coords t) = false := by decide +kernel

/-! ## The scratch and the region invariant -/

/-- The scratch as a memref: a whole scoped buffer of the kernel's own, passed beside the windows. -/
abbrev scM2 : Memref sig .tc .vmem S64x64 .f32 := Memref.whole cc2_scratch0

/-- The core's scoped buffers other than this pipeline's staging buffers and the scratch, each at anything. -/
abbrev others2 (c : Dev nD) : sProp 𝕄 :=
  Pipeline.scopedRestBut (Ix := Unit) (Name := ℕ) (U := UR sig nD τ) (Lvl := ℕ) (Val := Elt F) spec2 c [cc2_scratch0]

/-- The class's invariant with the scratch split off as a memref owned at some contents. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [bigSepL_singleton, scM2, others2, owns_whole]
  rfl

/-- The whole-shape rectangle's offsets, however the zeros are spelt. -/
theorem hz2 : (![0, 0] : Fin 2 → Nat) = fun _ => 0 := by funext a; fin_cases a <;> rfl

end Cert.KernelIdeal.Hand

end
-- ==== Proof.KI.Reg2b.lean ====
import proofs.«415102_j60859686584588_3_alg».proof.Proof.KI.Reg2a
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at the first grid point

The scratch is zeroed, then the tile's contribution is added to what was just stored; the head is not computed and the
output window's buffer is left as found. -/

set_option maxHeartbeats 1000000 in
/-- On whole memrefs — the inputs' at contents `x·`, the output's at `xo`, the scratch at anything — the body at a
    point where the first-point test holds and the last-point test fails runs to the continuation holding the inputs'
    and the output's as they were and the scratch at zero plus the tile's contribution. -/
theorem run2_first (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S64x3 .f32) (harg11 : arg11.IsWhole) (arg12 : Memref sig .tc .vmem S1x3 .f32) (harg12 : arg12.IsWhole) (arg13 : Memref sig .tc .vmem S64x3 .f32) (harg13 : arg13.IsWhole) (arg14 : Memref sig .tc .vmem S64x64 .f32) (harg14 : arg14.IsWhole)
    (hc0 : condFirst2 i) (hc1 : ¬condLast2 i) (x0 : Vec F S5000x64 .f32) (x1 : Vec F S5000x1 .f32) (x2 : Vec F S1x64 .f32) (x3 : Vec F S5000x1 .i32) (x4 : Vec F S64x1 .f32) (x5 : Vec F S64x64 .f32) (x6 : Vec F S1x64 .f32) (x7 : Vec F S64x64 .f32) (x8 : Vec F S1x64 .f32) (x9 : Vec F S64x3 .f32) (x10 : Vec F S64x3 .f32) (x11 : Vec F S1x3 .f32) (xo : Vec F S64x3 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
            ∗ owns (c : Thread nD τ) arg14 fullShare (k2_pay2 x0 x1 x2 x3 (k2_pay1 (F := F)))) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, HO⟩, ⟨%ds, %fs, -, HS⟩, Hk⟩
  subst hf0 hf1 hf2 hf3 hf4 hf5 hf6 hf7 hf8 hf9 hf10 hf11 hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HO]
  · iexists fo; isplitr; · ipureintro; rfl
    iexact HO
  iexists _; isplitr
  swap; · iexact HS
  ipureintro
  sl_unfold_words
  rw [View.read_writes_eq_canon _ _ _ (fun y => ⟨_, List.mem_cons_self, View.mem_set_unit_zero hz2 inb_S64x64_S64x64_0_0 y⟩),
    View.canon_cons_unit_zero (S := S64x64) hz2]
  simp only [View.readAt_eq_ld, View.ld_unit_zero (S := S5000x64) hz2, View.ld_unit_zero (S := S5000x1) hz2,
    View.ld_unit_zero (S := S1x64) hz2, View.readCov_unit_zero (S := S64x64) _ hz2]

end Cert.KernelIdeal.Hand

end
-- ==== Proof.KI.Reg2c.lean ====
import proofs.«415102_j60859686584588_3_alg».proof.Proof.KI.Reg2b
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at a grid point that is neither the first nor the last

The tile's contribution is added to the pooled sums the point before left; the head is not computed and the output
window's buffer is left as found. -/

set_option maxHeartbeats 1000000 in
/-- On whole memrefs — the inputs' at contents `x·`, the output's at `xo`, the scratch at `xs` — the body at a
    point where both tests fail runs to the continuation holding the inputs' and the output's as they were and the
    scratch at `xs` plus the tile's contribution. -/
theorem run2_mid (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S64x3 .f32) (harg11 : arg11.IsWhole) (arg12 : Memref sig .tc .vmem S1x3 .f32) (harg12 : arg12.IsWhole) (arg13 : Memref sig .tc .vmem S64x3 .f32) (harg13 : arg13.IsWhole) (arg14 : Memref sig .tc .vmem S64x64 .f32) (harg14 : arg14.IsWhole)
    (hc0 : ¬condFirst2 i) (hc1 : ¬condLast2 i) (x0 : Vec F S5000x64 .f32) (x1 : Vec F S5000x1 .f32) (x2 : Vec F S1x64 .f32) (x3 : Vec F S5000x1 .i32) (x4 : Vec F S64x1 .f32) (x5 : Vec F S64x64 .f32) (x6 : Vec F S1x64 .f32) (x7 : Vec F S64x64 .f32) (x8 : Vec F S1x64 .f32) (x9 : Vec F S64x3 .f32) (x10 : Vec F S64x3 .f32) (x11 : Vec F S1x3 .f32) (xo : Vec F S64x3 .f32) (xs : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo ∗ owns (c : Thread nD τ) arg14 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo
            ∗ owns (c : Thread nD τ) arg14 fullShare (k2_pay2 x0 x1 x2 x3 xs)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, HO⟩, ⟨%fs, %hfs, HS⟩, Hk⟩
  subst hf0 hf1 hf2 hf3 hf4 hf5 hf6 hf7 hf8 hf9 hf10 hf11 hfo hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HO]
  · iexists fo; isplitr; · ipureintro; rfl
    iexact HO
  iexists _; isplitr
  swap; · iexact HS
  ipureintro
  sl_unfold_words
  rw [View.read_writes_eq_canon _ _ _ (fun y => ⟨_, List.mem_cons_self, View.mem_set_unit_zero hz2 inb_S64x64_S64x64_0_0 y⟩),
    View.canon_unit_zero (S := S64x64) hz2]
  simp only [View.readAt_eq_ld, View.ld_unit_zero (S := S5000x64) hz2, View.ld_unit_zero (S := S5000x1) hz2,
    View.ld_unit_zero (S := S1x64) hz2, View.ld_unit_zero (S := S64x64) hz2]

end Cert.KernelIdeal.Hand

end
-- ==== Proof.KI.Reg2d.lean ====
import proofs.«415102_j60859686584588_3_alg».proof.Proof.KI.Reg2c
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body at the last grid point

The tile's contribution is added to the pooled sums the point before left; then the head is computed from the
completed sums and stored whole into the output window's buffer. -/

set_option maxHeartbeats 1000000 in
/-- On whole memrefs — the inputs' at contents `x·`, the output's at anything, the scratch at `xs` — the body at a
    point where the first-point test fails and the last-point test holds runs to the continuation holding the inputs' as
    they were, the scratch at `xs` plus the tile's contribution, and the output's at the head over those sums. -/
theorem run2_last (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x1 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x3 .f32) (harg10 : arg10.IsWhole) (arg11 : Memref sig .tc .vmem S64x3 .f32) (harg11 : arg11.IsWhole) (arg12 : Memref sig .tc .vmem S1x3 .f32) (harg12 : arg12.IsWhole) (arg13 : Memref sig .tc .vmem S64x3 .f32) (harg13 : arg13.IsWhole) (arg14 : Memref sig .tc .vmem S64x64 .f32) (harg14 : arg14.IsWhole)
    (hc0 : ¬condFirst2 i) (hc1 : condLast2 i) (x0 : Vec F S5000x64 .f32) (x1 : Vec F S5000x1 .f32) (x2 : Vec F S1x64 .f32) (x3 : Vec F S5000x1 .i32) (x4 : Vec F S64x1 .f32) (x5 : Vec F S64x64 .f32) (x6 : Vec F S1x64 .f32) (x7 : Vec F S64x64 .f32) (x8 : Vec F S1x64 .f32) (x9 : Vec F S64x3 .f32) (x10 : Vec F S64x3 .f32) (x11 : Vec F S1x3 .f32) (xs : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (k2_pay3 (k2_pay4 x4 (k2_pay2 x0 x1 x2 x3 xs) x5 x7 x6 x8 x9 x10) x11)
            ∗ owns (c : Thread nD τ) arg14 fullShare (k2_pay2 x0 x1 x2 x3 xs)) -∗ K ⟨⟩))
      ⊢ wp frame (wpE (defs₀ (F := F)) Variants.none c none) E (cc2__pool_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__pool_head_kernel_eq_skeleton]; unfold cc2__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%dout, %fo, -, HO⟩, ⟨%fs, %hfs, HS⟩, Hk⟩
  subst hf0 hf1 hf2 hf3 hf4 hf5 hf6 hf7 hf8 hf9 hf10 hf11 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [HO]
  · iexists _; isplitr
    swap; · iexact HO
    ipureintro
    sl_unfold_words
    rw [View.read_writes_eq_canon _ _ _ (fun y => ⟨_, List.mem_cons_self, View.mem_set_unit_zero hz2 inb_S64x3_S64x3_0_0 y⟩),
      View.canon_unit_zero (S := S64x3) hz2]
    simp only [View.readAt_eq_ld, View.ld_unit_zero (S := S5000x64) hz2, View.ld_unit_zero (S := S5000x1) hz2,
      View.ld_unit_zero (S := S1x64) hz2, View.ld_unit_zero (S := S64x64) hz2, View.ld_unit_zero (S := S64x1) hz2,
      View.ld_unit_zero (S := S64x3) hz2, View.ld_unit_zero (S := S1x3) hz2, View.readCov_unit_zero (S := S64x64) _ hz2]
  iexists _; isplitr
  swap; · iexact HS
  ipureintro
  sl_unfold_words
  rw [View.read_writes_eq_canon _ _ _ (fun y => ⟨_, List.mem_cons_self, View.mem_set_unit_zero hz2 inb_S64x64_S64x64_0_0 y⟩),
    View.canon_unit_zero (S := S64x64) hz2]
  simp only [View.readAt_eq_ld, View.ld_unit_zero (S := S5000x64) hz2, View.ld_unit_zero (S := S5000x1) hz2,
    View.ld_unit_zero (S := S1x64) hz2, View.ld_unit_zero (S := S64x64) hz2]

end Cert.KernelIdeal.Hand

end
-- ==== Proof.KI.Reg2.lean ====
import proofs.«415102_j60859686584588_3_alg».proof.Proof.KI.Reg2d

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 (pooling and head): the proof data and the body obligation, at the entry contents `V` -/

/-! ## The pooled sums, point by point -/

/-- The scratch after the body at point `n`: the first point zeroes it and adds its tile's contribution, each later
    point adds its own to what the point before left. -/
def scr2 (c : Dev nD) : (n : ℕ) → n < cfg2.N → Vec F S64x64 .f32
  | 0, h0 => k2_pay2 (iblk2 V c 0 ⟨0, h0⟩) (iblk2 V c 1 ⟨0, h0⟩) (iblk2 V c 2 ⟨0, h0⟩) (iblk2 V c 3 ⟨0, h0⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩) (scr2 c n (Nat.lt_of_succ_lt hn))

theorem scr2_zero (c : Dev nD) (h0 : 0 < cfg2.N) : scr2 V c 0 h0 = k2_pay2 (iblk2 V c 0 ⟨0, h0⟩) (iblk2 V c 1 ⟨0, h0⟩) (iblk2 V c 2 ⟨0, h0⟩) (iblk2 V c 3 ⟨0, h0⟩) (k2_pay1 (F := F)) := by
  rw [scr2]

theorem scr2_succ (c : Dev nD) (n : ℕ) (hn : n + 1 < cfg2.N) : scr2 V c (n + 1) hn = k2_pay2 (iblk2 V c 0 ⟨n + 1, hn⟩) (iblk2 V c 1 ⟨n + 1, hn⟩) (iblk2 V c 2 ⟨n + 1, hn⟩) (iblk2 V c 3 ⟨n + 1, hn⟩) (scr2 V c n (Nat.lt_of_succ_lt hn)) := by
  rw [scr2]

/-- At the first point. -/
theorem scr2_first (c : Dev nD) (t : Fin cfg2.N) (h : t.val = 0) :
    scr2 V c t.val t.isLt = k2_pay2 (iblk2 V c 0 t) (iblk2 V c 1 t) (iblk2 V c 2 t) (iblk2 V c 3 t) (k2_pay1 (F := F)) := by
  obtain ⟨n, hn⟩ := t
  cases n with
  | zero => exact scr2_zero V c hn
  | succ n => exact absurd h (Nat.succ_ne_zero n)

/-- At a later point: its contribution over what the point before left. -/
theorem scr2_pos (c : Dev nD) (t : Fin cfg2.N) (h : t.val ≠ 0) :
    scr2 V c t.val t.isLt = k2_pay2 (iblk2 V c 0 t) (iblk2 V c 1 t) (iblk2 V c 2 t) (iblk2 V c 3 t)
      (scr2 V c (t.val - 1) (Nat.lt_of_le_of_lt (Nat.sub_le _ _) t.isLt)) := by
  obtain ⟨n, hn⟩ := t
  cases n with
  | zero => exact absurd rfl h
  | succ n => exact scr2_succ V c n hn

/-- The head over the pooled sums at point `t`: what the last point stores into the output window. -/
def head2 (c : Dev nD) (t : Fin cfg2.N) : Vec F S64x3 .f32 :=
  k2_pay3 (k2_pay4 (iblk2 V c 4 t) (scr2 V c t.val t.isLt) (iblk2 V c 5 t) (iblk2 V c 7 t) (iblk2 V c 6 t) (iblk2 V c 8 t) (iblk2 V c 9 t) (iblk2 V c 10 t)) (iblk2 V c 11 t)

/-! ## The region invariant -/

/-- Before position `n`: before the first point the class's invariant (every scoped buffer that is no staging
    buffer of this pipeline at anything, the generator register at some state); afterwards the same with the scratch
    held at the pooled sums the point before left. -/
def Phi2S (c : Dev nD) : (n : ℕ) → n ≤ cfg2.N → sProp 𝕄
  | 0, _ => Pipeline.ΦA spec2 c
  | n + 1, hn => iprop(iprop(owns (c : Thread nD τ) scM2 fullShare (scr2 V c n hn) ∗ others2 (F := F) c) ∗ (∃ r, prngReg c r))

theorem Phi2S_zero (c : Dev nD) (n : ℕ) (h : n ≤ cfg2.N) (hz : n = 0) : Phi2S V c n h = Pipeline.ΦA spec2 c := by
  subst hz; rfl

theorem Phi2S_succ (c : Dev nD) (n : ℕ) (hn : n < cfg2.N) :
    Phi2S V c (n + 1) hn = iprop(iprop(owns (c : Thread nD τ) scM2 fullShare (scr2 V c n hn) ∗ others2 (F := F) c) ∗ (∃ r, prngReg c r)) := rfl

theorem Phi2S_pos (c : Dev nD) (n : ℕ) (h : n ≤ cfg2.N) (hz : n ≠ 0) :
    Phi2S V c n h = iprop(iprop(owns (c : Thread nD τ) scM2 fullShare (scr2 V c (n - 1) (by omega)) ∗ others2 (F := F) c) ∗ (∃ r, prngReg c r)) := by
  cases n with
  | zero => exact absurd rfl hz
  | succ n => rfl

/-! ## The proof data -/

/-- The arrays as the region finds them; after the body at point `t` each input's buffer at its block and the
    output's at the head over the pooled sums there (read at the last point only: elsewhere the window is idle and
    not written back); the invariant `Phi2S`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => head2 V c t
  Φ t := Phi2S V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = head2 V c t := by dsimp only [dat2]

theorem after2_12_last (c : Dev nD) (t : Fin cfg2.N) (ht : t.val = 9) : (dat2 V c).after 12 t = k2_pay3 (k2_pay4 (iblk2 V c 4 t) (scr2 V c t.val t.isLt) (iblk2 V c 5 t) (iblk2 V c 7 t) (iblk2 V c 6 t) (iblk2 V c 8 t) (iblk2 V c 9 t) (iblk2 V c 10 t)) (iblk2 V c 11 t) := by
  dsimp only [dat2, head2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

theorem Phi2S_castSucc (c : Dev nD) (t : Fin cfg2.N) :
    (dat2 V c).Φ t.castSucc = Phi2S V c t.val (Nat.le_of_lt t.isLt) := by
  dsimp only [dat2]; simp only [Fin.coe_castSucc]

theorem Phi2_first (c : Dev nD) : (dat2 V c).Φ 0 = Pipeline.ΦA spec2 c := by
  rw [show (dat2 V c).Φ 0 = Phi2S V c 0 (Nat.zero_le _) from rfl, Phi2S_zero V c 0 _ rfl]

theorem Phi2_last (c : Dev nD) : (dat2 V c).Φ (Fin.last _) ⊢ (Pipeline.ΦA spec2 c : sProp 𝕄) := by
  rw [show (dat2 V c).Φ (Fin.last cfg2.N) = Phi2S V c (Fin.last cfg2.N).val (Nat.le_of_lt_succ (Fin.last cfg2.N).isLt) from rfl,
    Phi2S_pos V c _ _ (by rw [Fin.val_last]; have : cfg2.N = 10 := N_2; omega), PhiA2_eq]
  iintro ⟨⟨HS, HR⟩, Hg⟩
  isplitl [HS HR]
  · isplitl [HS]
    · iexists _; iexact HS
    iexact HR
  iexact Hg

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 4800000 in
/-- The body at any point. The inputs' memrefs hold their blocks; the closed forms of the two tests say which of
    the three control cases the point is in, and that case's run applies. The invariant hands the body the scratch — at
    anything at the first point, at the pooled sums the point before left afterwards — with the other scoped buffers and
    the generator register, which pass through unread, and takes the scratch back at this point's pooled sums. Away from
    the last point the output window is idle and its buffer goes back as found; at the last point it holds the head. The
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).owesAt () t.succ = (dat2 V c).owesAt () t.castSucc from rfl]
  rw [show (dat2 V c).Φ t.succ = Phi2S V c (t.val + 1) t.isLt from rfl, Phi2S_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  rw [show (dat2 V c).leavesExact 5 t = owns (c : Thread nD τ) (st2_5 t) fullShare ((dat2 V c).after 5 t) from by
    unfold Dat.leavesExact; rw [live2_5 t], after2_5]
  rw [show (dat2 V c).leavesExact 6 t = owns (c : Thread nD τ) (st2_6 t) fullShare ((dat2 V c).after 6 t) from by
    unfold Dat.leavesExact; rw [live2_6 t], after2_6]
  rw [show (dat2 V c).leavesExact 7 t = owns (c : Thread nD τ) (st2_7 t) fullShare ((dat2 V c).after 7 t) from by
    unfold Dat.leavesExact; rw [live2_7 t], after2_7]
  rw [show (dat2 V c).leavesExact 8 t = owns (c : Thread nD τ) (st2_8 t) fullShare ((dat2 V c).after 8 t) from by
    unfold Dat.leavesExact; rw [live2_8 t], after2_8]
  rw [show (dat2 V c).leavesExact 9 t = owns (c : Thread nD τ) (st2_9 t) fullShare ((dat2 V c).after 9 t) from by
    unfold Dat.leavesExact; rw [live2_9 t], after2_9]
  rw [show (dat2 V c).leavesExact 10 t = owns (c : Thread nD τ) (st2_10 t) fullShare ((dat2 V c).after 10 t) from by
    unfold Dat.leavesExact; rw [live2_10 t], after2_10]
  rw [show (dat2 V c).leavesExact 11 t = owns (c : Thread nD τ) (st2_11 t) fullShare ((dat2 V c).after 11 t) from by
    unfold Dat.leavesExact; rw [live2_11 t], after2_11]
  have hN : t.val < 10 := lt_of_lt_of_eq t.isLt (show cfg2.N = 10 from N_2)
  by_cases h0 : t.val = 0
  · have hc0 : condFirst2 (grid2.coords t) := (condFirst2_iff t).mpr h0
    have hc1 : ¬condLast2 (grid2.coords t) := fun h => by have := (condLast2_iff t).mp h; omega
    rw [Dat.leavesExact_idle (dat2 V c) 12 t (idle2_12 t hc1) (noFlush2_12 t hc1)]
    rw [scr2_first V c t h0]
    rw [Phi2S_castSucc V c t, Phi2S_zero V c _ _ h0, PhiA2_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run2_first c (grid2.coords t) _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) ((dat2 V c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · have hc0 : ¬condFirst2 (grid2.coords t) := fun h => h0 ((condFirst2_iff t).mp h)
    rw [scr2_pos V c t h0]
    rw [Phi2S_castSucc V c t, Phi2S_pos V c _ _ h0]
    by_cases h9 : t.val = 9
    · have hc1 : condLast2 (grid2.coords t) := (condLast2_iff t).mpr h9
      rw [show (dat2 V c).leavesExact 12 t = owns (c : Thread nD τ) (st2_12 t) fullShare ((dat2 V c).after 12 t) from by
        unfold Dat.leavesExact; rw [live2_12 t hc1], after2_12]
      unfold head2
      rw [scr2_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run2_last c (grid2.coords t) _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (scr2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS]; · iexact HS
      iintro ⟨H0, H1, H2, H3, H4, H5, H6, H7, H8, H9, H10, H11, H12, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have hc1 : ¬condLast2 (grid2.coords t) := fun h => h9 ((condLast2_iff t).mp h)
      rw [Dat.leavesExact_idle (dat2 V c) 12 t (idle2_12 t hc1) (noFlush2_12 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run2_mid c (grid2.coords t) _ _ _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) ((dat2 V c).before 12 t d12) (scr2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists d12; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The run of @main on the TensorCores. Its eight items — three stretches of host operations, the first region, a
   stretch, the second region, a stretch, the third region — are taken in order. What each core's buffers hold at
   every boundary is a fold from the launch memory: a stretch takes the contents to what its operations compute from
   them; a region leaves each of its windows' arrays at what the pipeline's write-backs leave and every other buffer as
   it was entered. Between two items a core holds every unscoped buffer whole at the boundary's contents, its generator
   register at some state, and owes nothing. Every weakly fair execution terminates, and the final memory holds the
   last boundary's contents; in particular every argument ends as launched, and the result's array ends at the single
   write-back of the third region's last point. -/
import proofs.«415102_j60859686584588_3_alg».proof.Proof.KI.Reg0
import proofs.«415102_j60859686584588_3_alg».proof.Proof.KI.Reg1
import proofs.«415102_j60859686584588_3_alg».proof.Proof.KI.Reg2
import proofs.«415102_j60859686584588_3_alg».proof.Proof.Gen.KernelIdeal.Launch
import proofs.«415102_j60859686584588_3_alg».proof.Proof.Gen.KernelIdeal.Skeleton
import proofs.«415102_j60859686584588_3_alg».proof.Proof.Gen.KernelIdeal.Points
import proofs.«415102_j60859686584588_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What a core's buffers hold at each boundary of @main

Eight items run in order: three stretches of host operations (the edge lists with their self loops and the
degrees' inverse square roots; the zeroing of the scale at rows of degree zero; the scale as a column), the first
region, a stretch (the first aggregation and the bias as a row), the second region, a stretch (the second
aggregation and the operands of the head), the third region. A stretch takes the contents to what its operations
compute from them. A region leaves each of its windows' arrays at what its write-backs leave, and every other buffer
as it was entered. -/

/-- At launch. -/
abbrev W0 : Dev nD → Valuation τ sig (Elt F) := fun c b => m (c, b)
/-- After the first stretch. -/
abbrev W1 : Dev nD → Valuation τ sig (Elt F) := fun c => StableHlo.after hostOps0 (W0 m c)
/-- After the second stretch. -/
abbrev W2 : Dev nD → Valuation τ sig (Elt F) := fun c => StableHlo.after hostOps0_1 (W1 m c)
/-- After the third stretch: what the first region is entered from. -/
abbrev W3 : Dev nD → Valuation τ sig (Elt F) := fun c => StableHlo.after hostOps0_2 (W2 m c)
/-- The same three, read at the TensorCore's references. -/
abbrev V1 : (c : Dev nD) → (b : Ref sig .tc) → Buf (Elt F) ((c : Thread nD τ).loc b) := fun c b => W1 m c (Proc.devRef .tc b)
abbrev V2 : (c : Dev nD) → (b : Ref sig .tc) → Buf (Elt F) ((c : Thread nD τ).loc b) := fun c b => W2 m c (Proc.devRef .tc b)
abbrev V3 : (c : Dev nD) → (b : Ref sig .tc) → Buf (Elt F) ((c : Thread nD τ).loc b) := fun c b => W3 m c (Proc.devRef .tc b)

/-- When the first region is left: its four arrays at what the pipeline leaves, the rest as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c (Proc.devRef .tc b)
/-- After the stretch between the first two regions: what the second region is entered from. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c (Proc.devRef .tc b)
/-- When the second region is left: its five arrays at what the pipeline leaves, the rest as entered. -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c (Proc.devRef .tc b)
/-- After the stretch between the last two regions: what the third region is entered from. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c (Proc.devRef .tc b)
/-- When the third region is left, which is the end: its thirteen arrays at what the pipeline leaves, the rest as
    entered. -/
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c (Proc.devRef .tc b)

/-! ## A stretch changes only what it writes -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h

/-! ## A region changes only the array of its result -/

/-- The first region: a window's array holds what the pipeline leaves in it; -/
theorem W4_arr (c : Dev nD) (w : Fin cfg0.W) :
    W4 m c (Proc.devRef .tc (Pipeline.arrRef spec0 w)) = (dat0 (V3 m) c).arrAt w cfg0.N := by
  rw [W4]; exact Pipeline.withArrays_arr spec0 launch0.win.arr_inj c (W3 m c) _ w
/-- a buffer that is no window's array is as entered; -/
theorem W4_of_ne (c : Dev nD) (b : Ref sig .tc) (hb : ∀ w, Pipeline.arrRef spec0 w ≠ b) :
    W4 m c (Proc.devRef .tc b) = W3 m c (Proc.devRef .tc b) := by
  rw [W4]; exact Pipeline.withArrays_of_ne spec0 c (W3 m c) _ b hb
/-- the result's array holds the fold of the ten write-backs; -/
theorem W4_out (c : Dev nD) : W4 m c (Proc.devRef .tc main_v19) = (dat0 (V3 m) c).arrAt 3 cfg0.N := W4_arr m c 3
/-- an operand's array is only read, so it too is as entered. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hw _).trans (A_eq0 (V3 m) c w))
/-- Every window but the last is an operand's. -/
theorem operands0 : ∀ w : Fin cfg0.W, Pipeline.arrRef spec0 w ≠ main_v19 → (cfg0.win w).isOut = false := by decide
/-- So every buffer but the result's is as entered. -/
theorem W4_keep (c : Dev nD) (b : Ref sig .tc) (hb : b ≠ main_v19) : W4 m c (Proc.devRef .tc b) = W3 m c (Proc.devRef .tc b) := by
  by_cases h : ∃ w, Pipeline.arrRef spec0 w = b
  · obtain ⟨w, rfl⟩ := h
    exact W4_in m c w (operands0 w hb)
  · exact W4_of_ne m c b fun w e => h ⟨w, e⟩

/-- The second region, likewise. -/
theorem W6_arr (c : Dev nD) (w : Fin cfg1.W) :
    W6 m c (Proc.devRef .tc (Pipeline.arrRef spec1 w)) = (dat1 (V5 m) c).arrAt w cfg1.N := by
  rw [W6]; exact Pipeline.withArrays_arr spec1 launch1.win.arr_inj c (W5 m c) _ w
theorem W6_of_ne (c : Dev nD) (b : Ref sig .tc) (hb : ∀ w, Pipeline.arrRef spec1 w ≠ b) :
    W6 m c (Proc.devRef .tc b) = W5 m c (Proc.devRef .tc b) := by
  rw [W6]; exact Pipeline.withArrays_of_ne spec1 c (W5 m c) _ b hb
theorem W6_out (c : Dev nD) : W6 m c (Proc.devRef .tc main_v34) = (dat1 (V5 m) c).arrAt 4 cfg1.N := W6_arr m c 4
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hw _).trans (A_eq1 (V5 m) c w))
theorem operands1 : ∀ w : Fin cfg1.W, Pipeline.arrRef spec1 w ≠ main_v34 → (cfg1.win w).isOut = false := by decide
theorem W6_keep (c : Dev nD) (b : Ref sig .tc) (hb : b ≠ main_v34) : W6 m c (Proc.devRef .tc b) = W5 m c (Proc.devRef .tc b) := by
  by_cases h : ∃ w, Pipeline.arrRef spec1 w = b
  · obtain ⟨w, rfl⟩ := h
    exact W6_in m c w (operands1 w hb)
  · exact W6_of_ne m c b fun w e => h ⟨w, e⟩

/-- The third region, likewise; its result's array is written back once, at the last point. -/
theorem W8_arr (c : Dev nD) (w : Fin cfg2.W) :
    W8 m c (Proc.devRef .tc (Pipeline.arrRef spec2 w)) = (dat2 (V7 m) c).arrAt w cfg2.N := by
  rw [W8]; exact Pipeline.withArrays_arr spec2 launch2.win.arr_inj c (W7 m c) _ w
theorem W8_of_ne (c : Dev nD) (b : Ref sig .tc) (hb : ∀ w, Pipeline.arrRef spec2 w ≠ b) :
    W8 m c (Proc.devRef .tc b) = W7 m c (Proc.devRef .tc b) := by
  rw [W8]; exact Pipeline.withArrays_of_ne spec2 c (W7 m c) _ b hb
theorem W8_out (c : Dev nD) : W8 m c (Proc.devRef .tc main_v60) = (dat2 (V7 m) c).arrAt 12 cfg2.N := W8_arr m c 12
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hw _).trans (A_eq2 (V7 m) c w))
theorem operands2 : ∀ w : Fin cfg2.W, Pipeline.arrRef spec2 w ≠ main_v60 → (cfg2.win w).isOut = false := by decide
theorem W8_keep (c : Dev nD) (b : Ref sig .tc) (hb : b ≠ main_v60) : W8 m c (Proc.devRef .tc b) = W7 m c (Proc.devRef .tc b) := by
  by_cases h : ∃ w, Pipeline.arrRef spec2 w = b
  · obtain ⟨w, rfl⟩ := h
    exact W8_in m c w (operands2 w hb)
  · exact W8_of_ne m c b fun w e => h ⟨w, e⟩

/-! ## The arguments end as launched

No stretch writes an argument and no region has one for its result, so the contents at an argument's buffer walk
back through the eight items to the launch memory. -/

/-- A buffer no stretch writes and that is no region's result holds at the end what it held at launch. -/
theorem W8_of_unwritten (c : Dev nD) (b : Ref sig .tc) (h0 : b ∉ hostOps0_W) (h1 : b ∉ hostOps0_1_W) (h2 : b ∉ hostOps0_2_W)
    (h3 : b ≠ main_v19) (h4 : b ∉ hostOps1_W) (h5 : b ≠ main_v34) (h6 : b ∉ hostOps2_W) (h7 : b ≠ main_v60) :
    W8 m c (Proc.devRef .tc b) = m ((c : Thread nD τ).loc b) :=
  (W8_keep m c b h7).trans <| (W7_of m c b h6).trans <| (W6_keep m c b h5).trans <| (W5_of m c b h4).trans <|
    (W4_keep m c b h3).trans <| (W3_of m c b h2).trans <| (W2_of m c b h1).trans <| (W1_of m c b h0).trans rfl

theorem W8_main_arg0 (c : Dev nD) : W8 m c (Proc.devRef .tc main_arg0) = m ((c : Thread nD τ).loc main_arg0) :=
  W8_of_unwritten m c main_arg0 (by decide) (by decide) (by decide) (by decide) (by decide) (by decide) (by decide) (by decide)
theorem W8_main_arg1 (c : Dev nD) : W8 m c (Proc.devRef .tc main_arg1) = m ((c : Thread nD τ).loc main_arg1) :=
  W8_of_unwritten m c main_arg1 (by decide) (by decide) (by decide) (by decide) (by decide) (by decide) (by decide) (by decide)
theorem W8_main_arg2 (c : Dev nD) : W8 m c (Proc.devRef .tc main_arg2) = m ((c : Thread nD τ).loc main_arg2) :=
  W8_of_unwritten m c main_arg2 (by decide) (by decide) (by decide) (by decide) (by decide) (by decide) (by decide) (by decide)
theorem W8_main_arg3 (c : Dev nD) : W8 m c (Proc.devRef .tc main_arg3) = m ((c : Thread nD τ).loc main_arg3) :=
  W8_of_unwritten m c main_arg3 (by decide) (by decide) (by decide) (by decide) (by decide) (by decide) (by decide) (by decide)
theorem W8_main_arg4 (c : Dev nD) : W8 m c (Proc.devRef .tc main_arg4) = m ((c : Thread nD τ).loc main_arg4) :=
  W8_of_unwritten m c main_arg4 (by decide) (by decide) (by decide) (by decide) (by decide) (by decide) (by decide) (by decide)
theorem W8_main_arg5 (c : Dev nD) : W8 m c (Proc.devRef .tc main_arg5) = m ((c : Thread nD τ).loc main_arg5) :=
  W8_of_unwritten m c main_arg5 (by decide) (by decide) (by decide) (by decide) (by decide) (by decide) (by decide) (by decide)
theorem W8_main_arg6 (c : Dev nD) : W8 m c (Proc.devRef .tc main_arg6) = m ((c : Thread nD τ).loc main_arg6) :=
  W8_of_unwritten m c main_arg6 (by decide) (by decide) (by decide) (by decide) (by decide) (by decide) (by decide) (by decide)
theorem W8_main_arg7 (c : Dev nD) : W8 m c (Proc.devRef .tc main_arg7) = m ((c : Thread nD τ).loc main_arg7) :=
  W8_of_unwritten m c main_arg7 (by decide) (by decide) (by decide) (by decide) (by decide) (by decide) (by decide) (by decide)
theorem W8_main_arg8 (c : Dev nD) : W8 m c (Proc.devRef .tc main_arg8) = m ((c : Thread nD τ).loc main_arg8) :=
  W8_of_unwritten m c main_arg8 (by decide) (by decide) (by decide) (by decide) (by decide) (by decide) (by decide) (by decide)
theorem W8_main_arg9 (c : Dev nD) : W8 m c (Proc.devRef .tc main_arg9) = m ((c : Thread nD τ).loc main_arg9) :=
  W8_of_unwritten m c main_arg9 (by decide) (by decide) (by decide) (by decide) (by decide) (by decide) (by decide) (by decide)
theorem W8_main_arg10 (c : Dev nD) : W8 m c (Proc.devRef .tc main_arg10) = m ((c : Thread nD τ).loc main_arg10) :=
  W8_of_unwritten m c main_arg10 (by decide) (by decide) (by decide) (by decide) (by decide) (by decide) (by decide) (by decide)
theorem W8_main_arg11 (c : Dev nD) : W8 m c (Proc.devRef .tc main_arg11) = m ((c : Thread nD τ).loc main_arg11) :=
  W8_of_unwritten m c main_arg11 (by decide) (by decide) (by decide) (by decide) (by decide) (by decide) (by decide) (by decide)
theorem W8_main_arg12 (c : Dev nD) : W8 m c (Proc.devRef .tc main_arg12) = m ((c : Thread nD τ).loc main_arg12) :=
  W8_of_unwritten m c main_arg12 (by decide) (by decide) (by decide) (by decide) (by decide) (by decide) (by decide) (by decide)
theorem W8_main_arg13 (c : Dev nD) : W8 m c (Proc.devRef .tc main_arg13) = m ((c : Thread nD τ).loc main_arg13) :=
  W8_of_unwritten m c main_arg13 (by decide) (by decide) (by decide) (by decide) (by decide) (by decide) (by decide) (by decide)

/-! # The proof data of the three pipelines, and what a core holds between items -/

/-- Each pipeline's proof data at the contents its region is entered from. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c

abbrev 𝒱₀ : Variants := Variants.none
/-- No core owes another anything, so no level is assigned. -/
abbrev L : GSem nD τ sig → Finset Unit := fun _ => ∅
abbrev lv : GSem nD τ sig → Unit → ℕ := fun _ _ => 0
/-- What a core holds between items beside its buffers: its generator register at some state, and that it owes nothing. -/
abbrev R (c : Dev nD) : sProp 𝕄 := iprop((∃ r, prngReg c r) ∗ ∃ W, owes (c : Thread nD τ) (0 : CellTallies nD τ sig Unit) W)

/-- A stretch of host operations as a segment: from every unscoped buffer at contents W it runs to the same buffers
    at what its operations compute from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among those a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A core that owes nothing owes nothing within any bound that admits every pair; -/
theorem owes_within (c : Dev nD) (B : Set (SemLoc sig × Unit)) (hB : ∀ x, x ∈ B) :
    (iprop(∃ W, owes (c : Thread nD τ) (0 : CellTallies nD τ sig Unit) W) : sProp 𝕄) ⊢ Pipeline.owesWithin c 0 B := by
  iintro ⟨%W, Howes⟩
  iexists W
  isplitr; · ipureintro; exact fun x _ => hB x
  iexact Howes
/-- and conversely, forgetting the bound. -/
theorem owes_of_within (c : Dev nD) (B : Set (SemLoc sig × Unit)) :
    (Pipeline.owesWithin c 0 B : sProp 𝕄) ⊢ iprop(∃ W, owes (c : Thread nD τ) (0 : CellTallies nD τ sig Unit) W) := by
  iintro ⟨%W, -, Howes⟩
  iexists W
  iexact Howes

/-! # The regions as segments -/

/-- Entering the first region: out of every unscoped buffer at the boundary's contents come the region's arrays at the contents
    its proof data starts from and, beside them, the unscoped buffers that are no window's array; the generator register
    goes to the invariant; nothing is owed; the pipeline has no prefetched table. -/
theorem enter0 (c : Dev nD) :
    iprop(iprop(StableHlo.held (c : Thread nD τ) (Pipeline.ucRefs τ sig) (W3 m c) ∗ R c)
        ∗ Pipeline.ownSems0 (fun k : PEmpty => k.elim) c ∗ levAts L lv)
      ⊢ |={Set.univ}=> (iprop((pdats m 0 c).arrays ((pdats m 0 c).arrAt · 0)
          ∗ Pipeline.prefHeld (pcfgs (F := F) 0).pre c (fun _ => fullShare) (adm (F := F) 0).1
          ∗ (pdats m 0 c).owesAt () 0 ∗ iprop(∃ r, prngReg c r)
          ∗ Pipeline.unscopedRest (Ix := Unit) (Name := ℕ) (U := UR sig nD τ) (Lvl := ℕ) spec0 c (V3 m c)) : sProp 𝕄) := by
  have hsplit := Pipeline.arrays_of_unscopedBufs (p := 0) (pcfgs (F := F)) adm (pdats m) launch0.win launch0.arr_whole c
    ((pdats m 0 c).share_full fun _ => rfl) (V3 m c) fun _ => rfl
  rw [Pipeline.unscopedBufs_held] at hsplit
  rw [Pipeline.ownSems0_none]
  iintro ⟨⟨Hbufs, Hreg, Howes⟩, -, -⟩
  ihave Hparts := hsplit $$ Hbufs
  icases Hparts with ⟨Harr, Hrest⟩
  imodintro
  isplitl [Harr]; · iexact Harr
  isplitr
  · unfold Pipeline.prefHeld
    rw [show (Finset.univ : Finset (Fin 0)) = ∅ from rfl, BI.bigSep_empty]
    iempintro
  isplitl [Howes]
  · iapply (owes_within c _ fun _ => Or.inl trivial)
    iexact Howes
  isplitl [Hreg]; · iexact Hreg
  iexact Hrest

/-- Leaving it: the arrays at what the pipeline leaves, beside the unscoped buffers that are no window's array as they
    were entered, are every unscoped buffer at the next boundary's contents; the generator register comes back; nothing
    is owed. -/
theorem leave0 (c : Dev nD) :
    (iprop((pdats m 0 c).arrays ((pdats m 0 c).arrAt · cfg0.N) ∗ (pdats m 0 c).owesAt () (Fin.last cfg0.N)
        ∗ iprop(∃ r, prngReg c r)
        ∗ Pipeline.unscopedRest (Ix := Unit) (Name := ℕ) (U := UR sig nD τ) (Lvl := ℕ) spec0 c (V3 m c)) : sProp 𝕄)
      ⊢ |={Set.univ}=> iprop(StableHlo.held (c : Thread nD τ) (Pipeline.ucRefs τ sig) (W4 m c) ∗ R c) := by
  have hjoin := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V3 m c) (V4 m c) ((pdats m 0 c).arrAt · cfg0.N) (fun w => (W4_arr m c w).symm)
    (fun b hb => W4_of_ne m c b fun w e => hb (Finset.mem_image.mpr ⟨w, Finset.mem_univ _, e⟩))
  rw [Pipeline.unscopedBufs_held] at hjoin
  iintro ⟨Harr, Howes, Hreg, Hrest⟩
  imodintro
  isplitl [Harr Hrest]
  · iapply hjoin
    isplitl [Harr] <;> iassumption
  isplitl [Hreg]; · iexact Hreg
  iapply (owes_of_within c _)
  iexact Howes

set_option backward.isDefEq.respectTransparency.types false in
/-- The first region as a segment: entered from every unscoped buffer at the contents before it, left at
    the contents after it, the generator register through the invariant and back, no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero (pcfgs (F := F)) adm (pdats m) () L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := enter0 m c
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none]
    rw [show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := leave0 m c

/-- Entering the second region: out of every unscoped buffer at the boundary's contents come the region's arrays at the contents
    its proof data starts from and, beside them, the unscoped buffers that are no window's array; the generator register
    goes to the invariant; nothing is owed; the pipeline has no prefetched table. -/
theorem enter1 (c : Dev nD) :
    iprop(iprop(StableHlo.held (c : Thread nD τ) (Pipeline.ucRefs τ sig) (W5 m c) ∗ R c)
        ∗ Pipeline.ownSems0 (fun k : PEmpty => k.elim) c ∗ levAts L lv)
      ⊢ |={Set.univ}=> (iprop((pdats m 1 c).arrays ((pdats m 1 c).arrAt · 0)
          ∗ Pipeline.prefHeld (pcfgs (F := F) 1).pre c (fun _ => fullShare) (adm (F := F) 1).1
          ∗ (pdats m 1 c).owesAt () 0 ∗ iprop(∃ r, prngReg c r)
          ∗ Pipeline.unscopedRest (Ix := Unit) (Name := ℕ) (U := UR sig nD τ) (Lvl := ℕ) spec1 c (V5 m c)) : sProp 𝕄) := by
  have hsplit := Pipeline.arrays_of_unscopedBufs (p := 1) (pcfgs (F := F)) adm (pdats m) launch1.win launch1.arr_whole c
    ((pdats m 1 c).share_full fun _ => rfl) (V5 m c) fun _ => rfl
  rw [Pipeline.unscopedBufs_held] at hsplit
  rw [Pipeline.ownSems0_none]
  iintro ⟨⟨Hbufs, Hreg, Howes⟩, -, -⟩
  ihave Hparts := hsplit $$ Hbufs
  icases Hparts with ⟨Harr, Hrest⟩
  imodintro
  isplitl [Harr]; · iexact Harr
  isplitr
  · unfold Pipeline.prefHeld
    rw [show (Finset.univ : Finset (Fin 0)) = ∅ from rfl, BI.bigSep_empty]
    iempintro
  isplitl [Howes]
  · iapply (owes_within c _ fun _ => Or.inl trivial)
    iexact Howes
  isplitl [Hreg]; · iexact Hreg
  iexact Hrest

/-- Leaving it: the arrays at what the pipeline leaves, beside the unscoped buffers that are no window's array as they
    were entered, are every unscoped buffer at the next boundary's contents; the generator register comes back; nothing
    is owed. -/
theorem leave1 (c : Dev nD) :
    (iprop((pdats m 1 c).arrays ((pdats m 1 c).arrAt · cfg1.N) ∗ (pdats m 1 c).owesAt () (Fin.last cfg1.N)
        ∗ iprop(∃ r, prngReg c r)
        ∗ Pipeline.unscopedRest (Ix := Unit) (Name := ℕ) (U := UR sig nD τ) (Lvl := ℕ) spec1 c (V5 m c)) : sProp 𝕄)
      ⊢ |={Set.univ}=> iprop(StableHlo.held (c : Thread nD τ) (Pipeline.ucRefs τ sig) (W6 m c) ∗ R c) := by
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V5 m c) (V6 m c) ((pdats m 1 c).arrAt · cfg1.N) (fun w => (W6_arr m c w).symm)
    (fun b hb => W6_of_ne m c b fun w e => hb (Finset.mem_image.mpr ⟨w, Finset.mem_univ _, e⟩))
  rw [Pipeline.unscopedBufs_held] at hjoin
  iintro ⟨Harr, Howes, Hreg, Hrest⟩
  imodintro
  isplitl [Harr Hrest]
  · iapply hjoin
    isplitl [Harr] <;> iassumption
  isplitl [Hreg]; · iexact Hreg
  iapply (owes_of_within c _)
  iexact Howes

set_option backward.isDefEq.respectTransparency.types false in
/-- The second region as a segment: entered from every unscoped buffer at the contents before it, left at
    the contents after it, the generator register through the invariant and back, no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero (pcfgs (F := F)) adm (pdats m) () L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := enter1 m c
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none]
    rw [show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := leave1 m c

/-- Entering the third region: out of every unscoped buffer at the boundary's contents come the region's arrays at the contents
    its proof data starts from and, beside them, the unscoped buffers that are no window's array; the generator register
    goes to the invariant; nothing is owed; the pipeline has no prefetched table. -/
theorem enter2 (c : Dev nD) :
    iprop(iprop(StableHlo.held (c : Thread nD τ) (Pipeline.ucRefs τ sig) (W7 m c) ∗ R c)
        ∗ Pipeline.ownSems0 (fun k : PEmpty => k.elim) c ∗ levAts L lv)
      ⊢ |={Set.univ}=> (iprop((pdats m 2 c).arrays ((pdats m 2 c).arrAt · 0)
          ∗ Pipeline.prefHeld (pcfgs (F := F) 2).pre c (fun _ => fullShare) (adm (F := F) 2).1
          ∗ (pdats m 2 c).owesAt () 0 ∗ iprop(∃ r, prngReg c r)
          ∗ Pipeline.unscopedRest (Ix := Unit) (Name := ℕ) (U := UR sig nD τ) (Lvl := ℕ) spec2 c (V7 m c)) : sProp 𝕄) := by
  have hsplit := Pipeline.arrays_of_unscopedBufs (p := 2) (pcfgs (F := F)) adm (pdats m) launch2.win launch2.arr_whole c
    ((pdats m 2 c).share_full fun _ => rfl) (V7 m c) fun _ => rfl
  rw [Pipeline.unscopedBufs_held] at hsplit
  rw [Pipeline.ownSems0_none]
  iintro ⟨⟨Hbufs, Hreg, Howes⟩, -, -⟩
  ihave Hparts := hsplit $$ Hbufs
  icases Hparts with ⟨Harr, Hrest⟩
  imodintro
  isplitl [Harr]; · iexact Harr
  isplitr
  · unfold Pipeline.prefHeld
    rw [show (Finset.univ : Finset (Fin 0)) = ∅ from rfl, BI.bigSep_empty]
    iempintro
  isplitl [Howes]
  · iapply (owes_within c _ fun _ => Or.inl trivial)
    iexact Howes
  isplitl [Hreg]; · iexact Hreg
  iexact Hrest

/-- Leaving it: the arrays at what the pipeline leaves, beside the unscoped buffers that are no window's array as they
    were entered, are every unscoped buffer at the next boundary's contents; the generator register comes back; nothing
    is owed. -/
theorem leave2 (c : Dev nD) :
    (iprop((pdats m 2 c).arrays ((pdats m 2 c).arrAt · cfg2.N) ∗ (pdats m 2 c).owesAt () (Fin.last cfg2.N)
        ∗ iprop(∃ r, prngReg c r)
        ∗ Pipeline.unscopedRest (Ix := Unit) (Name := ℕ) (U := UR sig nD τ) (Lvl := ℕ) spec2 c (V7 m c)) : sProp 𝕄)
      ⊢ |={Set.univ}=> iprop(StableHlo.held (c : Thread nD τ) (Pipeline.ucRefs τ sig) (W8 m c) ∗ R c) := by
  have hjoin := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (V7 m c) (V8 m c) ((pdats m 2 c).arrAt · cfg2.N) (fun w => (W8_arr m c w).symm)
    (fun b hb => W8_of_ne m c b fun w e => hb (Finset.mem_image.mpr ⟨w, Finset.mem_univ _, e⟩))
  rw [Pipeline.unscopedBufs_held] at hjoin
  iintro ⟨Harr, Howes, Hreg, Hrest⟩
  imodintro
  isplitl [Harr Hrest]
  · iapply hjoin
    isplitl [Harr] <;> iassumption
  isplitl [Hreg]; · iexact Hreg
  iapply (owes_of_within c _)
  iexact Howes

set_option backward.isDefEq.respectTransparency.types false in
/-- The third region as a segment: entered from every unscoped buffer at the contents before it, left at
    the contents after it, the generator register through the invariant and back, no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero (pcfgs (F := F)) adm (pdats m) () L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := enter2 m c
  hin c := by
    rw [show (pdats m 2 c).Φ 0 = Pipeline.ΦA spec2 c from Phi2_first (V7 m) c]
    unfold Pipeline.ΦA
    iintro ⟨Hreg, -, Hscoped⟩
    isplitl [Hscoped]; · iexact Hscoped
    iexact Hreg
  hout c := by
    rw [Pipeline.ownSems0_none]
    refine (Phi2_last (V7 m) c).trans ?_
    unfold Pipeline.ΦA
    iintro ⟨Hscoped, Hreg⟩
    isplitl [Hreg]; · iexact Hreg
    isplitr; · iempintro
    iexact Hscoped
  hexit c := leave2 m c

/-! # @main as its segments, and the launch -/

/-- The eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- @main is the run of those segments. -/
theorem main_run (c : Dev nD) : main (F := F) c = Pipeline.Seg.run (segs m) := (main_chain c).trans (by chain_rfl)

/-- What a core holds at the end, but for owing nothing: every unscoped buffer at the last contents, the generator
    register at some state. -/
abbrev Tₙ (c : Dev nD) : sProp 𝕄 := iprop(StableHlo.held (c : Thread nD τ) (Pipeline.ucRefs τ sig) (W8 m c) ∗ ∃ r, prngReg c r)

/-- What the third region leaves is that, beside the core owing nothing: the same three things, grouped otherwise. -/
theorem end_state (c : Dev nD) :
    (iprop(StableHlo.held (c : Thread nD τ) (Pipeline.ucRefs τ sig) (W8 m c) ∗ R c) : sProp 𝕄)
      ⊢ iprop(Tₙ m c ∗ ∃ W, owes (c : Thread nD τ) (0 : CellTallies nD τ sig Unit) W) := by
  iintro ⟨Hbufs, Hreg, Howes⟩
  isplitr [Howes]
  · isplitl [Hbufs]
    · iexact Hbufs
    · iexact Hreg
  · iexact Howes

/-- What a core holds at the end, read against a final state: that state's memory has the last contents at every
    unscoped buffer. -/
theorem final_read (c : Dev nD) (s' : Phys nD τ sig (Elt F)) :
    (iprop(Tₙ m c ∗ SI s') : sProp 𝕄)
      ⊢ |={Set.univ}=> iprop(⌜∀ b ∈ Pipeline.ucRefs τ sig, s'.mem.mem (((c : Thread nD τ)).1, b) = W8 m c b⌝ ∗ SI s') := by
  have hread := pointsTo_read_all (Ix := Unit) (Name := ℕ) (U := UR sig nD τ) (Lvl := ℕ)
    (Pipeline.ucRefs τ sig) (fun b => (((c : Thread nD τ)).1, b)) (W8 m c) s'
  iintro ⟨⟨Hbufs, -⟩, HSI⟩
  unfold StableHlo.held
  imodintro
  iapply hread
  isplitl [Hbufs]
  · iexact Hbufs
  · iexact HSI

set_option backward.isDefEq.respectTransparency.types false in
/-- THE RUN: every weakly fair execution of @main from memory m with every counter at zero terminates, and the final
    memory holds, on every core and at every unscoped buffer, the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      -- the launch's ghost element is the pipelines' own, and the cores are handed nothing beside it
      have hown : (ownU (initOf (Pipeline.cells cfgs cellOf_inj) (Pipeline.launchToks cfgs cellOf_inj)) : sProp 𝕄)
          ⊢ BI.own (emb₁ (initOf (Pipeline.cells (Pipeline.pin (pcfgs (F := F)) adm) cellOf_inj)
              (Pipeline.launchToks (Pipeline.pin (pcfgs (F := F)) adm) cellOf_inj))) := .rfl
      rw [BI.bigSep_emp_const]
      iintro Hown
      imodintro
      isplitl [Hown]
      · iapply hown; iexact Hown
      · iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => end_state m c⟩)
    (hinit := by
      -- at launch a core has its unscoped buffers at the launch memory, its generator register as seeded, and owes nothing
      refine Pipeline.initEach L lv fun c => ?_
      have hbufs : (unscopedBufs c (fun b => m ((c : Thread nD τ).loc b)) : sProp 𝕄)
          = StableHlo.held (c : Thread nD τ) (Pipeline.ucRefs τ sig) (W0 m c) := Pipeline.unscopedBufs_held c (W0 m c)
      rw [hbufs]
      iintro ⟨⟨Hbufs, -, Howes, -, Hreg, -⟩, -⟩
      imodintro
      isplitl [Hbufs]; · iexact Hbufs
      isplitl [Hreg]
      · iexists (ρ c); iexact Hreg
      · iexists ∅; iexact Howes)
    (QY := fun c s => ∀ b ∈ Pipeline.ucRefs τ sig, s.mem (((c : Thread nD τ)).1, b) = W8 m c b)
    (hfin := fun c s' => final_read m c s')
    (hQ := fun s h => h)

/-- THE FRAME: every weakly fair execution of @main from memory m with every counter at zero terminates, and every
    argument's array ends holding what it held at launch: each is an unscoped buffer, which ends at the last
    boundary's contents, and those walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W8_main_arg0 m c),
      (h c _ (mem_uc main_arg1 (by decide))).trans (W8_main_arg1 m c),
      (h c _ (mem_uc main_arg2 (by decide))).trans (W8_main_arg2 m c),
      (h c _ (mem_uc main_arg3 (by decide))).trans (W8_main_arg3 m c),
      (h c _ (mem_uc main_arg4 (by decide))).trans (W8_main_arg4 m c),
      (h c _ (mem_uc main_arg5 (by decide))).trans (W8_main_arg5 m c),
      (h c _ (mem_uc main_arg6 (by decide))).trans (W8_main_arg6 m c),
      (h c _ (mem_uc main_arg7 (by decide))).trans (W8_main_arg7 m c),
      (h c _ (mem_uc main_arg8 (by decide))).trans (W8_main_arg8 m c),
      (h c _ (mem_uc main_arg9 (by decide))).trans (W8_main_arg9 m c),
      (h c _ (mem_uc main_arg10 (by decide))).trans (W8_main_arg10 m c),
      (h c _ (mem_uc main_arg11 (by decide))).trans (W8_main_arg11 m c),
      (h c _ (mem_uc main_arg12 (by decide))).trans (W8_main_arg12 m c),
      (h c _ (mem_uc main_arg13 (by decide))).trans (W8_main_arg13 m c)⟩) (run_main m ρ)

end Cert.KernelIdeal.Hand

end
-- ==== Proof.Chains.lean ====
/-
  The index and weight chains both programs share, as functions of the argument arrays, and their readings at
  plain indices.

  From the edge list `a1 : [2, 800000]`, the edge weights `a2 : [800000]` and the graph labels `a3 : [50000]`:
  the message sources and targets are a row of the edge list followed by every node once (a self loop per node),
  the message weights are the edge weights followed by a one per node; the degree of a node is the sum of the
  weights of the messages that land on it, its normalising factor the reciprocal square root of the degree where
  the degree is positive and zero elsewhere; the number of nodes of a graph is the sum of a one per node that
  carries its label.  A row lookup reads its start words signed, a negative word shifted up by the number of rows;
  an accumulating scatter reads its start words signed as they are.
-/
import proofs.«415102_j60859686584588_3_alg».proof.KernelIdeal
import Idealize.ShloMosaic.PureOps.Ideal
import Idealize.ShloMosaic.Lib.ValueIdx

noncomputable section

namespace Cert.Chains

open Idealize.ShloMosaic Idealize.ShloMosaic.ValueIdx
open Cert.KernelIdeal Cert.KernelIdeal.Facts₀

variable [Cert.KernelIdeal.Facts₀]

/-! ## The chains -/

/-- The message sources: row 0 of the edge list, then every node. -/
def srcC (a1 : IVec S2x800000 32) : IVec S850000 32 :=
  concatenate S850000 0
    [⟨S800000, shapeCast S800000 (extractStridedSlice S1x800000 ![0, 0] a1 slices_S2x800000_S1x800000_0_0) shapeCasts_S1x800000_S800000⟩,
      ⟨S50000, iotaInDim S50000 32 0⟩]
    concatenates_S800000_S50000_S850000_d0

/-- The message targets: row 1 of the edge list, then every node. -/
def dstC (a1 : IVec S2x800000 32) : IVec S850000 32 :=
  concatenate S850000 0
    [⟨S800000, shapeCast S800000 (extractStridedSlice S1x800000 ![1, 0] a1 slices_S2x800000_S1x800000_1_0) shapeCasts_S1x800000_S800000⟩,
      ⟨S50000, iotaInDim S50000 32 0⟩]
    concatenates_S800000_S50000_S850000_d0

/-- The message weights: the edge weights, then a one per node. -/
def wC (a2 : FVec Ideal S800000 .f32) : FVec Ideal S850000 .f32 :=
  concatenate S850000 0
    [⟨S800000, a2⟩,
      ⟨S50000, broadcastInDim S50000 ![] bcast_S_S50000 (constant (F := Ideal) S_ .f32 0x3F800000#32)⟩]
    concatenates_S800000_S50000_S850000_d0

/-- The start words of an accumulating scatter: the index vector with a unit axis added. -/
def sidxC (s : IVec S850000 32) : IVec S850000x1 32 :=
  broadcastInDim S850000x1 ![0] bcast_S850000_S850000x1_0 s

/-- The start words of a row lookup: a negative word shifted up by the number of rows, a unit axis added. -/
def gidxC (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The degrees: the weights of the messages summed into their targets, from zero. -/
def degC (a1 : IVec S2x800000 32) (a2 : FVec Ideal S800000 .f32) : FVec Ideal S50000 .f32 :=
  Host.scatterAdd scatter_S50000_S850000x1_S850000_n_0_0_1
    (broadcastInDim S50000 ![] bcast_S_S50000 (constant (F := Ideal) S_ .f32 0x00000000#32))
    (sidxC (dstC a1)) (wC a2)

/-- The normalising factors: the reciprocal square root of the degree where it is positive, zero elsewhere. -/
def disC (a1 : IVec S2x800000 32) (a2 : FVec Ideal S800000 .f32) : FVec Ideal S50000 .f32 :=
  select
    (cmpf .ogt (degC a1 a2) (broadcastInDim S50000 ![] bcast_S_S50000 (constant (F := Ideal) S_ .f32 0x00000000#32)))
    (Host.rsqrt (maximumf (degC a1 a2) (broadcastInDim S50000 ![] bcast_S_S50000 (constant (F := Ideal) S_ .f32 0x2B8CBCCC#32))))
    (broadcastInDim S50000 ![] bcast_S_S50000 (constant (F := Ideal) S_ .f32 0x00000000#32))

/-- The start words of the scatter by graph label: the labels with a unit axis added. -/
def bidxC (a3 : IVec S50000 32) : IVec S50000x1 32 :=
  broadcastInDim S50000x1 ![0] bcast_S50000_S50000x1_0 a3

/-- The node counts: a one per node summed into its graph, from zero. -/
def cntC (a3 : IVec S50000 32) : FVec Ideal S64 .f32 :=
  Host.scatterAdd scatter_S64_S50000x1_S50000_n_0_0_1
    (broadcastInDim S64 ![] bcast_S_S64 (constant (F := Ideal) S_ .f32 0x00000000#32))
    (bidxC a3)
    (broadcastInDim S50000 ![] bcast_S_S50000 (constant (F := Ideal) S_ .f32 0x3F800000#32))

/-! ## The readings at plain indices -/

/-- The row a row lookup reads for message `e`: its start word read signed, clamped into the table. -/
def srowS (s : IVec S850000 32) (e : Fin 850000) : Fin 50000 :=
  ⟨min ((gidxC s) (ix2 e (0 : Fin 1))).toInt.toNat (50000 - 1), by omega⟩

/-- Message `e` is added into node `n`: its start word read signed is `n`. -/
def dhitS (t : IVec S850000 32) (e : Fin 850000) (n : Fin 50000) : Prop :=
  ((sidxC t) (ix2 e (0 : Fin 1))).toInt = (n.val : ℤ)

instance (t : IVec S850000 32) (e : Fin 850000) (n : Fin 50000) : Decidable (dhitS t e n) :=
  inferInstanceAs (Decidable (((sidxC t) (ix2 e (0 : Fin 1))).toInt = (n.val : ℤ)))

/-- The row of the node table message `e` reads. -/
def srow (a1 : IVec S2x800000 32) : Fin 850000 → Fin 50000 := srowS (srcC a1)
/-- The row the target's factor is read at for message `e`. -/
def drow (a1 : IVec S2x800000 32) : Fin 850000 → Fin 50000 := srowS (dstC a1)
/-- Message `e` is added into node `n`. -/
def dhit (a1 : IVec S2x800000 32) : Fin 850000 → Fin 50000 → Prop := dhitS (dstC a1)

instance (a1 : IVec S2x800000 32) (e : Fin 850000) (n : Fin 50000) : Decidable (dhit a1 e n) :=
  inferInstanceAs (Decidable (dhitS (dstC a1) e n))

/-- The weight of message `e`. -/
def wv (a2 : FVec Ideal S800000 .f32) (e : Fin 850000) : EReal := wC a2 (ix1 e)
/-- The normalising factor of node `n`. -/
def dv (a1 : IVec S2x800000 32) (a2 : FVec Ideal S800000 .f32) (n : Fin 50000) : EReal := disC a1 a2 (ix1 n)

/-- Node `n` belongs to graph `g`: its label read signed is `g`. -/
def bhit (a3 : IVec S50000 32) (n : Fin 50000) (g : Fin 64) : Prop :=
  ((bidxC a3) (ix2 n (0 : Fin 1))).toInt = (g.val : ℤ)

instance (a3 : IVec S50000 32) (n : Fin 50000) (g : Fin 64) : Decidable (bhit a3 n g) :=
  inferInstanceAs (Decidable (((bidxC a3) (ix2 n (0 : Fin 1))).toInt = (g.val : ℤ)))

/-- The number of nodes of graph `g`. -/
def cntv (a3 : IVec S50000 32) (g : Fin 64) : EReal := cntC a3 (ix1 g)

end Cert.Chains

end
-- ==== Proof.RefChains.lean ====
/-
  The reference's index and weight chains are the shared ones.

  The reference computes the message sources and targets, the message weights, the normalising factors, the start
  words of its lookups and of its accumulating sums, and the node counts by the same operations, in the same order,
  as the shared chains: each of its stages is the corresponding chain, the two spellings differing only in the
  names of the shapes and of the shape conditions.
-/
import proofs.«415102_j60859686584588_3_alg».proof.Proof.Gen.ReferenceIdeal.Read
import proofs.«415102_j60859686584588_3_alg».proof.Proof.Gen.KernelIdeal
import proofs.«415102_j60859686584588_3_alg».proof.Proof.Chains

noncomputable section

namespace Cert.ReferenceIdeal.RefVal

open Cert.ReferenceIdeal Cert.ReferenceIdeal.Gen Cert.ReferenceIdeal.Read Idealize.ShloMosaic

/-- The message sources. -/
theorem src_eq (x1 : IVec S2x800000 32) : val_main_v3 (F := Ideal) x1 = Cert.Chains.srcC x1 := rfl

/-- The message targets. -/
theorem dst_eq (x1 : IVec S2x800000 32) : val_main_v6 (F := Ideal) x1 = Cert.Chains.dstC x1 := rfl

/-- The message weights. -/
theorem w_eq (x2 : FVec Ideal S800000 .f32) : val_main_v8 (F := Ideal) x2 = Cert.Chains.wC x2 := rfl

/-- The start words of the three lookups by source. -/
theorem gsrc23_eq (x1 : IVec S2x800000 32) : val_main_v23 (F := Ideal) x1 = Cert.Chains.gidxC (Cert.Chains.srcC x1) := rfl
theorem gsrc40_eq (x1 : IVec S2x800000 32) : val_main_v40 (F := Ideal) x1 = Cert.Chains.gidxC (Cert.Chains.srcC x1) := rfl
theorem gsrc58_eq (x1 : IVec S2x800000 32) : val_main_v58 (F := Ideal) x1 = Cert.Chains.gidxC (Cert.Chains.srcC x1) := rfl

/-- The start words of the lookup by target. -/
theorem gdst31_eq (x1 : IVec S2x800000 32) : val_main_v31 (F := Ideal) x1 = Cert.Chains.gidxC (Cert.Chains.dstC x1) := rfl

/-- The start words of the three accumulating sums by target. -/
theorem sdst10_eq (x1 : IVec S2x800000 32) : val_main_v10 (F := Ideal) x1 = Cert.Chains.sidxC (Cert.Chains.dstC x1) := rfl
theorem sdst46_eq (x1 : IVec S2x800000 32) : val_main_v46 (F := Ideal) x1 = Cert.Chains.sidxC (Cert.Chains.dstC x1) := rfl
theorem sdst64_eq (x1 : IVec S2x800000 32) : val_main_v64 (F := Ideal) x1 = Cert.Chains.sidxC (Cert.Chains.dstC x1) := rfl

/-- The normalising factors. -/
theorem dis_eq (x1 : IVec S2x800000 32) (x2 : FVec Ideal S800000 .f32) :
    val_main_v17 (F := Ideal) x1 x2 = Cert.Chains.disC x1 x2 := rfl

/-- The start words of the two accumulating sums by graph. -/
theorem bidx70_eq (x3 : IVec S50000 32) : val_main_v70 (F := Ideal) x3 = Cert.Chains.bidxC x3 := rfl
theorem bidx74_eq (x3 : IVec S50000 32) : val_main_v74 (F := Ideal) x3 = Cert.Chains.bidxC x3 := rfl

/-- The node counts. -/
theorem cnt_eq (x3 : IVec S50000 32) : val_main_v75 (F := Ideal) x3 = Cert.Chains.cntC x3 := rfl

end Cert.ReferenceIdeal.RefVal

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.LibGatherElem.lean ====
/-
  A `stablehlo.gather` that picks single ELEMENTS, read at an index.

  Two shapes of it, both with every operand axis collapsed (slice sizes all 1, no offset axis, no batching axis) and
  the index vector on the last axis of the start indices.  From a vector `[N]` at start indices `[R, 1]`: result
  element `r` is the vector at the start index `idx[r, 0]`, read as a signed integer and clamped into `[0, N - 1]`.
  From a table `[N, K]` at start indices `[R, 2]`: result element `r` is the table at row `idx[r, 0]` and column
  `idx[r, 1]`, each read signed and clamped into its axis.  (StableHLO clamps every start index so that the slice
  lies inside the operand; with slices of one element that is the clamp of the index itself.)
-/
import Idealize.ShloMosaic.Lib.ValueIdx

noncomputable section

namespace Cert.LibGatherElem

open Idealize.ShloMosaic Idealize.ShloMosaic.ValueIdx

variable {α : Type}

/-- The dimension numbers of an element gather from a vector `[N]` at start indices `[R, 1]` into `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the vector gather: the vector at the clamped signed start index `idx[r, 0]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r ⟨0, Nat.one_pos⟩)).toInt.toNat (N - 1), by omega⟩) := by
  -- the gather reads the operand at its operand index; compare the two indices on the operand's one axis
  show x ((vecDims N R wf).operandIdx (ix1 r) idx) = _
  refine congrArg x (funext fun a => ?_)
  have ha : a = (0 : Fin 1) := Subsingleton.elim _ _
  subst ha
  apply Fin.ext
  show (vecDims N R wf).start (ix1 r) idx 0 + (vecDims N R wf).batchCoord (ix1 r) 0
      + (vecDims N R wf).offCoord (ix1 r) 0 = _
  -- no batching axis, and axis 0 is collapsed: only the clamped start is left
  have hb : (vecDims N R wf).batchCoord (ix1 r) 0 = 0 :=
    GatherDims.batchCoord_eq_zero _ _ _ List.not_mem_nil
  have ho : (vecDims N R wf).offCoord (ix1 r) 0 = 0 :=
    GatherDims.offCoord_eq_zero _ _ _ fun h =>
      ((GatherDims.mem_sKept _ _).mp h).1 (List.mem_singleton.mpr rfl)
  simp only [hb, ho, Nat.add_zero]
  -- axis 0 is the start index map's entry 0, so its start index is read at `(r, 0)`
  have hm : (0 : Fin 1) ∈ (vecDims N R wf).startIndexMap := List.mem_singleton.mpr rfl
  have hsi : (vecDims N R wf).siIdx (ix1 r)
      ⟨List.idxOf (0 : Fin 1) (vecDims N R wf).startIndexMap, List.idxOf_lt_length_iff.2 hm⟩
        = ix2 r ⟨0, Nat.one_pos⟩ := by
    funext b
    apply Fin.ext
    match b with
    | ⟨0, _⟩ => rfl
    | ⟨1, _⟩ => rfl
  unfold GatherDims.start
  rw [dif_pos hm, hsi]
  -- the clamp's upper end is the extent `N` less the slice size `1`
  rfl

/-- The dimension numbers of an element gather from a table `[N, K]` at start indices `[R, 2]` into `[R]`. -/
abbrev pairDims (N K R : Nat) (wf : GatherDims.WF ⟨2, ![N, K]⟩ ⟨2, ![R, 2]⟩ ⟨1, ![R]⟩ [] [0, 1] [] [0, 1] [] 1 ![1, 1]) :
    GatherDims ⟨2, ![N, K]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Result element `r` of the table gather: the table at the clamped signed start indices `idx[r, 0]`, `idx[r, 1]`. -/
theorem gather_pair_apply {N K R w : Nat} (hN : 0 < N) (hK : 0 < K)
    (wf : GatherDims.WF ⟨2, ![N, K]⟩ ⟨2, ![R, 2]⟩ ⟨1, ![R]⟩ [] [0, 1] [] [0, 1] [] 1 ![1, 1])
    (x : (⟨2, ![N, K]⟩ : Shape).Idx → α) (idx : IVec ⟨2, ![R, 2]⟩ w) (r : Fin R) :
    Host.gather (pairDims N K R wf) x idx (ix1 r)
      = x (ix2 ⟨min (idx (ix2 r ⟨0, by omega⟩)).toInt.toNat (N - 1), by omega⟩
               ⟨min (idx (ix2 r ⟨1, by omega⟩)).toInt.toNat (K - 1), by omega⟩) := by
  -- the gather reads the operand at its operand index; compare the two indices axis by axis
  show x ((pairDims N K R wf).operandIdx (ix1 r) idx) = _
  refine congrArg x (funext fun a => ?_)
  apply Fin.ext
  show (pairDims N K R wf).start (ix1 r) idx a + (pairDims N K R wf).batchCoord (ix1 r) a
      + (pairDims N K R wf).offCoord (ix1 r) a = _
  -- no batching axis, and both axes are collapsed: only the clamped start is left
  have hb : (pairDims N K R wf).batchCoord (ix1 r) a = 0 :=
    GatherDims.batchCoord_eq_zero _ _ _ List.not_mem_nil
  have hc : a ∈ (pairDims N K R wf).collapsedSliceDims := by
    match a with
    | ⟨0, _⟩ => exact List.mem_cons_self
    | ⟨1, _⟩ => exact List.mem_cons_of_mem _ List.mem_cons_self
  have ho : (pairDims N K R wf).offCoord (ix1 r) a = 0 :=
    GatherDims.offCoord_eq_zero _ _ _ fun h => ((GatherDims.mem_sKept _ _).mp h).1 hc
  simp only [hb, ho, Nat.add_zero]
  -- axis `a` is the start index map's entry `a`, so its start index is read at `(r, a)`
  have hm : a ∈ (pairDims N K R wf).startIndexMap := hc
  unfold GatherDims.start
  rw [dif_pos hm]
  match a, hm with
  | ⟨0, _⟩, hm =>
    have hsi : (pairDims N K R wf).siIdx (ix1 r)
        ⟨List.idxOf (⟨0, by omega⟩ : Fin 2) (pairDims N K R wf).startIndexMap, List.idxOf_lt_length_iff.2 hm⟩
          = ix2 r ⟨0, by omega⟩ := by
      funext b
      apply Fin.ext
      match b with
      | ⟨0, _⟩ => rfl
      | ⟨1, _⟩ => rfl
    rw [hsi]
    rfl
  | ⟨1, _⟩, hm =>
    have hsi : (pairDims N K R wf).siIdx (ix1 r)
        ⟨List.idxOf (⟨1, by omega⟩ : Fin 2) (pairDims N K R wf).startIndexMap, List.idxOf_lt_length_iff.2 hm⟩
          = ix2 r ⟨1, by omega⟩ := by
      funext b
      apply Fin.ext
      match b with
      | ⟨0, _⟩ => rfl
      | ⟨1, _⟩ => rfl
    rw [hsi]
    rfl

end Cert.LibGatherElem

end
-- ==== Proof.RefOps.lean ====
/-
  The reference's lookups and accumulating sums read at an index, over its own shapes.

  A lookup `t[idx]` reads, at message `e`, the entry (or the row) of the table that the start word `idx[e, 0]` names,
  read signed and clamped into the table's rows. An accumulating sum into a zero array is, at a position, the sum of
  the updates whose start word names that position.
-/
import proofs.«415102_j60859686584588_3_alg».proof.Proof.Gen.ReferenceIdeal
import proofs.«415102_j60859686584588_3_alg».proof.Proof.LibIndexed
import proofs.«415102_j60859686584588_3_alg».proof.Proof.LibGatherElem
import Idealize.ShloMosaic.PureOps.Ideal.Laws

noncomputable section

namespace Cert.ReferenceIdeal.RefVal

open scoped BigOperators
open Cert.ReferenceIdeal Cert.ReferenceIdeal.Gen Idealize.ShloMosaic Idealize.ShloMosaic.ValueIdx

/-- The table row a message's start word names: the word read signed, clamped into `[0, 49999]`. -/
def rowOf (g : IVec S850000x1 32) (e : Fin 850000) : Fin 50000 :=
  ⟨min (g (ix2 e (0 : Fin 1))).toInt.toNat 49999, by omega⟩

/-- A message lands on node `n`: its start word, read signed, is `n`. -/
abbrev hitOf (s : IVec S850000x1 32) (e : Fin 850000) (n : Fin 50000) : Prop :=
  (s (ix2 e (0 : Fin 1))).toInt = (n.val : ℤ)

/-- A node belongs to graph `g`: its graph word, read signed, is `g`. -/
abbrev inOf (b : IVec S50000x1 32) (n : Fin 50000) (g : Fin 64) : Prop :=
  (b (ix2 n (0 : Fin 1))).toInt = (g.val : ℤ)

/-- The lookup in a vector over the nodes, at message `e`. -/
theorem gather_vec_at (d : FVec Ideal S50000 .f32) (g : IVec S850000x1 32) (e : Fin 850000) :
    Host.gather gather_S50000_S850000x1_S850000_n_0_n_n_0_1_1 d g (ix1 e) = d (ix1 (rowOf g e)) :=
  Cert.LibGatherElem.gather_vec_apply (N := 50000) (R := 850000) (by decide)
    gather_S50000_S850000x1_S850000_n_0_n_n_0_1_1_wf d g e

/-- The lookup of rows of a table over the nodes, at message `e` and column `k`. -/
theorem gather_rows_at (t : FVec Ideal S50000x64 .f32) (g : IVec S850000x1 32) (e : Fin 850000) (k : Fin 64) :
    Host.gather gather_S50000x64_S850000x1_S850000x64_1_0_n_n_0_1_164 t g (ix2 e k) = t (ix2 (rowOf g e) k) :=
  Cert.Rgcn.Lib.gather_rows_apply (N := 50000) (K := 64) (R := 850000) (by decide)
    gather_S50000x64_S850000x1_S850000x64_1_0_n_n_0_1_164
    gather_S50000x64_S850000x1_S850000x64_1_0_n_n_0_1_164_wf rfl t g e k

/-- The accumulating sum of the messages' rows into the nodes' rows. -/
theorem scatter_rows_at (z : FVec Ideal S50000x64 .f32) (s : IVec S850000x1 32) (u : FVec Ideal S850000x64 .f32)
    (n : Fin 50000) (k : Fin 64) :
    Host.scatterAdd (F := Ideal) scatter_S50000x64_S850000x1_S850000x64_1_0_0_1 z s u (ix2 n k)
      = z (ix2 n k) + ∑ e ∈ Finset.univ.filter (fun e : Fin 850000 => hitOf s e n), u (ix2 e k) :=
  Cert.Rgcn.Lib.scatterAdd_rows_apply (N := 50000) (K := 64) (E := 850000)
    scatter_S50000x64_S850000x1_S850000x64_1_0_0_1 scatter_S50000x64_S850000x1_S850000x64_1_0_0_1_wf rfl z s u n k

/-- The accumulating sum of the nodes' rows into the graphs' rows. -/
theorem scatter_pool_at (z : FVec Ideal S64x64 .f32) (b : IVec S50000x1 32) (u : FVec Ideal S50000x64 .f32)
    (g : Fin 64) (k : Fin 64) :
    Host.scatterAdd (F := Ideal) scatter_S64x64_S50000x1_S50000x64_1_0_0_1 z b u (ix2 g k)
      = z (ix2 g k) + ∑ n ∈ Finset.univ.filter (fun n : Fin 50000 => inOf b n g), u (ix2 n k) :=
  Cert.Rgcn.Lib.scatterAdd_rows_apply (N := 64) (K := 64) (E := 50000)
    scatter_S64x64_S50000x1_S50000x64_1_0_0_1 scatter_S64x64_S50000x1_S50000x64_1_0_0_1_wf rfl z b u g k

end Cert.ReferenceIdeal.RefVal

end
-- ==== Proof.Spec.lean ====
/-
  The mathematics of the two programs over plain index types, on the extended reals.

  A graph of `N` nodes and `E` messages (edges and self loops).  Message `e` reads row `srow e` of a node table,
  is weighted by `w e`, and is added into every node `n` with `dhit e n`; `d n` is the node's normalising factor.
  One program scales the table's rows by `d` before the messages are read and scales the summed messages by `d`
  afterwards; the other puts both factors on the message, the second read at row `drow e`.  Where a message is
  added (`dhit e n`) its second factor is the target's (`drow e = n`), so the two agree as soon as the factor may be
  moved across the sum: when every entry is a real number.  The pooled sums over graphs, the mean, the two
  branches and the output product are the same operations on both sides, in another arrangement.
-/
import Mathlib.Data.EReal.Operations
import Mathlib.Algebra.BigOperators.Fin
import Mathlib.Algebra.BigOperators.Group.Finset.Basic

noncomputable section

namespace Cert.Spec

open scoped BigOperators

/-- An extended real that is a real number. -/
def IsReal (v : EReal) : Prop := ∃ r : ℝ, v = (r : EReal)

section Layer

variable {N E : ℕ}
variable (srow drow : Fin E → Fin N) (dhit : Fin E → Fin N → Prop) [∀ e n, Decidable (dhit e n)]
variable (w : Fin E → EReal) (d : Fin N → EReal)

/-- A node table times a weight matrix, each row scaled by the node's factor. -/
def tabK (h : Fin N → Fin 64 → EReal) (W : Fin 64 → Fin 64 → EReal) (i : Fin N) (f : Fin 64) : EReal :=
  (∑ k : Fin 64, h i k * W k f) * d i

/-- The weighted messages read from a table, summed into their targets. -/
def aggK (tab : Fin N → Fin 64 → EReal) (n : Fin N) (f : Fin 64) : EReal :=
  ∑ e ∈ Finset.univ.filter (fun e : Fin E => dhit e n), tab (srow e) f * w e

/-- One layer, factors outside the sum: the summed messages scaled by the target's factor, plus the bias. -/
def layK (tab : Fin N → Fin 64 → EReal) (b : Fin 64 → EReal) (n : Fin N) (f : Fin 64) : EReal :=
  aggK srow dhit w tab n f * d n + b f

/-- The message's coefficient with both factors on it. -/
def normR (e : Fin E) : EReal := d (srow e) * w e * d (drow e)

/-- One layer, factors on the messages. -/
def layR (h : Fin N → Fin 64 → EReal) (W : Fin 64 → Fin 64 → EReal) (b : Fin 64 → EReal) (n : Fin N) (f : Fin 64) : EReal :=
  (∑ e ∈ Finset.univ.filter (fun e : Fin E => dhit e n), (∑ k : Fin 64, h (srow e) k * W k f) * normR srow drow w d e) + b f

/-- Cut at zero. -/
def relu (a : Fin N → Fin 64 → EReal) (n : Fin N) (f : Fin 64) : EReal := max (a n f) 0

/-- The second layer's activations, factors outside the sums (what the kernel computes). -/
def net2K (x : Fin N → Fin 64 → EReal) (W1 : Fin 64 → Fin 64 → EReal) (b1 : Fin 64 → EReal)
    (W2 : Fin 64 → Fin 64 → EReal) (b2 : Fin 64 → EReal) : Fin N → Fin 64 → EReal :=
  layK srow dhit w d (tabK d (relu (layK srow dhit w d (tabK d x W1) b1)) W2) b2

/-- The second layer's activations, factors on the messages (what the reference computes). -/
def net2R (x : Fin N → Fin 64 → EReal) (W1 : Fin 64 → Fin 64 → EReal) (b1 : Fin 64 → EReal)
    (W2 : Fin 64 → Fin 64 → EReal) (b2 : Fin 64 → EReal) : Fin N → Fin 64 → EReal :=
  layR srow drow dhit w d (relu (layR srow drow dhit w d x W1 b1)) W2 b2

end Layer

section Head

variable {N : ℕ}

/-- The sum of a node table's rows over the nodes of graph `g`, the membership as a 0/1 factor. -/
def poolK (bhit : Fin N → Fin 64 → Prop) [∀ n g, Decidable (bhit n g)] (a : Fin N → Fin 64 → EReal) (g f : Fin 64) : EReal :=
  ∑ n : Fin N, (if bhit n g then (1 : EReal) else 0) * a n f

/-- The same sum, over the nodes of graph `g` only. -/
def poolR (bhit : Fin N → Fin 64 → Prop) [∀ n g, Decidable (bhit n g)] (a : Fin N → Fin 64 → EReal) (g f : Fin 64) : EReal :=
  ∑ n ∈ Finset.univ.filter (fun n : Fin N => bhit n g), a n f

/-- A branch of the head: the pooled rows times a matrix, plus a bias, cut at zero. -/
def branch (p : Fin 64 → Fin 64 → EReal) (kw : Fin 64 → Fin 64 → EReal) (kb : Fin 64 → EReal) (g j : Fin 64) : EReal :=
  max ((∑ k : Fin 64, p g k * kw k j) + kb j) 0

/-- The output with the last matrix given as its two halves. -/
def headK (h1 h2 : Fin 64 → Fin 64 → EReal) (kwoA kwoB : Fin 64 → Fin 3 → EReal) (kbo : Fin 3 → EReal) (g : Fin 64) (o : Fin 3) : EReal :=
  ((∑ j : Fin 64, h1 g j * kwoA j o) + (∑ j : Fin 64, h2 g j * kwoB j o)) + kbo o

/-- The output with the two branches laid side by side. -/
def headR (h1 h2 : Fin 64 → Fin 64 → EReal) (kwo : Fin 128 → Fin 3 → EReal) (kbo : Fin 3 → EReal) (g : Fin 64) (o : Fin 3) : EReal :=
  (∑ j : Fin 128, (if h : j.val < 64 then h1 g ⟨j.val, h⟩ else h2 g ⟨j.val - 64, by omega⟩) * kwo j o) + kbo o

end Head

end Cert.Spec

end
-- ==== Proof.RefNorm.lean ====
/-
  The reference's coefficient of a message.

  Message `e` carries the normalising factor of its source, its weight, and the normalising factor of its target,
  multiplied in that order: the factors are looked up in the vector of factors at the rows the message's two start
  words name, and those rows are the shared chains' source row and target row.
-/
import proofs.«415102_j60859686584588_3_alg».proof.Proof.RefChains
import proofs.«415102_j60859686584588_3_alg».proof.Proof.RefOps
import proofs.«415102_j60859686584588_3_alg».proof.Proof.Spec

noncomputable section

namespace Cert.ReferenceIdeal.RefVal

open scoped BigOperators
open Cert.ReferenceIdeal Cert.ReferenceIdeal.Gen Cert.ReferenceIdeal.Read Idealize.ShloMosaic Idealize.ShloMosaic.ValueIdx

/-- Two sums over filtered index sets agree when the conditions agree and the terms agree where the condition holds
    (whatever decides the conditions). -/
theorem sum_filter_congr' {ι M : Type} [Fintype ι] [AddCommMonoid M] (p q : ι → Prop) [DecidablePred p] [DecidablePred q]
    (hpq : ∀ e, p e ↔ q e) (f g : ι → M) (hfg : ∀ e, q e → f e = g e) :
    ∑ e ∈ Finset.univ.filter p, f e = ∑ e ∈ Finset.univ.filter q, g e :=
  Finset.sum_congr (Finset.ext fun e => by simp only [Finset.mem_filter, Finset.mem_univ, true_and]; exact hpq e)
    (fun e he => hfg e (Finset.mem_filter.mp he).2)

/-- The row a lookup by source reads is the shared chains' row. -/
theorem rowOf_src (x1 : IVec S2x800000 32) (e : Fin 850000) :
    rowOf (Cert.Chains.gidxC (Cert.Chains.srcC x1)) e = Cert.Chains.srow x1 e := rfl

/-- The row a lookup by target reads is the shared chains' row. -/
theorem rowOf_dst (x1 : IVec S2x800000 32) (e : Fin 850000) :
    rowOf (Cert.Chains.gidxC (Cert.Chains.dstC x1)) e = Cert.Chains.drow x1 e := rfl

/-- THE MESSAGE'S COEFFICIENT: the source's factor, the weight, the target's factor. -/
theorem norm_at (x1 : IVec S2x800000 32) (x2 : FVec Ideal S800000 .f32) (e : Fin 850000) :
    val_main_v33 (F := Ideal) x1 x2 (ix1 e)
      = Cert.Spec.normR (Cert.Chains.srow x1) (Cert.Chains.drow x1) (Cert.Chains.wv x2) (Cert.Chains.dv x1 x2) e := by
  rw [val_main_v33_apply, val_main_v25_apply]
  unfold val_main_v24 val_main_v32
  rw [gather_vec_at, gather_vec_at, gsrc23_eq, gdst31_eq, dis_eq, w_eq, rowOf_src, rowOf_dst]
  rfl

end Cert.ReferenceIdeal.RefVal

end
-- ==== Proof.RefLay1.lean ====
/-
  The reference's first layer.

  The inputs times the first matrix; each message reads its source's row of that product and scales it by the
  message's coefficient; the messages are summed into their targets from zero; the bias is added; the result is cut
  at zero.  Read at a node and a feature this is the specification's layer with both factors on the messages.
-/
import proofs.«415102_j60859686584588_3_alg».proof.Proof.RefNorm

noncomputable section

namespace Cert.ReferenceIdeal.RefVal

open scoped BigOperators
open Cert.ReferenceIdeal Cert.ReferenceIdeal.Gen Cert.ReferenceIdeal.Read Idealize.ShloMosaic Idealize.ShloMosaic.ValueIdx

/-- A node table read at plain indices. -/
abbrev tabOf {m n : Nat} (a : FVec Ideal ⟨2, ![m, n]⟩ .f32) (i : Fin m) (j : Fin n) : EReal := a (ix2 i j)
/-- A vector read at a plain index. -/
abbrev vecOf {n : Nat} (a : FVec Ideal ⟨1, ![n]⟩ .f32) (i : Fin n) : EReal := a (ix1 i)

/-- Message `e` lands on node `n` for the reference's accumulating sums exactly when the shared chains say so. -/
theorem hitOf_dst (x1 : IVec S2x800000 32) (e : Fin 850000) (n : Fin 50000) :
    hitOf (Cert.Chains.sidxC (Cert.Chains.dstC x1)) e n ↔ Cert.Chains.dhit x1 e n := Iff.rfl

/-- The index a product of a node table with a 64 × 64 matrix reads on the left. -/
theorem lidx34_eq (n : Fin 50000) (f k : Fin 64) : lidx_main_v34 (ix2 n f) k = ix2 n k :=
  funext fun a => match a with | ⟨0, _⟩ => rfl | ⟨1, _⟩ => rfl
/-- The index it reads on the right. -/
theorem ridx34_eq (n : Fin 50000) (f k : Fin 64) : ridx_main_v34 (ix2 n f) k = ix2 k f :=
  funext fun a => match a with | ⟨0, _⟩ => rfl | ⟨1, _⟩ => rfl

/-- The inputs times the first matrix. -/
theorem xw1_at (x0 : FVec Ideal S50000x64 .f32) (x4 : FVec Ideal S64x64 .f32) (n : Fin 50000) (f : Fin 64) :
    val_main_v34 (F := Ideal) x0 x4 (ix2 n f) = ∑ k : Fin 64, tabOf x0 n k * tabOf x4 k f := by
  rw [val_main_v34_apply]
  refine Finset.sum_congr rfl fun k _ => ?_
  rw [lidx34_eq, ridx34_eq]

/-- The coefficient column laid along the rows: entry `(e, f)` is message `e`'s coefficient. -/
theorem idx43_eq (e : Fin 850000) (f : Fin 64) : idx_main_v42 (idx_main_v43 (ix2 e f)) = ix1 e :=
  funext fun a => match a with | ⟨0, _⟩ => rfl

/-- The bias row laid along the nodes: entry `(n, f)` is the bias at `f`. -/
theorem idx49_eq (n : Fin 50000) (f : Fin 64) : idx_main_v48 (idx_main_v49 (ix2 n f)) = ix1 f :=
  funext fun a => match a with | ⟨0, _⟩ => rfl

/-- THE FIRST LAYER'S MESSAGES: the source's transformed row times the message's coefficient. -/
theorem msg1_at (x0 : FVec Ideal S50000x64 .f32) (x1 : IVec S2x800000 32) (x2 : FVec Ideal S800000 .f32)
    (x4 : FVec Ideal S64x64 .f32) (e : Fin 850000) (f : Fin 64) :
    val_main_v44 (F := Ideal) x0 x1 x2 x4 (ix2 e f)
      = (∑ k : Fin 64, tabOf x0 (Cert.Chains.srow x1 e) k * tabOf x4 k f)
          * Cert.Spec.normR (Cert.Chains.srow x1) (Cert.Chains.drow x1) (Cert.Chains.wv x2) (Cert.Chains.dv x1 x2) e := by
  rw [val_main_v44_apply, val_main_v43_apply, val_main_v42_apply, idx43_eq, norm_at]
  unfold val_main_v41
  rw [gather_rows_at, gsrc40_eq, rowOf_src, xw1_at]
  rfl

/-- The first layer before the cut, as the specification's layer with the factors on the messages. -/
def lay1 (x0 : FVec Ideal S50000x64 .f32) (x1 : IVec S2x800000 32) (x2 : FVec Ideal S800000 .f32)
    (x4 : FVec Ideal S64x64 .f32) (x5 : FVec Ideal S64 .f32) : Fin 50000 → Fin 64 → EReal :=
  Cert.Spec.layR (Cert.Chains.srow x1) (Cert.Chains.drow x1) (Cert.Chains.dhit x1) (Cert.Chains.wv x2) (Cert.Chains.dv x1 x2)
    (tabOf x0) (tabOf x4) (vecOf x5)

/-- THE FIRST LAYER: the messages summed into their targets, plus the bias. -/
theorem lay1_at (x0 : FVec Ideal S50000x64 .f32) (x1 : IVec S2x800000 32) (x2 : FVec Ideal S800000 .f32)
    (x4 : FVec Ideal S64x64 .f32) (x5 : FVec Ideal S64 .f32) (n : Fin 50000) (f : Fin 64) :
    val_main_v50 (F := Ideal) x0 x1 x2 x4 x5 (ix2 n f) = lay1 x0 x1 x2 x4 x5 n f := by
  rw [val_main_v50_apply, val_main_v49_apply, val_main_v48_apply, idx49_eq]
  unfold val_main_v47
  rw [scatter_rows_at, val_main_v45_apply, val_main_cst_9_apply, sdst46_eq]
  show (Ideal.ofBits .f32 0x00000000#32 + _) + _ = _
  rw [Ideal.ofBits_zero_f32, zero_add]
  unfold lay1 Cert.Spec.layR
  refine congrArg (fun s => s + x5 (ix1 f)) ?_
  exact sum_filter_congr' _ _ (fun e => hitOf_dst x1 e n) _ _ (fun e _ => msg1_at x0 x1 x2 x4 e f)

/-- The zero a cut compares with. -/
theorem relu0_at (i : S50000x64.Idx) : val_main_call1_v0 (F := Ideal) i = 0 := by
  rw [val_main_call1_v0_apply, val_main_call1_cst_apply]
  exact Ideal.ofBits_zero_f32

/-- THE FIRST LAYER'S ACTIVATIONS: the layer cut at zero. -/
theorem act1_at (x0 : FVec Ideal S50000x64 .f32) (x1 : IVec S2x800000 32) (x2 : FVec Ideal S800000 .f32)
    (x4 : FVec Ideal S64x64 .f32) (x5 : FVec Ideal S64 .f32) (n : Fin 50000) (f : Fin 64) :
    val_main_v51 (F := Ideal) x0 x1 x2 x4 x5 (ix2 n f) = Cert.Spec.relu (lay1 x0 x1 x2 x4 x5) n f := by
  rw [val_main_v51_apply, lay1_at, relu0_at]
  rfl

end Cert.ReferenceIdeal.RefVal

end
-- ==== Proof.RefLay2.lean ====
/-
  The reference's second layer.

  The first layer's activations times the second matrix, the same messages and the same sums, plus the second
  bias: read at a node and a feature, the specification's two layers with the factors on the messages.
-/
import proofs.«415102_j60859686584588_3_alg».proof.Proof.RefLay1

noncomputable section

namespace Cert.ReferenceIdeal.RefVal

open scoped BigOperators
open Cert.ReferenceIdeal Cert.ReferenceIdeal.Gen Cert.ReferenceIdeal.Read Idealize.ShloMosaic Idealize.ShloMosaic.ValueIdx

/-- The index the second product reads on the left. -/
theorem lidx52_eq (n : Fin 50000) (f k : Fin 64) : lidx_main_v52 (ix2 n f) k = ix2 n k :=
  funext fun a => match a with | ⟨0, _⟩ => rfl | ⟨1, _⟩ => rfl
/-- The index it reads on the right. -/
theorem ridx52_eq (n : Fin 50000) (f k : Fin 64) : ridx_main_v52 (ix2 n f) k = ix2 k f :=
  funext fun a => match a with | ⟨0, _⟩ => rfl | ⟨1, _⟩ => rfl

/-- The first layer's activations times the second matrix. -/
theorem hw2_at (x0 : FVec Ideal S50000x64 .f32) (x1 : IVec S2x800000 32) (x2 : FVec Ideal S800000 .f32)
    (x4 : FVec Ideal S64x64 .f32) (x5 : FVec Ideal S64 .f32) (x6 : FVec Ideal S64x64 .f32) (n : Fin 50000) (f : Fin 64) :
    val_main_v52 (F := Ideal) x0 x1 x2 x4 x5 x6 (ix2 n f)
      = ∑ k : Fin 64, Cert.Spec.relu (lay1 x0 x1 x2 x4 x5) n k * tabOf x6 k f := by
  rw [val_main_v52_apply]
  refine Finset.sum_congr rfl fun k _ => ?_
  rw [lidx52_eq, ridx52_eq, act1_at]

/-- The coefficient column laid along the rows, second layer. -/
theorem idx61_eq (e : Fin 850000) (f : Fin 64) : idx_main_v60 (idx_main_v61 (ix2 e f)) = ix1 e :=
  funext fun a => match a with | ⟨0, _⟩ => rfl

/-- The bias row laid along the nodes, second layer. -/
theorem idx67_eq (n : Fin 50000) (f : Fin 64) : idx_main_v66 (idx_main_v67 (ix2 n f)) = ix1 f :=
  funext fun a => match a with | ⟨0, _⟩ => rfl

/-- THE SECOND LAYER'S MESSAGES. -/
theorem msg2_at (x0 : FVec Ideal S50000x64 .f32) (x1 : IVec S2x800000 32) (x2 : FVec Ideal S800000 .f32)
    (x4 : FVec Ideal S64x64 .f32) (x5 : FVec Ideal S64 .f32) (x6 : FVec Ideal S64x64 .f32) (e : Fin 850000) (f : Fin 64) :
    val_main_v62 (F := Ideal) x0 x1 x2 x4 x5 x6 (ix2 e f)
      = (∑ k : Fin 64, Cert.Spec.relu (lay1 x0 x1 x2 x4 x5) (Cert.Chains.srow x1 e) k * tabOf x6 k f)
          * Cert.Spec.normR (Cert.Chains.srow x1) (Cert.Chains.drow x1) (Cert.Chains.wv x2) (Cert.Chains.dv x1 x2) e := by
  rw [val_main_v62_apply, val_main_v61_apply, val_main_v60_apply, idx61_eq, norm_at]
  unfold val_main_v59
  rw [gather_rows_at, gsrc58_eq, rowOf_src, hw2_at]
  rfl

/-- The second layer, as the specification's two layers with the factors on the messages. -/
def net2 (x0 : FVec Ideal S50000x64 .f32) (x1 : IVec S2x800000 32) (x2 : FVec Ideal S800000 .f32)
    (x4 : FVec Ideal S64x64 .f32) (x5 : FVec Ideal S64 .f32) (x6 : FVec Ideal S64x64 .f32) (x7 : FVec Ideal S64 .f32) :
    Fin 50000 → Fin 64 → EReal :=
  Cert.Spec.net2R (Cert.Chains.srow x1) (Cert.Chains.drow x1) (Cert.Chains.dhit x1) (Cert.Chains.wv x2) (Cert.Chains.dv x1 x2)
    (tabOf x0) (tabOf x4) (vecOf x5) (tabOf x6) (vecOf x7)

/-- THE SECOND LAYER. -/
theorem net2_at (x0 : FVec Ideal S50000x64 .f32) (x1 : IVec S2x800000 32) (x2 : FVec Ideal S800000 .f32)
    (x4 : FVec Ideal S64x64 .f32) (x5 : FVec Ideal S64 .f32) (x6 : FVec Ideal S64x64 .f32) (x7 : FVec Ideal S64 .f32)
    (n : Fin 50000) (f : Fin 64) :
    val_main_v68 (F := Ideal) x0 x1 x2 x4 x5 x6 x7 (ix2 n f) = net2 x0 x1 x2 x4 x5 x6 x7 n f := by
  rw [val_main_v68_apply, val_main_v67_apply, val_main_v66_apply, idx67_eq]
  unfold val_main_v65
  rw [scatter_rows_at, val_main_v63_apply, val_main_cst_12_apply, sdst64_eq]
  show (Ideal.ofBits .f32 0x00000000#32 + _) + _ = _
  rw [Ideal.ofBits_zero_f32, zero_add]
  unfold net2 Cert.Spec.net2R Cert.Spec.layR
  refine congrArg (fun s => s + x7 (ix1 f)) ?_
  exact sum_filter_congr' _ _ (fun e => hitOf_dst x1 e n) _ _ (fun e _ => msg2_at x0 x1 x2 x4 x5 x6 e f)

end Cert.ReferenceIdeal.RefVal

end
-- ==== Proof.Out.lean ====
/-
  The two programs' results as functions of the inputs read at plain indices, and the statement that they agree.

  `outK` is the kernel's arrangement: the normalising factor outside the message sums in both layers, the pooled
  sums as a product with a 0/1 membership matrix, the mean, the two branches, and the output product with the
  last matrix given as two halves.  `outR` is the reference's: the factors on the messages, the pooled sums over
  each graph's nodes, the two branches side by side against the whole last matrix.
-/
import proofs.«415102_j60859686584588_3_alg».proof.Proof.Spec
import Idealize.ShloMosaic.PureOps.Ideal

noncomputable section

namespace Cert.Out

open scoped BigOperators
open Idealize.ShloMosaic Cert.Spec

variable {N E : ℕ}
variable (srow drow : Fin E → Fin N) (dhit : Fin E → Fin N → Prop) [∀ e n, Decidable (dhit e n)]
variable (w : Fin E → EReal) (d : Fin N → EReal)
variable (bhit : Fin N → Fin 64 → Prop) [∀ n g, Decidable (bhit n g)] (cnt : Fin 64 → EReal) (one : EReal)
variable (x : Fin N → Fin 64 → EReal) (W1 : Fin 64 → Fin 64 → EReal) (b1 : Fin 64 → EReal)
  (W2 : Fin 64 → Fin 64 → EReal) (b2 : Fin 64 → EReal)
  (kw1 : Fin 64 → Fin 64 → EReal) (kb1 : Fin 64 → EReal) (kw2 : Fin 64 → Fin 64 → EReal) (kb2 : Fin 64 → EReal)
  (kwoA kwoB : Fin 64 → Fin 3 → EReal) (kwo : Fin 128 → Fin 3 → EReal) (kbo : Fin 3 → EReal)

/-- The mean over a graph: the pooled sum over the larger of the node count and `one`. -/
def meanOf (s : Fin 64 → Fin 64 → EReal) (g k : Fin 64) : EReal := Ideal.div (s g k) (max (cnt g) one)

/-- The kernel's result. -/
def outK (g : Fin 64) (o : Fin 3) : EReal :=
  headK (branch (meanOf cnt one (poolK bhit (net2K srow dhit w d x W1 b1 W2 b2))) kw1 kb1)
        (branch (meanOf cnt one (poolK bhit (net2K srow dhit w d x W1 b1 W2 b2))) kw2 kb2) kwoA kwoB kbo g o

/-- The reference's result. -/
def outR (g : Fin 64) (o : Fin 3) : EReal :=
  headR (branch (meanOf cnt one (poolR bhit (net2R srow drow dhit w d x W1 b1 W2 b2))) kw1 kb1)
        (branch (meanOf cnt one (poolR bhit (net2R srow drow dhit w d x W1 b1 W2 b2))) kw2 kb2) kwo kbo g o

end Cert.Out

end
-- ==== Proof.RefPool.lean ====
/-
  The reference's pooled means.

  The second layer's rows are summed into the graphs from zero, each node into the graph its label names; the sums
  are divided by the larger of the graph's node count and one.
-/
import proofs.«415102_j60859686584588_3_alg».proof.Proof.RefLay2
import proofs.«415102_j60859686584588_3_alg».proof.Proof.Out

noncomputable section

namespace Cert.ReferenceIdeal.RefVal

open scoped BigOperators
open Cert.ReferenceIdeal Cert.ReferenceIdeal.Gen Cert.ReferenceIdeal.Read Idealize.ShloMosaic Idealize.ShloMosaic.ValueIdx

/-- Node `n` belongs to graph `g` for the reference's sums by graph exactly when the shared chains say so. -/
theorem inOf_b (x3 : IVec S50000 32) (n : Fin 50000) (g : Fin 64) :
    inOf (Cert.Chains.bidxC x3) n g ↔ Cert.Chains.bhit x3 n g := Iff.rfl

/-- THE POOLED SUMS: the second layer's rows summed over each graph's nodes. -/
theorem pool_at (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (g k : Fin 64) :
    val_main_v71 (F := Ideal) x0 x1 x2 x3 x4 x5 x6 x7 (ix2 g k)
      = Cert.Spec.poolR (Cert.Chains.bhit x3) (net2 x0 x1 x2 x4 x5 x6 x7) g k := by
  unfold val_main_v71
  rw [scatter_pool_at, val_main_v69_apply, val_main_cst_13_apply, bidx70_eq]
  show Ideal.ofBits .f32 0x00000000#32 + _ = _
  rw [Ideal.ofBits_zero_f32, zero_add]
  unfold Cert.Spec.poolR
  exact sum_filter_congr' _ _ (fun n => inOf_b x3 n g) _ _ (fun n _ => net2_at x0 x1 x2 x4 x5 x6 x7 n k)

/-- The count column laid along the rows: entry `(g, k)` is graph `g`'s. -/
theorem idx79_eq (g k : Fin 64) : idx_main_v78 (idx_main_v79 (ix2 g k)) = ix1 g :=
  funext fun a => match a with | ⟨0, _⟩ => rfl

/-- The divisor: the larger of the graph's node count and one. -/
theorem den_at (x3 : IVec S50000 32) (g k : Fin 64) :
    val_main_v79 (F := Ideal) x3 (ix2 g k) = max (Cert.Chains.cntv x3 g) (Ideal.ofBits .f32 0x3F800000#32) := by
  rw [val_main_v79_apply, val_main_v78_apply, idx79_eq, val_main_v77_apply, val_main_v76_apply, val_main_cst_16_apply, cnt_eq]
  rfl

/-- The means over the graphs, as the specification's. -/
def mean (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32) :
    Fin 64 → Fin 64 → EReal :=
  Cert.Out.meanOf (Cert.Chains.cntv x3) (Ideal.ofBits .f32 0x3F800000#32)
    (Cert.Spec.poolR (Cert.Chains.bhit x3) (net2 x0 x1 x2 x4 x5 x6 x7))

/-- THE MEANS: the pooled sums over the divisor. -/
theorem mean_at (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (g k : Fin 64) :
    val_main_v80 (F := Ideal) x0 x1 x2 x3 x4 x5 x6 x7 (ix2 g k) = mean x0 x1 x2 x3 x4 x5 x6 x7 g k := by
  rw [val_main_v80_apply, pool_at, den_at]
  rfl

end Cert.ReferenceIdeal.RefVal

end
-- ==== Proof.RefHead.lean ====
/-
  The reference's head and its result as one function.

  Each branch is the means times a matrix, plus a bias, cut at zero; the two branches are laid side by side (columns
  below 64 the first, the others the second) and multiplied by the last matrix, and its bias is added.  Read at a
  graph and an output this is the specification's result with the factors on the messages.
-/
import proofs.«415102_j60859686584588_3_alg».proof.Proof.RefPool
import Idealize.ShloMosaic.Lib.Pipeline.Value

noncomputable section

namespace Cert.ReferenceIdeal.RefVal

open scoped BigOperators
open Cert.ReferenceIdeal Cert.ReferenceIdeal.Gen Cert.ReferenceIdeal.Read Idealize.ShloMosaic Idealize.ShloMosaic.ValueIdx

/-- The indices the first branch's product reads. -/
theorem lidx81_eq (g j k : Fin 64) : lidx_main_v81 (ix2 g j) k = ix2 g k :=
  funext fun a => match a with | ⟨0, _⟩ => rfl | ⟨1, _⟩ => rfl
theorem ridx81_eq (g j k : Fin 64) : ridx_main_v81 (ix2 g j) k = ix2 k j :=
  funext fun a => match a with | ⟨0, _⟩ => rfl | ⟨1, _⟩ => rfl
/-- The indices the second branch's product reads. -/
theorem lidx86_eq (g j k : Fin 64) : lidx_main_v86 (ix2 g j) k = ix2 g k :=
  funext fun a => match a with | ⟨0, _⟩ => rfl | ⟨1, _⟩ => rfl
theorem ridx86_eq (g j k : Fin 64) : ridx_main_v86 (ix2 g j) k = ix2 k j :=
  funext fun a => match a with | ⟨0, _⟩ => rfl | ⟨1, _⟩ => rfl
/-- The branches' bias rows laid along the graphs. -/
theorem idx83_eq (g j : Fin 64) : idx_main_v82 (idx_main_v83 (ix2 g j)) = ix1 j :=
  funext fun a => match a with | ⟨0, _⟩ => rfl
theorem idx88_eq (g j : Fin 64) : idx_main_v87 (idx_main_v88 (ix2 g j)) = ix1 j :=
  funext fun a => match a with | ⟨0, _⟩ => rfl

/-- The zeros the branches' cuts compare with. -/
theorem relu0b_at (i : S64x64.Idx) : val_main_call2_v0 (F := Ideal) i = 0 := by
  rw [val_main_call2_v0_apply, val_main_call2_cst_apply]
  exact Ideal.ofBits_zero_f32
theorem relu0c_at (i : S64x64.Idx) : val_main_call3_v0 (F := Ideal) i = 0 := by
  rw [val_main_call3_v0_apply, val_main_call3_cst_apply]
  exact Ideal.ofBits_zero_f32

/-- THE FIRST BRANCH: the means times its matrix, plus its bias, cut at zero. -/
theorem br1_at (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (g j : Fin 64) :
    val_main_v85 (F := Ideal) x0 x1 x2 x3 x4 x5 x6 x7 x8 x9 (ix2 g j)
      = Cert.Spec.branch (mean x0 x1 x2 x3 x4 x5 x6 x7) (tabOf x8) (vecOf x9) g j := by
  rw [val_main_v85_apply, val_main_v84_apply, val_main_v83_apply, val_main_v82_apply, idx83_eq, relu0b_at, val_main_v81_apply]
  unfold Cert.Spec.branch
  refine congrArg (fun s => max (s + x9 (ix1 j)) 0) ?_
  refine Finset.sum_congr rfl fun k _ => ?_
  rw [lidx81_eq, ridx81_eq, mean_at]

/-- THE SECOND BRANCH. -/
theorem br2_at (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (x10 : FVec Ideal S64x64 .f32) (x11 : FVec Ideal S64 .f32) (g j : Fin 64) :
    val_main_v90 (F := Ideal) x0 x1 x2 x3 x4 x5 x6 x7 x10 x11 (ix2 g j)
      = Cert.Spec.branch (mean x0 x1 x2 x3 x4 x5 x6 x7) (tabOf x10) (vecOf x11) g j := by
  rw [val_main_v90_apply, val_main_v89_apply, val_main_v88_apply, val_main_v87_apply, idx88_eq, relu0c_at, val_main_v86_apply]
  unfold Cert.Spec.branch
  refine congrArg (fun s => max (s + x11 (ix1 j)) 0) ?_
  refine Finset.sum_congr rfl fun k _ => ?_
  rw [lidx86_eq, ridx86_eq, mean_at]

/-- THE TWO BRANCHES SIDE BY SIDE: columns below 64 are the first branch's, the others the second's. -/
theorem cat_at (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (g : Fin 64) (j : Fin 128) :
    val_main_v91 (F := Ideal) x0 x1 x2 x3 x4 x5 x6 x7 x8 x9 x10 x11 (ix2 g j)
      = if h : j.val < 64 then Cert.Spec.branch (mean x0 x1 x2 x3 x4 x5 x6 x7) (tabOf x8) (vecOf x9) g ⟨j.val, h⟩
        else Cert.Spec.branch (mean x0 x1 x2 x3 x4 x5 x6 x7) (tabOf x10) (vecOf x11) g ⟨j.val - 64, by omega⟩ := by
  unfold val_main_v91
  by_cases h : j.val < 64
  · rw [dif_pos h,
      concatenate_pair_apply_left (1 : Fin S64x128.rank) _ _ concatenates_S64x64_S64x64_S64x128_d1 (ix2 g j) rfl
        (ix2 g (⟨j.val, h⟩ : Fin 64)) (fun b => match b with | ⟨0, _⟩ => rfl | ⟨1, _⟩ => rfl)]
    exact br1_at x0 x1 x2 x3 x4 x5 x6 x7 x8 x9 g ⟨j.val, h⟩
  · have hj : j.val - 64 < 64 := by omega
    rw [dif_neg h,
      concatenate_pair_apply_right (1 : Fin S64x128.rank) _ _ concatenates_S64x64_S64x64_S64x128_d1 (ix2 g j) rfl rfl
        (ix2 g (⟨j.val - 64, hj⟩ : Fin 64))
        (fun b hb => match b, hb with | ⟨0, _⟩, _ => rfl | ⟨1, _⟩, hb => absurd (Fin.ext rfl) hb)
        (by show (j.val - 64) + 64 = j.val; omega)]
    exact br2_at x0 x1 x2 x3 x4 x5 x6 x7 x10 x11 g ⟨j.val - 64, hj⟩

/-- The indices the output product reads. -/
theorem lidx92_eq (g : Fin 64) (o : Fin 3) (j : Fin 128) : lidx_main_v92 (ix2 g o) j = ix2 g j :=
  funext fun a => match a with | ⟨0, _⟩ => rfl | ⟨1, _⟩ => rfl
theorem ridx92_eq (g : Fin 64) (o : Fin 3) (j : Fin 128) : ridx_main_v92 (ix2 g o) j = ix2 j o :=
  funext fun a => match a with | ⟨0, _⟩ => rfl | ⟨1, _⟩ => rfl
/-- The output's bias row laid along the graphs. -/
theorem idx94_eq (g : Fin 64) (o : Fin 3) : idx_main_v93 (idx_main_v94 (ix2 g o)) = ix1 o :=
  funext fun a => match a with | ⟨0, _⟩ => rfl

/-- The reference's result as one function of the fourteen argument arrays. -/
def refG (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (x12 : FVec Ideal S128x3 .f32) (x13 : FVec Ideal S3 .f32) : FVec Ideal S64x3 .f32 :=
  fun j => Cert.Out.outR (Cert.Chains.srow x1) (Cert.Chains.drow x1) (Cert.Chains.dhit x1) (Cert.Chains.wv x2) (Cert.Chains.dv x1 x2)
    (Cert.Chains.bhit x3) (Cert.Chains.cntv x3) (Ideal.ofBits .f32 0x3F800000#32)
    (tabOf x0) (tabOf x4) (vecOf x5) (tabOf x6) (vecOf x7) (tabOf x8) (vecOf x9) (tabOf x10) (vecOf x11) (tabOf x12) (vecOf x13)
    (j 0) (j 1)

/-- THE OUTPUT: the two branches side by side times the last matrix, plus its bias. -/
theorem out_at (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (x12 : FVec Ideal S128x3 .f32) (x13 : FVec Ideal S3 .f32) (g : Fin 64) (o : Fin 3) :
    val_main_v95 (F := Ideal) x0 x1 x2 x3 x4 x5 x6 x7 x8 x9 x10 x11 x12 x13 (ix2 g o)
      = refG x0 x1 x2 x3 x4 x5 x6 x7 x8 x9 x10 x11 x12 x13 (ix2 g o) := by
  rw [val_main_v95_apply, val_main_v94_apply, val_main_v93_apply, idx94_eq, val_main_v92_apply]
  show _ = Cert.Out.outR _ _ _ _ _ _ _ _ _ _ _ _ _ _ _ _ _ _ _ g o
  unfold Cert.Out.outR Cert.Spec.headR
  refine congrArg (fun s => s + x13 (ix1 o)) ?_
  refine Finset.sum_congr rfl fun j _ => ?_
  rw [lidx92_eq, ridx92_eq, cat_at]
  rfl

/-- THE REFERENCE'S RESULT IS THAT FUNCTION. -/
theorem ref_val (x0 : FVec Ideal S50000x64 .f32) (x1 : IVec S2x800000 32) (x2 : FVec Ideal S800000 .f32) (x3 : IVec S50000 32)
    (x4 : FVec Ideal S64x64 .f32) (x5 : FVec Ideal S64 .f32) (x6 : FVec Ideal S64x64 .f32) (x7 : FVec Ideal S64 .f32)
    (x8 : FVec Ideal S64x64 .f32) (x9 : FVec Ideal S64 .f32) (x10 : FVec Ideal S64x64 .f32) (x11 : FVec Ideal S64 .f32)
    (x12 : FVec Ideal S128x3 .f32) (x13 : FVec Ideal S3 .f32) :
    val_main_v95 (F := Ideal) x0 x1 x2 x3 x4 x5 x6 x7 x8 x9 x10 x11 x12 x13
      = refG x0 x1 x2 x3 x4 x5 x6 x7 x8 x9 x10 x11 x12 x13 := by
  funext j
  obtain ⟨g, o, rfl⟩ : ∃ (g : Fin 64) (o : Fin 3), j = ix2 g o := ⟨j 0, j 1, eq_ix2 j⟩
  exact out_at x0 x1 x2 x3 x4 x5 x6 x7 x8 x9 x10 x11 x12 x13 g o

end Cert.ReferenceIdeal.RefVal

end
-- ==== Proof.Ref.lean ====
/-
  The reference program: its run, and its result as one function of its fourteen argument arrays.

  The program runs to the end with nothing faulting and leaves its arguments as they were; its result array holds,
  at graph `g` and output `o`, the specification's result with both normalising factors on the messages, evaluated
  on the shared index and weight chains of its edge list, edge weights and graph labels.
-/
import proofs.«415102_j60859686584588_3_alg».proof.Proof.RefHead
import proofs.«415102_j60859686584588_3_alg».proof.Defs
import proofs.«415102_j60859686584588_3_alg».proof.Proof.Gen.ReferenceIdeal.Run
import proofs.«415102_j60859686584588_3_alg».proof.Proof.Gen.ReferenceIdeal.Read

noncomputable section

namespace Cert.ReferenceIdeal.RefVal

open Cert.ReferenceIdeal Cert.ReferenceIdeal.Gen Idealize.ShloMosaic Idealize.ShloMosaic.TcCoe Idealize.SL.Sem Idealize.ShloMosaic.StableHlo

/-- The reference's result from an initial memory: the one function of its fourteen argument arrays. -/
def refOut (m' : (ℓ : Loc nD τ sig) → Buf (Elt Ideal) ℓ) (c : Dev nD) : Buf (Elt Ideal) ((c.tc : Thread nD τ).loc main_v95) :=
  refG (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))

/-- THE REFERENCE RUNS, ends with that function of its arguments in its result, and leaves its arguments as they were. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v95) = refOut m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run (defs (F := Ideal)) _ _).mono
    (fun _ h c => ⟨(h c).1.trans ((Cert.ReferenceIdeal.Read.val_main_v95_eq m' c).trans (ref_val _ _ _ _ _ _ _ _ _ _ _ _ _ _)), (h c).2⟩)
    (Cert.ReferenceIdeal.Value.run (F := Ideal) m' ρ')

/-- THE REFERENCE RUNS and leaves its arguments as they were. -/
theorem ref_frame [hPre_finite_inputs : Cert.Pre_finite_inputs.Facts] :
    Cert.frame_ReferenceIdeal (hReferenceIdeal := Cert.ReferenceIdeal.Gen.facts) :=
  fun m ρ _ => (θ_run (defs (F := Ideal)) _ _).mono (fun _ h c => (h c).2) (Cert.ReferenceIdeal.Value.run (F := Ideal) m ρ)

end Cert.ReferenceIdeal.RefVal

end
-- ==== Proof.Chains2.lean ====
/-
  What the shared chains read at plain indices, and the facts the two arrangements of the sums rest on.

  A start word of the target vector whose signed value is a node number `n` is not negative, so the row lookup
  does not shift it, and it is below the number of rows, so the lookup does not clamp it: where a message is added
  into `n`, the target's factor is read at row `n`.  A message weight is an edge weight or the literal one.  A
  degree is zero plus a finite sum of message weights, so a real number when the edge weights are; the larger of
  it and a positive literal is a positive real, whose reciprocal square root is a real; the other branch of the
  choice is zero.
-/
import proofs.«415102_j60859686584588_3_alg».proof.Proof.Chains
import proofs.«415102_j60859686584588_3_alg».proof.Proof.Spec
import proofs.«415102_j60859686584588_3_alg».proof.Proof.LibIndexed
import Idealize.ShloMosaic.Lib.IdealHost
import Idealize.ShloMosaic.Lib.Pipeline.Value
import Idealize.ShloMosaic.PureOps.Ideal.Laws

noncomputable section

namespace Cert.Chains

open Idealize.ShloMosaic Idealize.ShloMosaic.ValueIdx
open Cert.KernelIdeal Cert.KernelIdeal.Facts₀
open scoped BigOperators

variable [Cert.KernelIdeal.Facts₀]

/-! ## Words and extended reals -/

/-- The literal under the maximum is a positive real. -/
theorem eps_pos_real : ∃ c : ℝ, 0 < c ∧ Ideal.ofBits .f32 0x2B8CBCCC#32 = (c : EReal) := by
  simp [Ideal.ofBits, Ideal.ieee, -EReal.coe_mul]

/-- A start word whose signed value is a row number is not shifted and not clamped. -/
theorem start_of_toInt (v : BitVec 32) (n : ℕ) (hn : n < 50000) (hv : v.toInt = (n : ℤ)) :
    min (Scalar.select (IntOp.cmpi .slt v 0#32) (IntOp.addi v 50000#32) v).toInt.toNat (50000 - 1) = n := by
  have h0 : IntOp.cmpi .slt v 0#32 = 0#1 := by
    unfold IntOp.cmpi
    simp only [BitVec.slt, hv, BitVec.toInt_zero]
    have : ¬ ((n : ℤ) < 0) := by omega
    simp [this]
  rw [h0, select_zero, hv]
  omega

theorem isReal_zero : Cert.Spec.IsReal (0 : EReal) := ⟨0, rfl⟩

theorem isReal_one : Cert.Spec.IsReal (1 : EReal) := ⟨1, rfl⟩

theorem isReal_add {a b : EReal} (ha : Cert.Spec.IsReal a) (hb : Cert.Spec.IsReal b) : Cert.Spec.IsReal (a + b) := by
  obtain ⟨r, rfl⟩ := ha
  obtain ⟨s, rfl⟩ := hb
  exact ⟨r + s, (EReal.coe_add r s).symm⟩

theorem isReal_sum {ι : Type} (s : Finset ι) (f : ι → EReal) (h : ∀ i, Cert.Spec.IsReal (f i)) :
    Cert.Spec.IsReal (∑ i ∈ s, f i) := by
  classical
  induction s using Finset.induction_on with
  | empty => rw [Finset.sum_empty]; exact isReal_zero
  | insert a s ha ih => rw [Finset.sum_insert ha]; exact isReal_add (h a) ih

/-- The normalising factor of a real degree is a real number. -/
theorem dis_word_real (x : EReal) (hx : Cert.Spec.IsReal x) :
    Cert.Spec.IsReal (Scalar.select (Ideal.cmp .ogt x (Ideal.ofBits .f32 0x00000000#32))
      (Ideal.rsqrt (max x (Ideal.ofBits .f32 0x2B8CBCCC#32))) (Ideal.ofBits .f32 0x00000000#32)) := by
  by_cases hc : Ideal.cmp .ogt x (Ideal.ofBits .f32 0x00000000#32) = 1#1
  · rw [hc, select_one]
    obtain ⟨r, rfl⟩ := hx
    obtain ⟨c, hc0, hce⟩ := eps_pos_real
    have hmax : max (r : EReal) (c : EReal) = ((max r c : ℝ) : EReal) := (EReal.coe_strictMono.monotone.map_max).symm
    rw [hce, hmax, Ideal.rsqrt_coe]
    have hm : 0 < max r c := lt_max_of_lt_right hc0
    rw [if_neg (not_lt.2 hm.le), if_neg hm.ne']
    exact ⟨_, rfl⟩
  · rw [eq_zero_of_ne_one hc, select_zero, Ideal.ofBits_zero_f32]
    exact isReal_zero

/-! ## The start words at a message -/

/-- An index vector with a unit axis added reads, at `(e, 0)`, the vector at `e`. -/
theorem sidxC_apply (s : IVec S850000 32) (e : Fin 850000) : sidxC s (ix2 e (0 : Fin 1)) = s (ix1 e) := by
  unfold sidxC
  refine broadcastInDim_apply _ _ _ _ (ix1 e) (fun a => ?_)
  match a with
  | ⟨0, _⟩ => show e.val = if (850000 : ℕ) = 1 then 0 else e.val; rw [if_neg (by omega)]

/-- The labels with a unit axis added read, at `(n, 0)`, the label of `n`. -/
theorem bidxC_apply (a3 : IVec S50000 32) (n : Fin 50000) : bidxC a3 (ix2 n (0 : Fin 1)) = a3 (ix1 n) := by
  unfold bidxC
  refine broadcastInDim_apply _ _ _ _ (ix1 n) (fun a => ?_)
  match a with
  | ⟨0, _⟩ => show n.val = if (50000 : ℕ) = 1 then 0 else n.val; rw [if_neg (by omega)]

/-- A row lookup's start word at `(e, 0)`: the vector's word at `e`, shifted up by the number of rows when negative. -/
theorem gidxC_apply (s : IVec S850000 32) (e : Fin 850000) :
    gidxC s (ix2 e (0 : Fin 1))
      = Scalar.select (IntOp.cmpi .slt (s (ix1 e)) 0#32) (IntOp.addi (s (ix1 e)) 50000#32) (s (ix1 e)) := by
  unfold gidxC
  rw [broadcastInDim_apply _ _ _ _ (ix1 e) (fun a => by
    match a with
    | ⟨0, _⟩ => show e.val = if (850000 : ℕ) = 1 then 0 else e.val; rw [if_neg (by omega)])]
  rfl

/-- Message `e` is added into node `n` when its target word read signed is `n`. -/
theorem dhitS_iff (t : IVec S850000 32) (e : Fin 850000) (n : Fin 50000) :
    dhitS t e n ↔ (t (ix1 e)).toInt = (n.val : ℤ) := by
  unfold dhitS; rw [sidxC_apply]

/-- Node `n` belongs to graph `g` when its label read signed is `g`. -/
theorem bhit_iff (a3 : IVec S50000 32) (n : Fin 50000) (g : Fin 64) :
    bhit a3 n g ↔ (a3 (ix1 n)).toInt = (g.val : ℤ) := by
  unfold bhit; rw [bidxC_apply]

/-- Where a message of an index vector is added into node `n`, a row lookup by the same vector reads row `n`. -/
theorem srowS_of_dhitS (t : IVec S850000 32) (e : Fin 850000) (n : Fin 50000) (h : dhitS t e n) : srowS t e = n := by
  rw [dhitS_iff] at h
  apply Fin.ext
  show min ((gidxC t) (ix2 e (0 : Fin 1))).toInt.toNat (50000 - 1) = n.val
  rw [gidxC_apply]
  exact start_of_toInt _ n.val n.isLt h

/-- WHERE A MESSAGE IS ADDED, THE TARGET'S FACTOR IS READ AT THE NODE IT IS ADDED INTO. -/
theorem drow_of_dhit (a1 : IVec S2x800000 32) (e : Fin 850000) (n : Fin 50000) : dhit a1 e n → drow a1 e = n :=
  srowS_of_dhitS (dstC a1) e n

/-! ## The message weights -/

/-- The weight of an edge's message is the edge's weight. -/
theorem wv_edge (a2 : FVec Ideal S800000 .f32) (e : Fin 850000) (he : e.val < 800000) :
    wv a2 e = a2 (ix1 ⟨e.val, he⟩) := by
  unfold wv wC
  refine concatenate_pair_apply_left (0 : Fin S850000.rank) a2 _ concatenates_S800000_S50000_S850000_d0 (ix1 e) rfl
    (ix1 ⟨e.val, he⟩) (fun b => ?_)
  match b with
  | ⟨0, _⟩ => rfl

/-- The weight of a self loop's message is one. -/
theorem wv_loop (a2 : FVec Ideal S800000 .f32) (e : Fin 850000) (he : 800000 ≤ e.val) : wv a2 e = 1 := by
  unfold wv wC
  have hlt : e.val - 800000 < 50000 := by have := e.isLt; omega
  rw [concatenate_pair_apply_right (0 : Fin S850000.rank) a2 _ concatenates_S800000_S50000_S850000_d0 (ix1 e) rfl rfl
    (ix1 ⟨e.val - 800000, hlt⟩) (fun b hb => absurd (Subsingleton.elim _ _) hb)
    (by show e.val - 800000 + 800000 = e.val; omega)]
  rw [broadcastInDim_scalar_apply, constant_apply, Ideal.ofBits_one_f32]

/-- A MESSAGE WEIGHT IS A REAL NUMBER WHEN THE EDGE WEIGHTS ARE. -/
theorem wv_real (a2 : FVec Ideal S800000 .f32) (h : ∀ j, Cert.Spec.IsReal (a2 j)) (e : Fin 850000) :
    Cert.Spec.IsReal (wv a2 e) := by
  by_cases he : e.val < 800000
  · rw [wv_edge a2 e he]; exact h _
  · rw [wv_loop a2 e (Nat.le_of_not_lt he)]; exact isReal_one

/-! ## The degrees and the normalising factors -/

/-- The degree of node `n`: the weights of the messages added into it. -/
theorem degC_apply (a1 : IVec S2x800000 32) (a2 : FVec Ideal S800000 .f32) (n : Fin 50000) :
    degC a1 a2 (ix1 n) = 0 + ∑ e ∈ Finset.univ.filter (fun e : Fin 850000 => dhit a1 e n), wv a2 e := by
  unfold degC
  rw [Cert.Rgcn.Lib.scatterAdd_vec_apply scatter_S50000_S850000x1_S850000_n_0_0_1 scatter_S50000_S850000x1_S850000_n_0_0_1_wf rfl,
    broadcastInDim_scalar_apply, constant_apply, Ideal.ofBits_zero_f32]
  rfl

/-- The number of nodes of graph `g`: a one per node that carries its label. -/
theorem cntv_eq (a3 : IVec S50000 32) (g : Fin 64) :
    cntv a3 g = 0 + ∑ n ∈ Finset.univ.filter (fun n : Fin 50000 => bhit a3 n g), (1 : EReal) := by
  unfold cntv cntC
  rw [Cert.Rgcn.Lib.scatterAdd_vec_apply scatter_S64_S50000x1_S50000_n_0_0_1 scatter_S64_S50000x1_S50000_n_0_0_1_wf rfl,
    broadcastInDim_scalar_apply, constant_apply, Ideal.ofBits_zero_f32]
  refine congrArg (fun z => (0 : EReal) + z) (Finset.sum_congr rfl (fun n _ => ?_))
  rw [broadcastInDim_scalar_apply, constant_apply, Ideal.ofBits_one_f32]

/-- The choice on a vector of degrees, read at a node. -/
theorem dis_apply (d : FVec Ideal S50000 .f32) (n : Fin 50000) :
    select
        (cmpf .ogt d (broadcastInDim S50000 ![] bcast_S_S50000 (constant (F := Ideal) S_ .f32 0x00000000#32)))
        (Host.rsqrt (maximumf d (broadcastInDim S50000 ![] bcast_S_S50000 (constant (F := Ideal) S_ .f32 0x2B8CBCCC#32))))
        (broadcastInDim S50000 ![] bcast_S_S50000 (constant (F := Ideal) S_ .f32 0x00000000#32)) (ix1 n)
      = Scalar.select (Ideal.cmp .ogt (d (ix1 n)) (Ideal.ofBits .f32 0x00000000#32))
          (Ideal.rsqrt (max (d (ix1 n)) (Ideal.ofBits .f32 0x2B8CBCCC#32))) (Ideal.ofBits .f32 0x00000000#32) := rfl

/-- The normalising factor of node `n` as a choice on its degree. -/
theorem dv_eq (a1 : IVec S2x800000 32) (a2 : FVec Ideal S800000 .f32) (n : Fin 50000) :
    dv a1 a2 n = Scalar.select (Ideal.cmp .ogt (degC a1 a2 (ix1 n)) (Ideal.ofBits .f32 0x00000000#32))
      (Ideal.rsqrt (max (degC a1 a2 (ix1 n)) (Ideal.ofBits .f32 0x2B8CBCCC#32))) (Ideal.ofBits .f32 0x00000000#32) :=
  dis_apply (degC a1 a2) n

/-- A degree is a real number when the edge weights are. -/
theorem deg_real (a1 : IVec S2x800000 32) (a2 : FVec Ideal S800000 .f32) (h : ∀ j, Cert.Spec.IsReal (a2 j)) (n : Fin 50000) :
    Cert.Spec.IsReal (degC a1 a2 (ix1 n)) := by
  rw [degC_apply]
  exact isReal_add isReal_zero (isReal_sum _ _ (wv_real a2 h))

/-- A NORMALISING FACTOR IS A REAL NUMBER WHEN THE EDGE WEIGHTS ARE. -/
theorem dv_real (a1 : IVec S2x800000 32) (a2 : FVec Ideal S800000 .f32) (h : ∀ j, Cert.Spec.IsReal (a2 j)) (n : Fin 50000) :
    Cert.Spec.IsReal (dv a1 a2 n) := by
  rw [dv_eq]
  exact dis_word_real _ (deg_real a1 a2 h n)

end Cert.Chains

end
-- ==== Proof.LibGcnAlgebra.lean ====
/-
  General lemmas for certificates of graph convolutions at the extended reals.

  Three groups.
  * Coercions: a finite sum of reals read as an extended real is the sum of the terms read so; an extended real that
    is a real (IsReal) stays one under sums, products and maxima; the reciprocal square root of a count plus one.
  * Counting: a sum over a product of two finite ranges read through the flat index p + n · w, and a filtered sum cut
    down to the part of a longer range where the filter can hold at all.
  * The algebra of one normalised graph-convolution layer over the reals, in the two orders a hand-scheduled kernel
    and a textbook reference write it, and of a two-layer network with sum pooling and a linear head in both orders.
-/
import Idealize.ShloMosaic.PureOps.Ideal
import Mathlib.Algebra.BigOperators.Fin
import Mathlib.Logic.Equiv.Fin.Basic

noncomputable section

open scoped BigOperators

namespace GcnAlgebra

open Idealize.ShloMosaic

/-! ## Coercions -/

/-- A finite sum of reals, read as an extended real, is the sum of the terms read as extended reals. -/
@[norm_cast] theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read as an extended real, is the maximum of the two read so. -/
@[norm_cast] theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A natural number read as an extended real is the real read so. -/
theorem coe_natCast (n : ℕ) : ((n : ℝ) : EReal) = (n : EReal) := rfl

/-- An extended real that is a real number. -/
def IsReal (v : EReal) : Prop := ∃ r : ℝ, v = (r : EReal)

theorem isReal_coe (r : ℝ) : IsReal (r : EReal) := ⟨r, rfl⟩

/-- Whatever is neither infinity is a real. -/
theorem isReal_of_ne {v : EReal} (ht : v ≠ ⊤) (hb : v ≠ ⊥) : IsReal v := ⟨v.toReal, (EReal.coe_toReal ht hb).symm⟩

/-- Whatever lies strictly between the two infinities in absolute value is a real. -/
theorem isReal_of_abs_lt_top {v : EReal} (h : max v (-v) < ⊤) : IsReal v := by
  refine isReal_of_ne (fun ht => ?_) (fun hb => ?_)
  · rw [ht] at h; exact absurd h (by simp)
  · rw [hb] at h; exact absurd h (by simp)

/-- A family of reals has a real-valued form. -/
theorem exists_real_form {α : Type*} {f : α → EReal} (h : ∀ i, IsReal (f i)) : ∃ g : α → ℝ, ∀ i, f i = (g i : EReal) :=
  ⟨fun i => (h i).choose, fun i => (h i).choose_spec⟩

/-- The reciprocal square root of a count plus one, at the extended reals, is the real one. -/
theorem div_one_sqrt_coe {c : ℝ} (hc : 0 ≤ c) :
    Ideal.div 1 (Ideal.sqrt ((c : EReal) + 1)) = ((1 / Real.sqrt (c + 1) : ℝ) : EReal) := by
  have hpos : 0 < c + 1 := by linarith
  have h1 : ((c : EReal) + 1) = ((c + 1 : ℝ) : EReal) := by rw [EReal.coe_add, EReal.coe_one]
  rw [h1, Ideal.sqrt_coe, if_neg (not_lt.2 hpos.le), Ideal.div_coe (Real.sqrt_pos.2 hpos).ne', one_mul]

/-! ## Counting -/

/-- A sum over two ranges of a function of the flat index p + n · w is the sum over the flat range. -/
theorem sum_fin_prod_flat {M : Type*} [AddCommMonoid M] (m n : ℕ) (f : Fin (m * n) → M) :
    ∑ w : Fin m, ∑ p : Fin n, f (finProdFinEquiv (w, p)) = ∑ e : Fin (m * n), f e := by
  rw [← Fintype.sum_prod_type' (fun w p => f (finProdFinEquiv (w, p)))]
  exact Equiv.sum_comp finProdFinEquiv f

/-- The flat index of (w, p) is p + n · w. -/
theorem finProdFinEquiv_val {m n : ℕ} (w : Fin m) (p : Fin n) : (finProdFinEquiv (w, p) : Fin (m * n)).val = p.val + n * w.val := rfl

/-- A sum over a longer range of terms that vanish past the first n is the sum over the first n. -/
theorem sum_fin_castLE {M : Type*} [AddCommMonoid M] {n N : ℕ} (h : n ≤ N) (f : Fin N → M)
    (hz : ∀ p : Fin N, n ≤ p.val → f p = 0) : ∑ p : Fin N, f p = ∑ p : Fin n, f (Fin.castLE h p) := by
  classical
  have hinj : Function.Injective (Fin.castLE h) := Fin.castLE_injective h
  have hm : ∑ p : Fin n, f (Fin.castLE h p) = ∑ q ∈ Finset.univ.map ⟨Fin.castLE h, hinj⟩, f q :=
    (Finset.sum_map Finset.univ ⟨Fin.castLE h, hinj⟩ f).symm
  rw [hm]
  symm
  refine Finset.sum_subset (Finset.subset_univ _) (fun p _ hp => hz p ?_)
  by_contra hlt
  exact hp (Finset.mem_map.2 ⟨⟨p.val, not_le.1 hlt⟩, Finset.mem_univ _, Fin.ext rfl⟩)

/-! ## One layer over the reals, in the two orders -/

section Layer

variable {ι ε κ φ : Type*} [Fintype ι] [Fintype ε] [Fintype κ] [Fintype φ] [DecidableEq ι]
variable (src dst : ε → ι) (d : ι → ℝ)

/-- The kernel's table of a layer: the features times the weights, each node's column scaled by its factor. -/
def tabK (W : κ → φ → ℝ) (h : κ → ι → ℝ) (f : φ) (n : ι) : ℝ := (∑ k, W k f * h k n) * d n

/-- The kernel's activations: the table summed over the edges into a node, plus the node's own column, scaled
    again, plus the bias, cut at zero. -/
def actK (g : φ → ι → ℝ) (b : φ → ℝ) (f : φ) (n : ι) : ℝ :=
  max (((∑ e ∈ Finset.univ.filter (fun e => dst e = n), g f (src e)) + g f n) * d n + b f) 0

/-- The reference's activations: each edge's message carries both ends' factors, the self loop the node's twice. -/
def actR (h : ι → κ → ℝ) (W : κ → φ → ℝ) (b : φ → ℝ) (i : ι) (f : φ) : ℝ :=
  max ((∑ e ∈ Finset.univ.filter (fun e => dst e = i), (∑ k, h (src e) k * W k f) * (d (src e) * d i))
    + (∑ k, h i k * W k f) * (d i * d i) + b f) 0

/-- The two orders agree: the outer factor distributes over the edge sum. -/
theorem actK_tabK (W : κ → φ → ℝ) (h : κ → ι → ℝ) (b : φ → ℝ) (f : φ) (n : ι) :
    actK src dst d (tabK d W h) b f n = actR src dst d (fun i k => h k i) W b n f := by
  have hk : ∀ m, (∑ k, W k f * h k m) = ∑ k, h k m * W k f :=
    fun m => Finset.sum_congr rfl (fun k _ => mul_comm _ _)
  simp only [actK, actR, tabK, hk]
  rw [add_mul, Finset.sum_mul]
  simp only [mul_assoc]

end Layer

/-! ## Two layers, sum pooling and a linear head, in the two orders -/

section Net

variable {ι ε κ φ γ : Type*} [Fintype ι] [Fintype ε] [Fintype κ] [Fintype φ] [DecidableEq ι] [DecidableEq γ]
variable (src dst : ε → ι) (d : ι → ℝ) (bat : ι → γ)

/-- The kernel's network: two layers over transposed tables, the pooling as a product with a one-hot matrix. -/
def netK (x : ι → κ → ℝ) (W1 : κ → φ → ℝ) (b1 : φ → ℝ) (W2 : φ → φ → ℝ) (b2 : φ → ℝ) (W3 : φ → ℝ) (b3 : ℝ) (g : γ) : ℝ :=
  (∑ f, (∑ n, actK src dst d (tabK d W2 (actK src dst d (tabK d W1 (fun k n => x n k)) b1)) b2 f n
      * (if bat n = g then 1 else 0)) * W3 f) + b3

/-- The reference's network: two layers, a segment sum, a matrix product and a bias. -/
def netR (x : ι → κ → ℝ) (W1 : κ → φ → ℝ) (b1 : φ → ℝ) (W2 : φ → φ → ℝ) (b2 : φ → ℝ) (W3 : φ → ℝ) (b3 : ℝ) (g : γ) : ℝ :=
  (∑ f, (∑ n ∈ Finset.univ.filter (fun n => bat n = g), actR src dst d (actR src dst d x W1 b1) W2 b2 n f) * W3 f) + b3

theorem netK_eq_netR (x : ι → κ → ℝ) (W1 : κ → φ → ℝ) (b1 : φ → ℝ) (W2 : φ → φ → ℝ) (b2 : φ → ℝ) (W3 : φ → ℝ) (b3 : ℝ) (g : γ) :
    netK src dst d bat x W1 b1 W2 b2 W3 b3 g = netR src dst d bat x W1 b1 W2 b2 W3 b3 g := by
  unfold netK netR
  congr 1
  refine Finset.sum_congr rfl (fun f _ => ?_)
  congr 1
  rw [Finset.sum_filter]
  refine Finset.sum_congr rfl (fun n _ => ?_)
  rw [actK_tabK]
  have h1 : (fun (i : ι) (k : φ) => actK src dst d (tabK d W1 (fun k n => x n k)) b1 k i) = actR src dst d x W1 b1 := by
    funext i k
    exact actK_tabK src dst d W1 (fun k n => x n k) b1 k i
  rw [h1]
  split_ifs <;> simp

end Net

end GcnAlgebra

end
-- ==== Proof.LibOneHot.lean ====
/-
  One-hot selection as a sum, on the extended reals.

  A row lookup written as a product with a one-hot row: the sum over a finite index set of an indicator of ONE
  index times a function is the function at that index, and the sum against an indicator that holds nowhere is
  zero — with no finiteness needed, because on the extended reals `0 · x = 0` and `1 · x = x` for every `x`,
  infinities included. Beside it: when a machine word `w` below the table's length is shifted down by a block
  offset `1408 k`, the shifted word equals a position `j` of the block exactly when `w` is row `j` of block `k`;
  and a value recombined from a head and a residual, `x + (x − x)`, is `x` unless `x` is `+∞`.
-/
import Mathlib.Data.EReal.Operations
import Mathlib.Algebra.BigOperators.Group.Finset.Basic

namespace Cert.OneHot

open Finset

/-- A sum against the indicator of exactly one index is the entry there. -/
theorem sum_indicator_mul_eq {ι : Type} [Fintype ι] [DecidableEq ι] (j0 : ι) (H : ι → EReal)
    (P : ι → Prop) [DecidablePred P] (hP : ∀ j, P j ↔ j = j0) :
    (∑ j, (if P j then (1 : EReal) else 0) * H j) = H j0 := by
  rw [Finset.sum_eq_single j0]
  · rw [if_pos ((hP j0).mpr rfl), one_mul]
  · intro j _ hj
    rw [if_neg (fun h => hj ((hP j).mp h)), zero_mul]
  · intro h; exact absurd (Finset.mem_univ j0) h

/-- A sum against an indicator that holds nowhere is zero. -/
theorem sum_indicator_mul_none {ι : Type} [Fintype ι] (H : ι → EReal)
    (P : ι → Prop) [DecidablePred P] (hP : ∀ j, ¬P j) :
    (∑ j, (if P j then (1 : EReal) else 0) * H j) = 0 := by
  apply Finset.sum_eq_zero
  intro j _
  rw [if_neg (hP j), zero_mul]

/-- A word below 8448 shifted down by `1408 k` (`k < 6`) is position `j < 1408` exactly when it is row `j` of block `k`. -/
theorem ofNat_eq_sub_iff (w : BitVec 32) (k j : ℕ) (hw : w.toNat < 8448) (hk : k < 6) (hj : j < 1408) :
    BitVec.ofNat 32 j = w - BitVec.ofNat 32 k * 1408#32 ↔ w.toNat = 1408 * k + j := by
  rw [← BitVec.toNat_inj]
  simp only [BitVec.toNat_sub, BitVec.toNat_mul, BitVec.toNat_ofNat]
  omega

/-- A value recombined from itself and its own residual is itself, unless it is `+∞`. -/
theorem add_sub_self_of_ne_top {x : EReal} (h : x ≠ ⊤) : x + (x - x) = x := by
  induction x using EReal.rec with
  | bot => exact EReal.bot_add _
  | coe r =>
    rw [← EReal.coe_sub, sub_self, EReal.coe_zero, add_zero]
  | top => exact absurd rfl h

/-- Zero has no residual. -/
theorem zero_sub_zero : (0 : EReal) - 0 = 0 := by simp

end Cert.OneHot
-- ==== Proof.SpecAlg.lean ====
/-
  The two arrangements of the network agree.

  One layer: with the normalising factor outside the message sum, the summed messages are scaled by the target's
  factor; with the factors on the messages, every message carries the target's factor itself.  The two are equal
  when the factor may be moved across the finite sum, and on the extended reals that needs every term to be a real
  number: x · (a + b) = x · a + x · b fails for infinities of opposite signs.  So the layer's equality is proved for
  tables, weights and factors that are reals, and the layer's result is shown to be real again so that the second
  layer may use it.  The pooled sums (a 0/1 factor against a filtered sum) and the output product (one sum over 128
  columns against two sums over 64) are rearrangements that hold for every extended real.
-/
import proofs.«415102_j60859686584588_3_alg».proof.Proof.Out
import proofs.«415102_j60859686584588_3_alg».proof.Proof.Spec
import proofs.«415102_j60859686584588_3_alg».proof.Proof.LibGcnAlgebra
import proofs.«415102_j60859686584588_3_alg».proof.Proof.LibOneHot
import Mathlib.Data.EReal.Operations
import Mathlib.Algebra.BigOperators.Fin
import Mathlib.Algebra.BigOperators.Group.Finset.Basic

noncomputable section

namespace Cert.Spec

open scoped BigOperators

/-! ## Real numbers among the extended reals -/

/-- The two statements of "is a real number" are one proposition. -/
theorem isReal_iff (v : EReal) : IsReal v ↔ GcnAlgebra.IsReal v := ⟨fun ⟨r, h⟩ => ⟨r, h⟩, fun ⟨r, h⟩ => ⟨r, h⟩⟩

theorem isReal_zero : IsReal 0 := ⟨0, EReal.coe_zero.symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.max_zero {a : EReal} (ha : IsReal a) : IsReal (max a 0) := by
  obtain ⟨r, rfl⟩ := ha
  exact ⟨max r 0, by rw [GcnAlgebra.coe_max, EReal.coe_zero]⟩

/-- A finite sum of reals is a real. -/
theorem isReal_sum {α : Type*} (s : Finset α) (t : α → EReal) (ht : ∀ i ∈ s, IsReal (t i)) : IsReal (∑ i ∈ s, t i) :=
  Finset.sum_induction t IsReal (fun _ _ ha hb => ha.add hb) isReal_zero ht

/-- Among reals the product distributes over a sum. -/
theorem add_mul_of_isReal {a b c : EReal} (ha : IsReal a) (hb : IsReal b) (hc : IsReal c) : (a + b) * c = a * c + b * c := by
  obtain ⟨r, rfl⟩ := ha
  obtain ⟨s, rfl⟩ := hb
  obtain ⟨t, rfl⟩ := hc
  rw [← EReal.coe_add, ← EReal.coe_mul, ← EReal.coe_mul, ← EReal.coe_mul, ← EReal.coe_add, add_mul]

/-- A real factor moves across a finite sum of reals. -/
theorem sum_mul_of_isReal {α : Type*} (s : Finset α) (t : α → EReal) (c : EReal) (ht : ∀ i ∈ s, IsReal (t i)) (hc : IsReal c) :
    (∑ i ∈ s, t i) * c = ∑ i ∈ s, t i * c := by
  classical
  induction s using Finset.induction_on with
  | empty => rw [Finset.sum_empty, Finset.sum_empty, zero_mul]
  | insert a s ha ih =>
    have hs : ∀ i ∈ s, IsReal (t i) := fun i hi => ht i (Finset.mem_insert_of_mem hi)
    rw [Finset.sum_insert ha, Finset.sum_insert ha,
      add_mul_of_isReal (ht a (Finset.mem_insert_self a s)) (isReal_sum s t hs) hc, ih hs]

/-! ## One layer -/

section Layer

variable {N E : ℕ}
variable (srow drow : Fin E → Fin N) (dhit : Fin E → Fin N → Prop) [∀ e n, Decidable (dhit e n)]
variable (w : Fin E → EReal) (d : Fin N → EReal)

/-- A row of a real table against a column of a real matrix is a real. -/
theorem isReal_dot {h : Fin N → Fin 64 → EReal} {W : Fin 64 → Fin 64 → EReal}
    (hh : ∀ i k, IsReal (h i k)) (hW : ∀ k f, IsReal (W k f)) (i : Fin N) (f : Fin 64) :
    IsReal (∑ k : Fin 64, h i k * W k f) :=
  isReal_sum _ _ (fun k _ => (hh i k).mul (hW k f))

/-- One layer in the two arrangements: where a message is added its second factor is the target's, and the
    target's factor moves across the sum of real terms. -/
theorem layK_tabK_eq_layR (hd : ∀ e n, dhit e n → drow e = n) (hw : ∀ e, IsReal (w e)) (hdr : ∀ n, IsReal (d n))
    {h : Fin N → Fin 64 → EReal} {W : Fin 64 → Fin 64 → EReal}
    (hh : ∀ i k, IsReal (h i k)) (hW : ∀ k f, IsReal (W k f)) (b : Fin 64 → EReal) :
    layK srow dhit w d (tabK d h W) b = layR srow drow dhit w d h W b := by
  funext n f
  simp only [layK, layR, aggK, tabK, normR]
  congr 1
  rw [sum_mul_of_isReal _ _ _
    (fun e _ => ((isReal_dot hh hW (srow e) f).mul (hdr (srow e))).mul (hw e)) (hdr n)]
  refine Finset.sum_congr rfl (fun e he => ?_)
  have hen : drow e = n := hd e n (Finset.mem_filter.1 he).2
  rw [hen]
  simp only [mul_assoc]

/-- The layer's result is real where its inputs are. -/
theorem isReal_layR (hw : ∀ e, IsReal (w e)) (hdr : ∀ n, IsReal (d n))
    {h : Fin N → Fin 64 → EReal} {W : Fin 64 → Fin 64 → EReal} {b : Fin 64 → EReal}
    (hh : ∀ i k, IsReal (h i k)) (hW : ∀ k f, IsReal (W k f)) (hb : ∀ f, IsReal (b f)) (n : Fin N) (f : Fin 64) :
    IsReal (layR srow drow dhit w d h W b n f) := by
  simp only [layR, normR]
  exact (isReal_sum _ _ (fun e _ =>
    (isReal_dot hh hW (srow e) f).mul (((hdr (srow e)).mul (hw e)).mul (hdr (drow e))))).add (hb f)

/-- The cut at zero keeps real entries real. -/
theorem isReal_relu {a : Fin N → Fin 64 → EReal} (ha : ∀ n f, IsReal (a n f)) (n : Fin N) (f : Fin 64) :
    IsReal (relu a n f) := (ha n f).max_zero

/-- The two layers in the two arrangements. -/
theorem net2K_eq_net2R (hd : ∀ e n, dhit e n → drow e = n) (hw : ∀ e, IsReal (w e)) (hdr : ∀ n, IsReal (d n))
    {x : Fin N → Fin 64 → EReal} {W1 : Fin 64 → Fin 64 → EReal} {b1 : Fin 64 → EReal} {W2 : Fin 64 → Fin 64 → EReal}
    (hx : ∀ n k, IsReal (x n k)) (hW1 : ∀ k f, IsReal (W1 k f)) (hb1 : ∀ f, IsReal (b1 f))
    (hW2 : ∀ k f, IsReal (W2 k f)) (b2 : Fin 64 → EReal) :
    net2K srow dhit w d x W1 b1 W2 b2 = net2R srow drow dhit w d x W1 b1 W2 b2 := by
  unfold net2K net2R
  rw [layK_tabK_eq_layR srow drow dhit w d hd hw hdr hx hW1 b1]
  exact layK_tabK_eq_layR srow drow dhit w d hd hw hdr
    (isReal_relu (isReal_layR srow drow dhit w d hw hdr hx hW1 hb1)) hW2 b2

end Layer

/-! ## The pooled sums and the output product -/

section Head

variable {N : ℕ}

/-- A 0/1 factor against a sum over the members only: no finiteness, 1 · v = v and 0 · v = 0 for every v. -/
theorem poolK_eq_poolR (bhit : Fin N → Fin 64 → Prop) [∀ n g, Decidable (bhit n g)] (a : Fin N → Fin 64 → EReal) :
    poolK bhit a = poolR bhit a := by
  funext g f
  unfold poolK poolR
  rw [Finset.sum_filter]
  refine Finset.sum_congr rfl (fun n _ => ?_)
  split_ifs
  · exact one_mul _
  · exact zero_mul _

/-- The sum over 128 columns is the sum over the first 64 plus the sum over the last 64. -/
theorem headK_eq_headR (h1 h2 : Fin 64 → Fin 64 → EReal) (kwoA kwoB : Fin 64 → Fin 3 → EReal)
    (kwo : Fin 128 → Fin 3 → EReal) (kbo : Fin 3 → EReal)
    (hA : ∀ j o, kwoA j o = kwo ⟨j.val, by omega⟩ o) (hB : ∀ j o, kwoB j o = kwo ⟨64 + j.val, by omega⟩ o) :
    headK h1 h2 kwoA kwoB kbo = headR h1 h2 kwo kbo := by
  funext g o
  unfold headK headR
  congr 1
  symm
  refine (Fin.sum_univ_add (a := 64) (b := 64) _).trans ?_
  congr 1
  · refine Finset.sum_congr rfl (fun i _ => ?_)
    have hi : (Fin.castAdd 64 i).val < 64 := i.isLt
    rw [dif_pos hi, hA]
    rfl
  · refine Finset.sum_congr rfl (fun i _ => ?_)
    have hi : ¬ (Fin.natAdd 64 i).val < 64 := by rw [Fin.coe_natAdd]; omega
    rw [dif_neg hi, hB]
    have hv : (⟨(Fin.natAdd 64 i).val - 64, by rw [Fin.coe_natAdd]; omega⟩ : Fin 64) = i :=
      Fin.ext (by show (Fin.natAdd 64 i).val - 64 = i.val; rw [Fin.coe_natAdd]; omega)
    rw [hv]
    rfl

end Head

end Cert.Spec

namespace Cert.Out

open scoped BigOperators
open Idealize.ShloMosaic Cert.Spec

variable {N E : ℕ}
variable (srow drow : Fin E → Fin N) (dhit : Fin E → Fin N → Prop) [∀ e n, Decidable (dhit e n)]
variable (w : Fin E → EReal) (d : Fin N → EReal)
variable (bhit : Fin N → Fin 64 → Prop) [∀ n g, Decidable (bhit n g)] (cnt : Fin 64 → EReal) (one : EReal)
variable (x : Fin N → Fin 64 → EReal) (W1 : Fin 64 → Fin 64 → EReal) (b1 : Fin 64 → EReal)
  (W2 : Fin 64 → Fin 64 → EReal) (b2 : Fin 64 → EReal)
  (kw1 : Fin 64 → Fin 64 → EReal) (kb1 : Fin 64 → EReal) (kw2 : Fin 64 → Fin 64 → EReal) (kb2 : Fin 64 → EReal)
  (kwoA kwoB : Fin 64 → Fin 3 → EReal) (kwo : Fin 128 → Fin 3 → EReal) (kbo : Fin 3 → EReal)

/-- The kernel's result is the reference's: real inputs to the two layers, every message added only at its own
    target, and the last matrix's two halves the rows 0..63 and 64..127 of the whole. -/
theorem outK_eq_outR (hd : ∀ e n, dhit e n → drow e = n) (hw : ∀ e, IsReal (w e)) (hdr : ∀ n, IsReal (d n))
    (hx : ∀ n k, IsReal (x n k)) (hW1 : ∀ k f, IsReal (W1 k f)) (hb1 : ∀ f, IsReal (b1 f))
    (hW2 : ∀ k f, IsReal (W2 k f))
    (hA : ∀ j o, kwoA j o = kwo ⟨j.val, by omega⟩ o) (hB : ∀ j o, kwoB j o = kwo ⟨64 + j.val, by omega⟩ o) :
    outK srow dhit w d bhit cnt one x W1 b1 W2 b2 kw1 kb1 kw2 kb2 kwoA kwoB kbo
      = outR srow drow dhit w d bhit cnt one x W1 b1 W2 b2 kw1 kb1 kw2 kb2 kwo kbo := by
  funext g o
  unfold outK outR
  rw [net2K_eq_net2R srow drow dhit w d hd hw hdr hx hW1 hb1 hW2 b2, poolK_eq_poolR,
    headK_eq_headR _ _ kwoA kwoB kwo kbo hA hB]

end Cert.Out

end
-- ==== Proof.Finite.lean ====
/-
  From the precondition to "every float entry is a real number".

  The precondition is a conjunction, over the twelve float arguments, of "every entry's absolute value is below
  +∞": each conjunct a reduction by "and", over all axes, of the entrywise comparison |x| < +∞, and the
  conjunction a chain of "and" on one-bit words.  A one-bit "and" that is 1 has both operands 1; a reduction by
  "and" over all axes that is 1 met a 1 at every entry; and an extended real whose absolute value max x (−x) lies
  below +∞ is neither infinity, so it is a real number.
-/
import proofs.«415102_j60859686584588_3_alg».proof.Defs
import proofs.«415102_j60859686584588_3_alg».proof.Proof.Gen.Pre_finite_inputs
import Idealize.ShloMosaic.Lib.ReduceAll
import Idealize.ShloMosaic.Lib.ValueIdx
import proofs.«415102_j60859686584588_3_alg».proof.Proof.Spec
import proofs.«415102_j60859686584588_3_alg».proof.Proof.LibGcnAlgebra

noncomputable section

namespace Cert.Finite

open Idealize.ShloMosaic Cert.Pre_finite_inputs

/-- The shape of rank zero has one index. -/
instance : Subsingleton S_.Idx := ⟨fun _ _ => funext fun d => d.elim0⟩

/-- The pattern of all-ones exponent and zero fraction denotes +∞. -/
theorem ofBits_inf : Ideal.ofBits .f32 0x7F800000#32 = (⊤ : EReal) := by simp [Ideal.ofBits, Ideal.ieee]

/-- An extended real whose absolute value compares below +∞ is a real number. -/
theorem isReal_of_lt_inf {v : EReal}
    (h : Ideal.cmp .olt (max v (-v)) (Ideal.ofBits .f32 0x7F800000#32) = 1#1) : Cert.Spec.IsReal v := by
  rw [ofBits_inf] at h
  have h' : BitVec.ofBool (decide (max v (-v) < ⊤)) = 1#1 := h
  have hlt : max v (-v) < ⊤ := by
    cases hd : decide (max v (-v) < ⊤) with
    | false => rw [hd] at h'; exact absurd h' (by decide)
    | true => exact of_decide_eq_true hd
  obtain ⟨r, hr⟩ := GcnAlgebra.isReal_of_abs_lt_top hlt
  exact ⟨r, hr⟩

/-- One conjunct: the reduction by "and" over all axes of |x| < +∞ is 1, so every entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu ValueIdx.ix0 = 1#1)
    (j : s.Idx) : Cert.Spec.IsReal (a j) := by
  have hj : cmpf .olt (Host.absf a) (broadcastInDim s ![] hb (constant (F := Ideal) S_ .f32 0x7F800000#32)) j = 1#1 :=
    Host.reduce_andi_all _ init hr hu ValueIdx.ix0 e j
  have hj' : Ideal.cmp .olt (max (a j) (-(a j))) (Ideal.ofBits .f32 0x7F800000#32) = 1#1 := hj
  exact isReal_of_lt_inf hj'

/-- The precondition gives every entry of the twelve float arguments as a real number. -/
theorem real_of_pre [Cert.Pre_finite_inputs.Facts]
    (a0 : FVec Ideal S50000x64 .f32) (a1 : IVec S2x800000 32) (a2 : FVec Ideal S800000 .f32) (a3 : IVec S50000 32)
    (a4 : FVec Ideal S64x64 .f32) (a5 : FVec Ideal S64 .f32) (a6 : FVec Ideal S64x64 .f32) (a7 : FVec Ideal S64 .f32)
    (a8 : FVec Ideal S64x64 .f32) (a9 : FVec Ideal S64 .f32) (a10 : FVec Ideal S64x64 .f32) (a11 : FVec Ideal S64 .f32)
    (a12 : FVec Ideal S128x3 .f32) (a13 : FVec Ideal S3 .f32)
    (h : Cert.Pre_finite_inputs.fn (F := Ideal) a0 a1 a2 a3 a4 a5 a6 a7 a8 a9 a10 a11 a12 a13 = (fun _ => 1#1)) :
    (∀ j, Cert.Spec.IsReal (a0 j)) ∧ (∀ j, Cert.Spec.IsReal (a2 j)) ∧ (∀ j, Cert.Spec.IsReal (a4 j))
      ∧ (∀ j, Cert.Spec.IsReal (a5 j)) ∧ (∀ j, Cert.Spec.IsReal (a6 j)) ∧ (∀ j, Cert.Spec.IsReal (a7 j))
      ∧ (∀ j, Cert.Spec.IsReal (a8 j)) ∧ (∀ j, Cert.Spec.IsReal (a9 j)) ∧ (∀ j, Cert.Spec.IsReal (a10 j))
      ∧ (∀ j, Cert.Spec.IsReal (a11 j)) ∧ (∀ j, Cert.Spec.IsReal (a12 j)) ∧ (∀ j, Cert.Spec.IsReal (a13 j)) := by
  have h0 := congrFun h ValueIdx.ix0
  dsimp only [fn, fn_part1, fn_part2, fn_part3, andi] at h0
  simp only [IntOp.andi_eq_one] at h0
  obtain ⟨⟨⟨⟨⟨⟨⟨⟨⟨⟨⟨e0, e2⟩, e4⟩, e5⟩, e6⟩, e7⟩, e8⟩, e9⟩, e10⟩, e11⟩, e12⟩, e13⟩ := h0
  exact ⟨real_of_all a0 _ _ _ _ e0, real_of_all a2 _ _ _ _ e2, real_of_all a4 _ _ _ _ e4,
    real_of_all a5 _ _ _ _ e5, real_of_all a6 _ _ _ _ e6, real_of_all a7 _ _ _ _ e7,
    real_of_all a8 _ _ _ _ e8, real_of_all a9 _ _ _ _ e9, real_of_all a10 _ _ _ _ e10,
    real_of_all a11 _ _ _ _ e11, real_of_all a12 _ _ _ _ e12, real_of_all a13 _ _ _ _ e13⟩

end Cert.Finite

end
-- ==== Proof.KI.Pay01.lean ====
/- The arithmetic the first two TensorCore bodies store, read entry by entry on the extended reals.
   First body: the tile of x times the weights, each row scaled by that row's entry of the one-column tile.
   Second body: the tile scaled row by row, plus the bias row, cut at zero, times the weights, each row scaled again.
   A format change is the identity on the extended reals and a product into a zero accumulator is the plain sum over
   the contracted axis, so each entry is a sum of 64 products times one factor. -/
import proofs.«415102_j60859686584588_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open scoped BigOperators
open Idealize.ShloMosaic Idealize.ShloMosaic.ValueIdx Cert.KernelIdeal Cert.KernelIdeal.Gen

/-! ## The product's operand indices, coordinate by coordinate -/

theorem lhs_dot_0 (j : S5000x64.Idx) (k : dot_S5000x64_S64x64_S5000x64_1_0_0_1_n_n.contr.Idx) :
    (dot_S5000x64_S64x64_S5000x64_1_0_0_1_n_n.lhsIdx j k 0 : ℕ) = j 0 := by
  simp [DotDims.lhsIdx, dot_S5000x64_S64x64_S5000x64_1_0_0_1_n_n]; rfl
theorem lhs_dot_1 (j : S5000x64.Idx) (k : dot_S5000x64_S64x64_S5000x64_1_0_0_1_n_n.contr.Idx) :
    (dot_S5000x64_S64x64_S5000x64_1_0_0_1_n_n.lhsIdx j k 1 : ℕ) = k ⟨0, by decide⟩ := by
  simp [DotDims.lhsIdx, dot_S5000x64_S64x64_S5000x64_1_0_0_1_n_n]; rfl
theorem rhs_dot_0 (j : S5000x64.Idx) (k : dot_S5000x64_S64x64_S5000x64_1_0_0_1_n_n.contr.Idx) :
    (dot_S5000x64_S64x64_S5000x64_1_0_0_1_n_n.rhsIdx j k 0 : ℕ) = k ⟨0, by decide⟩ := by
  simp [DotDims.rhsIdx, dot_S5000x64_S64x64_S5000x64_1_0_0_1_n_n]; rfl
theorem rhs_dot_1 (j : S5000x64.Idx) (k : dot_S5000x64_S64x64_S5000x64_1_0_0_1_n_n.contr.Idx) :
    (dot_S5000x64_S64x64_S5000x64_1_0_0_1_n_n.rhsIdx j k 1 : ℕ) = j 1 := by
  simp [DotDims.rhsIdx, dot_S5000x64_S64x64_S5000x64_1_0_0_1_n_n]; rfl

/-- The product of a 5000x64 tile with the 64x64 weights into the zero tile, at row p and column q: the sum over
    the 64 contracted positions. -/
theorem matmul_at {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  congr 2
  · apply Shape.idx_ext₂
    · exact lhs_dot_0 _ _
    · exact (lhs_dot_1 _ _).trans hk
  · apply Shape.idx_ext₂
    · exact (rhs_dot_0 _ _).trans hk
    · exact rhs_dot_1 _ _

/-! ## The two broadcasts -/

/-- A one-column tile spread over the 64 columns reads its row's entry. -/
theorem bcast_col_at {α : Type} (x : S5000x1.Idx → α) (p : Fin 5000) (q : Fin 64) :
    broadcastTo S5000x64 x broadcasts_S5000x1_S5000x64 (ix2 p q) = x (ix2 p 0) := by
  refine broadcastTo_apply x _ (ix2 p q) (ix2 p 0) fun a => ?_
  match a with
  | ⟨0, _⟩ => rfl
  | ⟨1, _⟩ => rfl

/-- A one-row tile spread over the 5000 rows reads its column's entry. -/
theorem bcast_row_at {α : Type} (x : S1x64.Idx → α) (p : Fin 5000) (q : Fin 64) :
    broadcastTo S5000x64 x broadcasts_S1x64_S5000x64 (ix2 p q) = x (ix2 0 q) := by
  refine broadcastTo_apply x _ (ix2 p q) (ix2 0 q) fun a => ?_
  match a with
  | ⟨0, _⟩ => rfl
  | ⟨1, _⟩ => rfl

/-! ## The two payloads at an entry -/

/-- The first body's stored tile at row p, column q. -/
theorem k0_pay1_at (x0 : Vec Ideal S5000x64 .f32) (x1 : Vec Ideal S64x64 .f32) (x2 : Vec Ideal S5000x1 .f32)
    (p : Fin 5000) (q : Fin 64) :
    (k0_pay1 (F := Ideal) x0 x1 x2) (ix2 p q) = (∑ k : Fin 64, x0 (ix2 p k) * x1 (ix2 k q)) * x2 (ix2 p 0) := by
  unfold k0_pay1
  refine (mulf_apply _ _ _).trans ?_
  refine congrArg₂ (· * ·) ?_ ?_
  · refine (matmul_at _ _ p q).trans ?_
    rfl
  · refine (bcast_col_at _ p q).trans ?_
    rw [shapeCast_self]

/-- The second body's stored tile at row p, column q. -/
theorem k1_pay1_at (a : Vec Ideal S5000x64 .f32) (d2 : Vec Ideal S5000x1 .f32) (b : Vec Ideal S1x64 .f32)
    (W : Vec Ideal S64x64 .f32) (d2' : Vec Ideal S5000x1 .f32) (p : Fin 5000) (q : Fin 64) :
    (k1_pay1 (F := Ideal) a d2 b W d2') (ix2 p q)
      = (∑ k : Fin 64, max (a (ix2 p k) * d2 (ix2 p 0) + b (ix2 0 k)) 0 * W (ix2 k q)) * d2' (ix2 p 0) := by
  unfold k1_pay1
  refine (mulf_apply _ _ _).trans ?_
  refine congrArg₂ (· * ·) ?_ ?_
  · refine (matmul_at _ _ p q).trans ?_
    refine Finset.sum_congr rfl fun k _ => ?_
    refine congrArg₂ (· * ·) ?_ rfl
    refine (maximumf_apply _ _ (ix2 p k)).trans ?_
    refine congrArg₂ max ?_ ?_
    · refine (addf_apply _ _ (ix2 p k)).trans ?_
      refine congrArg₂ (· + ·) ?_ ?_
      · refine (mulf_apply _ _ (ix2 p k)).trans ?_
        refine congrArg₂ (· * ·) ?_ ?_
        · rw [shapeCast_self]
        · refine (bcast_col_at _ p k).trans ?_
          rw [shapeCast_self]
      · refine (bcast_row_at _ p k).trans ?_
        rw [shapeCast_self]
    · show Ideal.ofBits .f32 0x00000000#32 = 0
      exact Ideal.ofBits_zero_f32
  · refine (bcast_col_at _ p q).trans ?_
    rw [shapeCast_self]

end Cert.KernelIdeal.Pay

end
-- ==== Proof.KI.Val01.lean ====
/- What the first two TensorCore regions leave in their result arrays, entry by entry.
   Each region walks ten row tiles of 5000 rows. At tile t the row-tiled windows hold rows 5000 t .. 5000 t + 4999 of
   their arrays and the other windows hold their whole arrays; the body's stored tile is a function of those rows
   alone, so the ten written tiles are the ten row blocks of ONE function of the whole arrays, and row i of the
   result is written by tile i / 5000. -/
import proofs.«415102_j60859686584588_3_alg».proof.Proof.KI.Reg0
import proofs.«415102_j60859686584588_3_alg».proof.Proof.KI.Reg1
import proofs.«415102_j60859686584588_3_alg».proof.Proof.KI.Pay01
import proofs.«415102_j60859686584588_3_alg».proof.Proof.Spec
import Idealize.ShloMosaic.Lib.Pipeline.Value
import Idealize.ShloMosaic.Lib.ValueIdx

set_option maxRecDepth 16384

noncomputable section

namespace Cert.KernelIdeal.Val

open scoped BigOperators
open Cert.KernelIdeal Cert.KernelIdeal.Gen Cert.KernelIdeal.Hand Cert.KernelIdeal.Pay
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b)) (c : Dev nD)

/-! # The arrays the two regions read, each at its own shape -/

/-- The node features. -/
abbrev arrX : Vec Ideal S50000x64 .f32 := V c main_arg0
/-- The first layer's weights. -/
abbrev arrW1 : Vec Ideal S64x64 .f32 := V c main_arg4
/-- The nodes' normalising factors, as one column. -/
abbrev arrDis : Vec Ideal S50000x1 .f32 := V c main_v18
/-- The first layer's summed messages. -/
abbrev arrAgg1 : Vec Ideal S50000x64 .f32 := V c main_v32
/-- The first layer's bias, as one row. -/
abbrev arrB1 : Vec Ideal S1x64 .f32 := V c main_v33
/-- The second layer's weights. -/
abbrev arrW2 : Vec Ideal S64x64 .f32 := V c main_arg6

/-! # Region 0 -/

/-- The whole result of region 0 as one function of the three arrays: row i of x times the weights, scaled by
    row i of the one-column array. -/
def G0 (x : Vec Ideal S50000x64 .f32) (W : Vec Ideal S64x64 .f32) (d : Vec Ideal S50000x1 .f32) : Vec Ideal S50000x64 .f32 :=
  fun i => (∑ k : Fin 64, x (ix2 (i 0) k) * W (ix2 k (i 1))) * d (ix2 (i 0) 0)

/-- The index maps over the grid: the row-tiled windows are at block row t, column block 0; the weights at block 0, 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The x tile at point t is rows 5000 t .. of x. -/
theorem iblk0_0_at (t : Fin cfg0.N) (y : S5000x64.Idx) (i : S50000x64.Idx)
    (h0 : (i 0).val = t.val * 5000 + (y 0).val) (h1 : (i 1).val = (y 1).val) :
    (iblk0 V c 0 t : Vec Ideal S5000x64 .f32) y = (V c main_arg0 : Vec Ideal S50000x64 .f32) i := by
  obtain ⟨e0, e1, -⟩ := idx_facts0 t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The weights window holds the whole weights at every point. -/
theorem iblk0_1_at (t : Fin cfg0.N) (y : S64x64.Idx) :
    (iblk0 V c 1 t : Vec Ideal S64x64 .f32) y = (V c main_arg4 : Vec Ideal S64x64 .f32) y := by
  obtain ⟨-, -, e2, e3, -⟩ := idx_facts0 t
  unfold iblk0
  rw [View.read_apply]
  show V c main_arg4 _ = V c main_arg4 _
  refine congrArg (V c main_arg4) ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The scale tile at point t is rows 5000 t .. of the one-column array. -/
theorem iblk0_2_at (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c main_v18 : Vec Ideal S50000x1 .f32) i := by
  obtain ⟨-, -, -, -, e4, e5, -⟩ := idx_facts0 t
  unfold iblk0
  rw [View.read_apply]
  show V c main_v18 _ = V c main_v18 _
  refine congrArg (V c main_v18) ?_
  funext a; apply Fin.ext
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- One tile: if the three tiles are rows 5000 r .. of x, the whole weights, and rows 5000 r .. of the one-column
    array, the stored tile at row p is the whole result at row 5000 r + p. -/
theorem point0 (x : Vec Ideal S50000x64 .f32) (W : Vec Ideal S64x64 .f32) (d : Vec Ideal S50000x1 .f32)
    (b0 : Vec Ideal S5000x64 .f32) (b1 : Vec Ideal S64x64 .f32) (b2 : Vec Ideal S5000x1 .f32) (r : ℕ)
    (h0 : ∀ (y : S5000x64.Idx) (i : S50000x64.Idx), (i 0).val = r * 5000 + (y 0).val → (i 1).val = (y 1).val → b0 y = x i)
    (h1 : ∀ y : S64x64.Idx, b1 y = W y)
    (h2 : ∀ (y : S5000x1.Idx) (i : S50000x1.Idx), (i 0).val = r * 5000 + (y 0).val → (i 1).val = (y 1).val → b2 y = d i)
    (j : S5000x64.Idx) (i : S50000x64.Idx) (hi0 : (i 0).val = r * 5000 + (j 0).val) (hi1 : (i 1).val = (j 1).val) :
    k0_pay1 (F := Ideal) b0 b1 b2 j = G0 x W d i := by
  obtain ⟨p, q, rfl⟩ : ∃ (p : Fin 5000) (q : Fin 64), j = ix2 p q := ⟨j 0, j 1, eq_ix2 j⟩
  rw [k0_pay1_at]
  unfold G0
  have hq : i 1 = q := Fin.ext hi1
  rw [hq]
  refine congrArg₂ (· * ·) (Finset.sum_congr rfl fun k _ => ?_) ?_
  · rw [h0 (ix2 p k) (ix2 (i 0) k) hi0 rfl, h1]
  · exact h2 (ix2 p 0) (ix2 (i 0) 0) hi0 rfl

/-- What point t writes back is row block t of the whole result. -/
theorem flushed0_eq (t : Fin cfg0.N) :
    (dat0 V c).flushed 3 t = ((cfg0.win 3).blk t).view.read (Elt Ideal) (G0 (V c main_arg0) (V c main_arg4) (V c main_v18)) := by
  show (cfg0.win 3).cut (grid0.coords t) ((dat0 V c).after 3 t) = _
  rw [after0_3, out0_3_eq]
  obtain ⟨-, -, -, -, -, -, e6, e7⟩ := idx_facts0 t
  funext j
  rw [View.read_apply]
  refine point0 (V c main_arg0) (V c main_arg4) (V c main_v18) (iblk0 V c 0 t) (iblk0 V c 1 t) (iblk0 V c 2 t) t.val
    (iblk0_0_at V c t) (iblk0_1_at V c t) (iblk0_2_at V c t) j (((cfg0.win 3).blk t).view.emb j) ?_ ?_
  · show win0_3.index t (0 : Fin 2) * 5000 + 1 * (j 0).val = t.val * 5000 + (j 0).val; omega
  · show win0_3.index t (1 : Fin 2) * 64 + 1 * (j 1).val = (j 1).val; omega

/-- An index of the result array is in point t's block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v19).slice (win0_3.rect t)).set ↔ _
  rw [View.set_slice_whole, Rect.mem_set_unit]
  exact Iff.rfl

/-- Row i of the result is in the block of point i / 5000. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  have hlt : (i 0).val / 5000 < cfg0.N := Nat.lt_of_lt_of_eq (by omega) hN.symm
  refine ⟨⟨(i 0).val / 5000, hlt⟩, flush0_3 _, ?_⟩
  rw [mem_blk0]
  obtain ⟨-, -, -, -, -, -, e6, e7⟩ := idx_facts0 ⟨(i 0).val / 5000, hlt⟩
  have e6' : win0_3.index ⟨(i 0).val / 5000, hlt⟩ (0 : Fin 2) = (i 0).val / 5000 := e6
  intro a
  match a with
  | ⟨0, _⟩ => show win0_3.index ⟨(i 0).val / 5000, hlt⟩ (0 : Fin 2) * 5000 ≤ (i 0).val ∧ (i 0).val < win0_3.index ⟨(i 0).val / 5000, hlt⟩ (0 : Fin 2) * 5000 + 5000; omega
  | ⟨1, _⟩ => show win0_3.index ⟨(i 0).val / 5000, hlt⟩ (1 : Fin 2) * 64 ≤ (i 1).val ∧ (i 1).val < win0_3.index ⟨(i 0).val / 5000, hlt⟩ (1 : Fin 2) * 64 + 64; omega

/-- The result array of region 0 after the region. -/
theorem arr0_eq : (dat0 V c).arrAt 3 cfg0.N = G0 (V c main_arg0) (V c main_arg4) (V c main_v18) :=
  (dat0 V c).arrAt_eq_of_cover 3 (G0 (V c main_arg0) (V c main_arg4) (V c main_v18)) (fun t _ => flushed0_eq V c t) (cover0)

/-- Entry (i, f) of region 0's result: row i of x times the weights, scaled by the i-th factor. -/
theorem arr0_val (i : Fin 50000) (f : Fin 64) :
    ((dat0 V c).arrAt 3 cfg0.N : Vec Ideal S50000x64 .f32) (ix2 i f)
      = Cert.Spec.tabK (fun n => (V c main_v18 : Vec Ideal S50000x1 .f32) (ix2 n 0))
          (fun n k => (V c main_arg0 : Vec Ideal S50000x64 .f32) (ix2 n k))
          (fun k q => (V c main_arg4 : Vec Ideal S64x64 .f32) (ix2 k q)) i f := by
  rw [arr0_eq]
  rfl

/-- The same entry, the arrays named at their shapes. -/
theorem arr0_val' (i : Fin 50000) (f : Fin 64) :
    ((dat0 V c).arrAt 3 cfg0.N : Vec Ideal S50000x64 .f32) (ix2 i f)
      = Cert.Spec.tabK (fun n => arrDis V c (ix2 n 0)) (fun n k => arrX V c (ix2 n k)) (fun k q => arrW1 V c (ix2 k q)) i f :=
  arr0_val V c i f

/-! # Region 1 -/

/-- The whole result of region 1 as one function of the four arrays: row i of the table scaled by the i-th factor,
    plus the bias row, cut at zero, times the weights, scaled by the i-th factor again. -/
def G1 (a : Vec Ideal S50000x64 .f32) (d : Vec Ideal S50000x1 .f32) (b : Vec Ideal S1x64 .f32) (W : Vec Ideal S64x64 .f32) :
    Vec Ideal S50000x64 .f32 :=
  fun i => (∑ k : Fin 64, max (a (ix2 (i 0) k) * d (ix2 (i 0) 0) + b (ix2 0 k)) 0 * W (ix2 k (i 1))) * d (ix2 (i 0) 0)

/-- The index maps over the grid: the row-tiled windows are at block row t, column block 0; the bias row and the
    weights at block 0, 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The table's tile at point t is rows 5000 t .. of the table. -/
theorem iblk1_0_at (t : Fin cfg1.N) (y : S5000x64.Idx) (i : S50000x64.Idx)
    (h0 : (i 0).val = t.val * 5000 + (y 0).val) (h1 : (i 1).val = (y 1).val) :
    (iblk1 V c 0 t : Vec Ideal S5000x64 .f32) y = (V c main_v32 : Vec Ideal S50000x64 .f32) i := by
  obtain ⟨e0, e1, -⟩ := idx_facts1 t
  unfold iblk1
  rw [View.read_apply]
  show V c main_v32 _ = V c main_v32 _
  refine congrArg (V c main_v32) ?_
  funext a; apply Fin.ext
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The scale tile at point t is rows 5000 t .. of the one-column array. -/
theorem iblk1_1_at (t : Fin cfg1.N) (y : S5000x1.Idx) (i : S50000x1.Idx)
    (h0 : (i 0).val = t.val * 5000 + (y 0).val) (h1 : (i 1).val = (y 1).val) :
    (iblk1 V c 1 t : Vec Ideal S5000x1 .f32) y = (V c main_v18 : Vec Ideal S50000x1 .f32) i := by
  obtain ⟨-, -, e2, e3, -⟩ := idx_facts1 t
  unfold iblk1
  rw [View.read_apply]
  show V c main_v18 _ = V c main_v18 _
  refine congrArg (V c main_v18) ?_
  funext a; apply Fin.ext
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias window holds the whole bias row at every point. -/
theorem iblk1_2_at (t : Fin cfg1.N) (y : S1x64.Idx) :
    (iblk1 V c 2 t : Vec Ideal S1x64 .f32) y = (V c main_v33 : Vec Ideal S1x64 .f32) y := by
  obtain ⟨-, -, -, -, e4, e5, -⟩ := idx_facts1 t
  unfold iblk1
  rw [View.read_apply]
  show V c main_v33 _ = V c main_v33 _
  refine congrArg (V c main_v33) ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The weights window holds the whole weights at every point. -/
theorem iblk1_3_at (t : Fin cfg1.N) (y : S64x64.Idx) :
    (iblk1 V c 3 t : Vec Ideal S64x64 .f32) y = (V c main_arg6 : Vec Ideal S64x64 .f32) y := by
  obtain ⟨-, -, -, -, -, -, e6, e7, -⟩ := idx_facts1 t
  unfold iblk1
  rw [View.read_apply]
  show V c main_arg6 _ = V c main_arg6 _
  refine congrArg (V c main_arg6) ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- One tile: if the tiles are rows 5000 r .. of the table and of the one-column array, the whole bias row and the
    whole weights, the stored tile at row p is the whole result at row 5000 r + p. -/
theorem point1 (a : Vec Ideal S50000x64 .f32) (d : Vec Ideal S50000x1 .f32) (b : Vec Ideal S1x64 .f32) (W : Vec Ideal S64x64 .f32)
    (b0 : Vec Ideal S5000x64 .f32) (b1 : Vec Ideal S5000x1 .f32) (b2 : Vec Ideal S1x64 .f32) (b3 : Vec Ideal S64x64 .f32) (r : ℕ)
    (h0 : ∀ (y : S5000x64.Idx) (i : S50000x64.Idx), (i 0).val = r * 5000 + (y 0).val → (i 1).val = (y 1).val → b0 y = a i)
    (h1 : ∀ (y : S5000x1.Idx) (i : S50000x1.Idx), (i 0).val = r * 5000 + (y 0).val → (i 1).val = (y 1).val → b1 y = d i)
    (h2 : ∀ y : S1x64.Idx, b2 y = b y)
    (h3 : ∀ y : S64x64.Idx, b3 y = W y)
    (j : S5000x64.Idx) (i : S50000x64.Idx) (hi0 : (i 0).val = r * 5000 + (j 0).val) (hi1 : (i 1).val = (j 1).val) :
    k1_pay1 (F := Ideal) b0 b1 b2 b3 b1 j = G1 a d b W i := by
  obtain ⟨p, q, rfl⟩ : ∃ (p : Fin 5000) (q : Fin 64), j = ix2 p q := ⟨j 0, j 1, eq_ix2 j⟩
  rw [k1_pay1_at]
  unfold G1
  have hq : i 1 = q := Fin.ext hi1
  rw [hq]
  have hd : b1 (ix2 p 0) = d (ix2 (i 0) 0) := h1 (ix2 p 0) (ix2 (i 0) 0) hi0 rfl
  rw [hd]
  refine congrArg₂ (· * ·) (Finset.sum_congr rfl fun k _ => ?_) rfl
  rw [h0 (ix2 p k) (ix2 (i 0) k) hi0 rfl, h2, h3]

/-- What point t writes back is row block t of the whole result. -/
theorem flushed1_eq (t : Fin cfg1.N) :
    (dat1 V c).flushed 4 t = ((cfg1.win 4).blk t).view.read (Elt Ideal) (G1 (V c main_v32) (V c main_v18) (V c main_v33) (V c main_arg6)) := by
  show (cfg1.win 4).cut (grid1.coords t) ((dat1 V c).after 4 t) = _
  rw [after1_4, out1_4_eq]
  obtain ⟨-, -, -, -, -, -, -, -, e8, e9⟩ := idx_facts1 t
  funext j
  rw [View.read_apply]
  refine point1 (V c main_v32) (V c main_v18) (V c main_v33) (V c main_arg6)
    (iblk1 V c 0 t) (iblk1 V c 1 t) (iblk1 V c 2 t) (iblk1 V c 3 t) t.val
    (iblk1_0_at V c t) (iblk1_1_at V c t) (iblk1_2_at V c t) (iblk1_3_at V c t) j (((cfg1.win 4).blk t).view.emb j) ?_ ?_
  · show win1_4.index t (0 : Fin 2) * 5000 + 1 * (j 0).val = t.val * 5000 + (j 0).val; omega
  · show win1_4.index t (1 : Fin 2) * 64 + 1 * (j 1).val = (j 1).val; omega

/-- An index of the result array is in point t's block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v34).slice (win1_4.rect t)).set ↔ _
  rw [View.set_slice_whole, Rect.mem_set_unit]
  exact Iff.rfl

/-- Row i of the result is in the block of point i / 5000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  have hlt : (i 0).val / 5000 < cfg1.N := Nat.lt_of_lt_of_eq (by omega) hN.symm
  refine ⟨⟨(i 0).val / 5000, hlt⟩, flush1_4 _, ?_⟩
  rw [mem_blk1]
  obtain ⟨-, -, -, -, -, -, -, -, e8, e9⟩ := idx_facts1 ⟨(i 0).val / 5000, hlt⟩
  have e8' : win1_4.index ⟨(i 0).val / 5000, hlt⟩ (0 : Fin 2) = (i 0).val / 5000 := e8
  intro a
  match a with
  | ⟨0, _⟩ => show win1_4.index ⟨(i 0).val / 5000, hlt⟩ (0 : Fin 2) * 5000 ≤ (i 0).val ∧ (i 0).val < win1_4.index ⟨(i 0).val / 5000, hlt⟩ (0 : Fin 2) * 5000 + 5000; omega
  | ⟨1, _⟩ => show win1_4.index ⟨(i 0).val / 5000, hlt⟩ (1 : Fin 2) * 64 ≤ (i 1).val ∧ (i 1).val < win1_4.index ⟨(i 0).val / 5000, hlt⟩ (1 : Fin 2) * 64 + 64; omega

/-- The result array of region 1 after the region. -/
theorem arr1_eq : (dat1 V c).arrAt 4 cfg1.N = G1 (V c main_v32) (V c main_v18) (V c main_v33) (V c main_arg6) :=
  (dat1 V c).arrAt_eq_of_cover 4 (G1 (V c main_v32) (V c main_v18) (V c main_v33) (V c main_arg6)) (fun t _ => flushed1_eq V c t) (cover1)

/-- Entry (i, f) of region 1's result: row i of the table scaled, biased and cut at zero, times the weights, scaled
    by the i-th factor. -/
theorem arr1_val (i : Fin 50000) (f : Fin 64) :
    ((dat1 V c).arrAt 4 cfg1.N : Vec Ideal S50000x64 .f32) (ix2 i f)
      = Cert.Spec.tabK (fun n => arrDis V c (ix2 n 0))
          (Cert.Spec.relu (fun n k => arrAgg1 V c (ix2 n k) * arrDis V c (ix2 n 0) + arrB1 V c (ix2 0 k)))
          (fun k q => arrW2 V c (ix2 k q)) i f := by
  rw [arr1_eq]
  rfl

end Cert.KernelIdeal.Val

end
-- ==== Proof.KI.Pay2.lean ====
/-
  The pooling and head kernel's arithmetic read at an index, over plain vectors of the literal shapes.

  One tile adds to the pooled sum at (g, f) the sum, over the tile's 5000 rows, of the row's 0/1 membership in graph g
  times the row's entry at f scaled by the node's factor and shifted by the bias: the membership matrix is a product
  contracted over the rows of both operands, and its entries come from comparing the row's graph number, a 32-bit word,
  with the lane number.  The head takes the pooled sums to means, the means through the two branches, and the branches
  against the two halves of the last matrix.
-/
import proofs.«415102_j60859686584588_3_alg».proof.Proof.Gen.KernelIdeal.Skeleton
import proofs.«415102_j60859686584588_3_alg».proof.Proof.Spec
import proofs.«415102_j60859686584588_3_alg».proof.Proof.Out
import Idealize.ShloMosaic.Lib.ValueIdx
import Idealize.ShloMosaic.Lib.Pipeline.Value
import Idealize.ShloMosaic.PureOps.Ideal.Laws

noncomputable section

namespace Cert.KernelIdeal.Val

open scoped BigOperators
open Idealize.ShloMosaic Idealize.ShloMosaic.ValueIdx Cert.KernelIdeal Cert.KernelIdeal.Gen

/-- The reset value of the pooled sums is zero everywhere. -/
theorem pay1_apply (g f : Fin 64) : (k2_pay1 (F := Ideal)) (ix2 g f) = 0 := by
  unfold k2_pay1
  rw [shapeCast_self]
  exact Ideal.ofBits_zero_f32

/-! ## The pooling product: contraction over the rows of both operands -/

theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q

theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl

theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q

theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The pooling product into a zero accumulator at `(g, f)`: the sum over the tile's rows of the left operand at
    `(r, g)` times the right operand at `(r, f)`. -/
theorem matmul_pool_apply {φ₁ φ₂ : FTy} (prec : Option ContractPrecision) (l : FVec Ideal S5000x64 φ₁) (r : FVec Ideal S5000x64 φ₂) (g f : Fin 64) :
    FloatOps.matmul dot_S5000x64_S5000x64_S64x64_0_0_1_1_n_n prec l r (constant S64x64 .f32 0x00000000#32) (ix2 g f)
      = ∑ k : Fin 5000, l (ix2 k g) * r (ix2 k f) := by
  rw [Ideal.matmul_constant_zero_apply, ← Equiv.sum_comp (ValueIdx.contrEquiv1 dot_S5000x64_S5000x64_S64x64_0_0_1_1_n_n 5000 rfl rfl).symm]
  refine Finset.sum_congr rfl fun k _ => ?_
  have hk := ValueIdx.contrEquiv1_symm_val dot_S5000x64_S5000x64_S64x64_0_0_1_1_n_n 5000 rfl rfl k
  have el : dot_S5000x64_S5000x64_S64x64_0_0_1_1_n_n.lhsIdx (ix2 g f) ((ValueIdx.contrEquiv1 dot_S5000x64_S5000x64_S64x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g f) ((ValueIdx.contrEquiv1 dot_S5000x64_S5000x64_S64x64_0_0_1_1_n_n 5000 rfl rfl).symm k) = ix2 k f := funext fun a => Fin.ext (by
    match a with
    | ⟨0, _⟩ => exact (rhs_pool_0 _ _).trans hk
    | ⟨1, _⟩ => exact rhs_pool_1 _ _)
  rw [el, er]

/-! ## The membership factor: a 32-bit word against a lane number -/

/-- A 32-bit word equals the lane number `g < 64` exactly when its signed value is `g`. -/
theorem word_eq_lane_iff (w : BitVec 32) (g : Fin 64) : w = BitVec.ofNat 32 g.val ↔ w.toInt = (g.val : ℤ) := by
  have hg := g.isLt
  have hw := w.isLt
  constructor
  · rintro rfl
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

/-- The comparison bit, widened and read as a signed integer, is the 0/1 membership factor. -/
theorem onehot_word (w : BitVec 32) (g : Fin 64) :
    (FloatOps.sitofp (F := Ideal) .f32 ((IntOp.cmpi .eq w (BitVec.ofNat 32 g.val)).setWidth 32) : EReal)
      = if w.toInt = (g.val : ℤ) then (1 : EReal) else 0 := by
  show ((((IntOp.cmpi .eq w (BitVec.ofNat 32 g.val)).setWidth 32).toInt : ℝ) : EReal) = _
  by_cases h : w = BitVec.ofNat 32 g.val
  · rw [if_pos ((word_eq_lane_iff w g).mp h)]
    have e : IntOp.cmpi .eq w (BitVec.ofNat 32 g.val) = 1#1 := by simp [IntOp.cmpi, h]
    rw [e]
    have e1 : ((1#1 : BitVec 1).setWidth 32).toInt = 1 := by decide
    rw [e1]; norm_num
  · rw [if_neg (fun h' => h ((word_eq_lane_iff w g).mpr h'))]
    have hb : (w == BitVec.ofNat 32 g.val) = false := beq_eq_false_iff_ne.mpr h
    have e : IntOp.cmpi .eq w (BitVec.ofNat 32 g.val) = 0#1 := by simp [IntOp.cmpi, hb]
    rw [e]
    have e0 : ((0#1 : BitVec 1).setWidth 32).toInt = 0 := by decide
    rw [e0]; norm_num

/-! ## Columns and rows spread over a tile -/

/-- A column spread along the lanes reads its row. -/
theorem bcast_col_tile_apply {α : Type} (x : S5000x1.Idx → α) (h : S5000x1.Broadcasts S5000x64) (r : Fin 5000) (f : Fin 64) :
    broadcastTo S5000x64 x h (ix2 r f) = x (ix2 r 0) :=
  broadcastTo_apply x h (ix2 r f) (ix2 r 0) (fun a => by match a with | ⟨0, _⟩ => rfl | ⟨1, _⟩ => rfl)

/-- A row spread down the rows reads its lane. -/
theorem bcast_row_tile_apply {α : Type} (x : S1x64.Idx → α) (h : S1x64.Broadcasts S5000x64) (r : Fin 5000) (f : Fin 64) :
    broadcastTo S5000x64 x h (ix2 r f) = x (ix2 0 f) :=
  broadcastTo_apply x h (ix2 r f) (ix2 0 f) (fun a => by match a with | ⟨0, _⟩ => rfl | ⟨1, _⟩ => rfl)

/-- The lane numbers of a tile. -/
theorem iota_lane_apply (h : S5000x64.Iotas .tc 32 [1]) (r : Fin 5000) (f : Fin 64) :
    iota .tc S5000x64 32 [1] h (ix2 r f) = BitVec.ofNat 32 f.val :=
  iota_single_apply .tc S5000x64 32 1 h (ix2 r f)

/-! ## One tile's contribution to the pooled sums -/

/-- After a tile the pooled sum at `(g, f)` is what it was plus, over the tile's rows, the membership factor of the
    row in graph `g` times the row's scaled and shifted entry at `f`. -/
theorem pay2_apply (a : Vec Ideal S5000x64 .f32) (d2 : Vec Ideal S5000x1 .f32) (b : Vec Ideal S1x64 .f32)
    (bt : Vec Ideal S5000x1 .i32) (s : Vec Ideal S64x64 .f32) (g f : Fin 64) :
    (k2_pay2 (F := Ideal) a d2 b bt s) (ix2 g f)
      = s (ix2 g f) + ∑ r : Fin 5000, (if (bt (ix2 r 0)).toInt = (g.val : ℤ) then (1 : EReal) else 0)
          * (a (ix2 r f) * d2 (ix2 r 0) + b (ix2 0 f)) := by
  unfold k2_pay2
  simp only [shapeCast_self]
  rw [addf_apply]
  refine congrArg (s (ix2 g f) + ·) ?_
  refine (matmul_pool_apply _ _ _ g f).trans ?_
  refine Finset.sum_congr rfl fun r _ => ?_
  rw [sitofp_apply, extui_apply, addf_apply, mulf_apply, bcast_col_tile_apply, bcast_row_tile_apply]
  refine congrArg (· * _) ?_
  show FloatOps.sitofp (F := Ideal) .f32 ((IntOp.cmpi .eq (broadcastTo S5000x64 bt _ (ix2 r g)) (iota .tc S5000x64 32 [1] _ (ix2 r g))).setWidth 32) = _
  rw [bcast_col_tile_apply, iota_lane_apply]
  exact onehot_word _ g

/-! ## The head's products: a row of the left operand against a column of the right -/

theorem lhs_sq_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl

theorem lhs_sq_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q

theorem rhs_sq_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q

theorem rhs_sq_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- A square product into a zero accumulator at `(g, j)`: the sum over `k` of the left operand at `(g, k)` times the right at `(k, j)`. -/
theorem matmul_sq_apply {φ₁ φ₂ : FTy} (prec : Option ContractPrecision) (l : FVec Ideal S64x64 φ₁) (r : FVec Ideal S64x64 φ₂) (g : Fin 64) (j : Fin 64) :
    FloatOps.matmul dot_S64x64_S64x64_S64x64_1_0_0_1_n_n prec l r (constant S64x64 .f32 0x00000000#32) (ix2 g j)
      = ∑ k : Fin 64, l (ix2 g k) * r (ix2 k j) := by
  rw [Ideal.matmul_constant_zero_apply, ← Equiv.sum_comp (ValueIdx.contrEquiv1 dot_S64x64_S64x64_S64x64_1_0_0_1_n_n 64 rfl rfl).symm]
  refine Finset.sum_congr rfl fun k _ => ?_
  have hk := ValueIdx.contrEquiv1_symm_val dot_S64x64_S64x64_S64x64_1_0_0_1_n_n 64 rfl rfl k
  have el : dot_S64x64_S64x64_S64x64_1_0_0_1_n_n.lhsIdx (ix2 g j) ((ValueIdx.contrEquiv1 dot_S64x64_S64x64_S64x64_1_0_0_1_n_n 64 rfl rfl).symm k) = ix2 g k := funext fun a => Fin.ext (by
    match a with
    | ⟨0, _⟩ => exact lhs_sq_0 _ _
    | ⟨1, _⟩ => exact (lhs_sq_1 _ _).trans hk)
  have er : dot_S64x64_S64x64_S64x64_1_0_0_1_n_n.rhsIdx (ix2 g j) ((ValueIdx.contrEquiv1 dot_S64x64_S64x64_S64x64_1_0_0_1_n_n 64 rfl rfl).symm k) = ix2 k j := funext fun a => Fin.ext (by
    match a with
    | ⟨0, _⟩ => exact (rhs_sq_0 _ _).trans hk
    | ⟨1, _⟩ => exact rhs_sq_1 _ _)
  rw [el, er]

theorem lhs_out_0 (i : S64x3.Idx) (q : dot_S64x64_S64x3_S64x3_1_0_0_1_n_n.contr.Idx) :
    (dot_S64x64_S64x3_S64x3_1_0_0_1_n_n.lhsIdx i q 0).val = (i 0).val := by
  unfold DotDims.lhsIdx
  rw [dif_neg (show ¬(0 : Fin S64x64.rank) ∈ dot_S64x64_S64x3_S64x3_1_0_0_1_n_n.lhsBatch by decide), dif_pos (show (0 : Fin S64x64.rank) ∈ dot_S64x64_S64x3_S64x3_1_0_0_1_n_n.lhsNonContracting by decide)]
  rfl

theorem lhs_out_1 (i : S64x3.Idx) (q : dot_S64x64_S64x3_S64x3_1_0_0_1_n_n.contr.Idx) :
    (dot_S64x64_S64x3_S64x3_1_0_0_1_n_n.lhsIdx i q 1).val = (q ⟨0, by decide⟩).val :=
  dot_S64x64_S64x3_S64x3_1_0_0_1_n_n.lhsIdx_val_of_single rfl i q

theorem rhs_out_0 (i : S64x3.Idx) (q : dot_S64x64_S64x3_S64x3_1_0_0_1_n_n.contr.Idx) :
    (dot_S64x64_S64x3_S64x3_1_0_0_1_n_n.rhsIdx i q 0).val = (q ⟨0, by decide⟩).val :=
  dot_S64x64_S64x3_S64x3_1_0_0_1_n_n.rhsIdx_val_of_single rfl i q

theorem rhs_out_1 (i : S64x3.Idx) (q : dot_S64x64_S64x3_S64x3_1_0_0_1_n_n.contr.Idx) :
    (dot_S64x64_S64x3_S64x3_1_0_0_1_n_n.rhsIdx i q 1).val = (i 1).val := by
  unfold DotDims.rhsIdx
  rw [dif_neg (show ¬(1 : Fin S64x3.rank) ∈ dot_S64x64_S64x3_S64x3_1_0_0_1_n_n.rhsBatch by decide), dif_pos (show (1 : Fin S64x3.rank) ∈ dot_S64x64_S64x3_S64x3_1_0_0_1_n_n.rhsNonContracting by decide)]
  rfl

/-- The output product into a zero accumulator at `(g, o)`: the sum over `k` of the left operand at `(g, k)` times the right at `(k, o)`. -/
theorem matmul_out_apply {φ₁ φ₂ : FTy} (prec : Option ContractPrecision) (l : FVec Ideal S64x64 φ₁) (r : FVec Ideal S64x3 φ₂) (g : Fin 64) (j : Fin 3) :
    FloatOps.matmul dot_S64x64_S64x3_S64x3_1_0_0_1_n_n prec l r (constant S64x3 .f32 0x00000000#32) (ix2 g j)
      = ∑ k : Fin 64, l (ix2 g k) * r (ix2 k j) := by
  rw [Ideal.matmul_constant_zero_apply, ← Equiv.sum_comp (ValueIdx.contrEquiv1 dot_S64x64_S64x3_S64x3_1_0_0_1_n_n 64 rfl rfl).symm]
  refine Finset.sum_congr rfl fun k _ => ?_
  have hk := ValueIdx.contrEquiv1_symm_val dot_S64x64_S64x3_S64x3_1_0_0_1_n_n 64 rfl rfl k
  have el : dot_S64x64_S64x3_S64x3_1_0_0_1_n_n.lhsIdx (ix2 g j) ((ValueIdx.contrEquiv1 dot_S64x64_S64x3_S64x3_1_0_0_1_n_n 64 rfl rfl).symm k) = ix2 g k := funext fun a => Fin.ext (by
    match a with
    | ⟨0, _⟩ => exact lhs_out_0 _ _
    | ⟨1, _⟩ => exact (lhs_out_1 _ _).trans hk)
  have er : dot_S64x64_S64x3_S64x3_1_0_0_1_n_n.rhsIdx (ix2 g j) ((ValueIdx.contrEquiv1 dot_S64x64_S64x3_S64x3_1_0_0_1_n_n 64 rfl rfl).symm k) = ix2 k j := funext fun a => Fin.ext (by
    match a with
    | ⟨0, _⟩ => exact (rhs_out_0 _ _).trans hk
    | ⟨1, _⟩ => exact rhs_out_1 _ _)
  rw [el, er]

/-! ## Columns and rows spread over the head's matrices -/

/-- A column spread along a square matrix's lanes reads its row. -/
theorem bcast_col_sq_apply {α : Type} (x : S64x1.Idx → α) (h : S64x1.Broadcasts S64x64) (g k : Fin 64) :
    broadcastTo S64x64 x h (ix2 g k) = x (ix2 g 0) :=
  broadcastTo_apply x h (ix2 g k) (ix2 g 0) (fun a => by match a with | ⟨0, _⟩ => rfl | ⟨1, _⟩ => rfl)

/-- A row spread down a square matrix's rows reads its lane. -/
theorem bcast_row_sq_apply {α : Type} (x : S1x64.Idx → α) (h : S1x64.Broadcasts S64x64) (g j : Fin 64) :
    broadcastTo S64x64 x h (ix2 g j) = x (ix2 0 j) :=
  broadcastTo_apply x h (ix2 g j) (ix2 0 j) (fun a => by match a with | ⟨0, _⟩ => rfl | ⟨1, _⟩ => rfl)

/-- A row of three spread down the output's rows reads its lane. -/
theorem bcast_row_out_apply {α : Type} (x : S1x3.Idx → α) (h : S1x3.Broadcasts S64x3) (g : Fin 64) (o : Fin 3) :
    broadcastTo S64x3 x h (ix2 g o) = x (ix2 0 o) :=
  broadcastTo_apply x h (ix2 g o) (ix2 0 o) (fun a => by match a with | ⟨0, _⟩ => rfl | ⟨1, _⟩ => rfl)

/-! ## The head at an index -/

/-- What the last point stores at `(g, o)`: the mean of the pooled sums over the larger of the node count and one,
    through the two branches, against the two halves of the last matrix, plus the last bias. -/
theorem head_apply (cnt : Vec Ideal S64x1 .f32) (s kw1 kw2 : Vec Ideal S64x64 .f32) (kb1 kb2 : Vec Ideal S1x64 .f32)
    (kwoA kwoB : Vec Ideal S64x3 .f32) (kbo : Vec Ideal S1x3 .f32) (g : Fin 64) (o : Fin 3) :
    (k2_pay3 (F := Ideal) (k2_pay4 cnt s kw1 kw2 kb1 kb2 kwoA kwoB) kbo) (ix2 g o)
      = Cert.Spec.headK
          (Cert.Spec.branch (Cert.Out.meanOf (fun g => cnt (ix2 g 0)) (Ideal.ofBits .f32 0x3F800000#32) (fun g k => s (ix2 g k)))
            (fun k j => kw1 (ix2 k j)) (fun j => kb1 (ix2 0 j)))
          (Cert.Spec.branch (Cert.Out.meanOf (fun g => cnt (ix2 g 0)) (Ideal.ofBits .f32 0x3F800000#32) (fun g k => s (ix2 g k)))
            (fun k j => kw2 (ix2 k j)) (fun j => kb2 (ix2 0 j)))
          (fun j o => kwoA (ix2 j o)) (fun j o => kwoB (ix2 j o)) (fun o => kbo (ix2 0 o)) g o := by
  unfold k2_pay3 k2_pay4
  simp only [shapeCast_self, matmul]
  rw [addf_apply, bcast_row_out_apply, addf_apply, matmul_out_apply, matmul_out_apply]
  unfold Cert.Spec.headK
  refine congrArg (· + kbo (ix2 0 o)) ?_
  refine congrArg₂ (· + ·) (Finset.sum_congr rfl fun j _ => ?_) (Finset.sum_congr rfl fun j _ => ?_)
  · rw [truncf_apply, truncf_apply, maximumf_apply, addf_apply, matmul_sq_apply, bcast_row_sq_apply, broadcast_apply]
    unfold Cert.Spec.branch Cert.Out.meanOf
    refine congrArg (· * kwoA (ix2 j o)) ?_
    refine congrArg₂ max (congrArg (· + kb1 (ix2 0 j)) (Finset.sum_congr rfl fun k _ => ?_)) Ideal.ofBits_zero_f32
    rw [truncf_apply, truncf_apply, divf_apply, bcast_col_sq_apply, maximumf_apply, broadcast_apply]
    rfl
  · rw [truncf_apply, truncf_apply, maximumf_apply, addf_apply, matmul_sq_apply, bcast_row_sq_apply, broadcast_apply]
    unfold Cert.Spec.branch Cert.Out.meanOf
    refine congrArg (· * kwoB (ix2 j o)) ?_
    refine congrArg₂ max (congrArg (· + kb2 (ix2 0 j)) (Finset.sum_congr rfl fun k _ => ?_)) Ideal.ofBits_zero_f32
    rw [truncf_apply, truncf_apply, divf_apply, bcast_col_sq_apply, maximumf_apply, broadcast_apply]
    rfl

end Cert.KernelIdeal.Val

end
-- ==== Proof.KI.Val2.lean ====
/-
  What the pooling and head region leaves in its output array, read at an index.

  The region runs ten points over the 50000 nodes in tiles of 5000 rows.  A scratch of pooled sums is carried across
  the points: zeroed at the first, and at every point increased, at (g, f), by the sum over the tile's rows of the row's
  0/1 membership in graph g times the row's entry at f (the aggregated row scaled by the node's factor, plus the
  bias).  Row r of tile t is node 5000 t + r, so after the last point the scratch holds the sum over all nodes.  The
  last point alone stores into the output: the mean of the pooled sums over the larger of the node count and one,
  through the two branches, against the two halves of the last matrix, plus the last bias; its one block is the whole
  array, written back once.
-/
import proofs.«415102_j60859686584588_3_alg».proof.Proof.KI.Reg2
import proofs.«415102_j60859686584588_3_alg».proof.Proof.KI.Pay2
import proofs.«415102_j60859686584588_3_alg».proof.Proof.LibGcnAlgebra
import Idealize.ShloMosaic.Lib.Pipeline.Value
import Idealize.ShloMosaic.Lib.ValueIdx

noncomputable section

namespace Cert.KernelIdeal.Val

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b)) (c : Dev nD)

/-! ## The arrays the region reads, and the blocks of the row-tiled ones -/

/-- The second layer's aggregated rows. -/
abbrev arrAgg2 : Vec Ideal S50000x64 .f32 := V c main_v47
/-- The nodes' normalising factors, as a column. -/
abbrev arrDis2 : Vec Ideal S50000x1 .f32 := V c main_v18
/-- The second layer's bias, as a row. -/
abbrev arrB2 : Vec Ideal S1x64 .f32 := V c main_v56
/-- The nodes' graph numbers, as a column of 32-bit words. -/
abbrev arrBatch : Vec Ideal S50000x1 .i32 := V c main_v55
/-- The graphs' node counts, as a column. -/
abbrev arrCnt : Vec Ideal S64x1 .f32 := V c main_v52
/-- The first branch's matrix and bias row. -/
abbrev arrKw1 : Vec Ideal S64x64 .f32 := V c main_arg8
abbrev arrKb1 : Vec Ideal S1x64 .f32 := V c main_v57
/-- The second branch's matrix and bias row. -/
abbrev arrKw2 : Vec Ideal S64x64 .f32 := V c main_arg10
abbrev arrKb2 : Vec Ideal S1x64 .f32 := V c main_v58
/-- The two halves of the last matrix, and the last bias row. -/
abbrev arrKwoA : Vec Ideal S64x3 .f32 := V c main_v53
abbrev arrKwoB : Vec Ideal S64x3 .f32 := V c main_v54
abbrev arrKbo : Vec Ideal S1x3 .f32 := V c main_v59
/-- The output array after the region. -/
abbrev arrOut2 : Vec Ideal S64x3 .f32 := (dat2 V c).arrAt 12 cfg2.N

abbrev aBlk (t : Fin cfg2.N) : Vec Ideal S5000x64 .f32 := iblk2 V c 0 t
abbrev dBlk (t : Fin cfg2.N) : Vec Ideal S5000x1 .f32 := iblk2 V c 1 t
abbrev bBlk (t : Fin cfg2.N) : Vec Ideal S1x64 .f32 := iblk2 V c 2 t
abbrev btBlk (t : Fin cfg2.N) : Vec Ideal S5000x1 .i32 := iblk2 V c 3 t

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)
theorem idx2_3 : ∀ t : Fin cfg2.N, win2_3.index t 0 = t.val ∧ win2_3.index t 1 = 0 :=
  (by decide +kernel : ∀ t : Fin grid2.N, win2_3.index t 0 = t.val ∧ win2_3.index t 1 = 0)

/-- Row `r` of tile `t` of the node table is row `5000 t + r` of the table. -/
theorem aBlk_apply (t : Fin cfg2.N) (r : Fin 5000) (f : Fin 64) (k : Fin 50000) (hk : k.val = 5000 * t.val + r.val) :
    aBlk V c t (ix2 r f) = arrAgg2 V c (ix2 k f) := by
  show ((cfg2.win 0).blk t).view.read (Elt Ideal) (V c (Pipeline.arrRef spec2 0)) (ix2 r f) = _
  rw [View.read_apply]
  show V c main_v47 _ = V c main_v47 _
  congr 1
  funext a
  apply Fin.ext
  match a with
  | ⟨0, _⟩ => show win2_0.index t 0 * 5000 + 1 * r.val = k.val; rw [(idx2_0 t).1, hk]; omega
  | ⟨1, _⟩ => show win2_0.index t 1 * 64 + 1 * f.val = f.val; rw [(idx2_0 t).2]; omega

/-- Row \`r\` of tile \`t\` of the factor column is row \`5000 t + r\` of the column. -/
theorem dBlk_apply (t : Fin cfg2.N) (r : Fin 5000) (k : Fin 50000) (hk : k.val = 5000 * t.val + r.val) :
    dBlk V c t (ix2 r 0) = arrDis2 V c (ix2 k 0) := by
  show ((cfg2.win 1).blk t).view.read (Elt Ideal) (V c (Pipeline.arrRef spec2 1)) (ix2 r 0) = _
  rw [View.read_apply]
  show V c main_v18 _ = V c main_v18 _
  congr 1
  funext a
  apply Fin.ext
  match a with
  | ⟨0, _⟩ => show win2_1.index t 0 * 5000 + 1 * r.val = k.val; rw [(idx2_1 t).1, hk]; omega
  | ⟨1, _⟩ => show win2_1.index t 1 * 1 + 1 * 0 = 0; rw [(idx2_1 t).2]

/-- Row \`r\` of tile \`t\` of the graph numbers is row \`5000 t + r\` of the column. -/
theorem btBlk_apply (t : Fin cfg2.N) (r : Fin 5000) (k : Fin 50000) (hk : k.val = 5000 * t.val + r.val) :
    btBlk V c t (ix2 r 0) = arrBatch V c (ix2 k 0) := by
  show ((cfg2.win 3).blk t).view.read (Elt Ideal) (V c (Pipeline.arrRef spec2 3)) (ix2 r 0) = _
  rw [View.read_apply]
  show V c main_v55 _ = V c main_v55 _
  congr 1
  funext a
  apply Fin.ext
  match a with
  | ⟨0, _⟩ => show win2_3.index t 0 * 5000 + 1 * r.val = k.val; rw [(idx2_3 t).1, hk]; omega
  | ⟨1, _⟩ => show win2_3.index t 1 * 1 + 1 * 0 = 0; rw [(idx2_3 t).2]

/-! ## The windows whose one block is their array -/

theorem idx2_2 : ∀ t : Fin cfg2.N, win2_2.index t 0 = 0 ∧ win2_2.index t 1 = 0 :=
  (by decide +kernel : ∀ t : Fin grid2.N, win2_2.index t 0 = 0 ∧ win2_2.index t 1 = 0)
theorem blk2_eq (t : Fin cfg2.N) : (iblk2 V c 2 t : Vec Ideal S1x64 .f32) = V c main_v56 := by
  funext x
  show ((cfg2.win 2).blk t).view.read (Elt Ideal) (V c (Pipeline.arrRef spec2 2)) x = _
  rw [View.read_apply]
  show V c main_v56 _ = V c main_v56 x
  congr 1
  funext a
  apply Fin.ext
  match a with
  | ⟨0, _⟩ => show win2_2.index t 0 * 1 + 1 * (x 0).val = (x 0).val; rw [(idx2_2 t).1]; omega
  | ⟨1, _⟩ => show win2_2.index t 1 * 64 + 1 * (x 1).val = (x 1).val; rw [(idx2_2 t).2]; omega

theorem idx2_4 : ∀ t : Fin cfg2.N, win2_4.index t 0 = 0 ∧ win2_4.index t 1 = 0 :=
  (by decide +kernel : ∀ t : Fin grid2.N, win2_4.index t 0 = 0 ∧ win2_4.index t 1 = 0)
theorem blk4_eq (t : Fin cfg2.N) : (iblk2 V c 4 t : Vec Ideal S64x1 .f32) = V c main_v52 := by
  funext x
  show ((cfg2.win 4).blk t).view.read (Elt Ideal) (V c (Pipeline.arrRef spec2 4)) x = _
  rw [View.read_apply]
  show V c main_v52 _ = V c main_v52 x
  congr 1
  funext a
  apply Fin.ext
  match a with
  | ⟨0, _⟩ => show win2_4.index t 0 * 64 + 1 * (x 0).val = (x 0).val; rw [(idx2_4 t).1]; omega
  | ⟨1, _⟩ => show win2_4.index t 1 * 1 + 1 * (x 1).val = (x 1).val; rw [(idx2_4 t).2]; omega

theorem idx2_5 : ∀ t : Fin cfg2.N, win2_5.index t 0 = 0 ∧ win2_5.index t 1 = 0 :=
  (by decide +kernel : ∀ t : Fin grid2.N, win2_5.index t 0 = 0 ∧ win2_5.index t 1 = 0)
theorem blk5_eq (t : Fin cfg2.N) : (iblk2 V c 5 t : Vec Ideal S64x64 .f32) = V c main_arg8 := by
  funext x
  show ((cfg2.win 5).blk t).view.read (Elt Ideal) (V c (Pipeline.arrRef spec2 5)) x = _
  rw [View.read_apply]
  show V c main_arg8 _ = V c main_arg8 x
  congr 1
  funext a
  apply Fin.ext
  match a with
  | ⟨0, _⟩ => show win2_5.index t 0 * 64 + 1 * (x 0).val = (x 0).val; rw [(idx2_5 t).1]; omega
  | ⟨1, _⟩ => show win2_5.index t 1 * 64 + 1 * (x 1).val = (x 1).val; rw [(idx2_5 t).2]; omega

theorem idx2_6 : ∀ t : Fin cfg2.N, win2_6.index t 0 = 0 ∧ win2_6.index t 1 = 0 :=
  (by decide +kernel : ∀ t : Fin grid2.N, win2_6.index t 0 = 0 ∧ win2_6.index t 1 = 0)
theorem blk6_eq (t : Fin cfg2.N) : (iblk2 V c 6 t : Vec Ideal S1x64 .f32) = V c main_v57 := by
  funext x
  show ((cfg2.win 6).blk t).view.read (Elt Ideal) (V c (Pipeline.arrRef spec2 6)) x = _
  rw [View.read_apply]
  show V c main_v57 _ = V c main_v57 x
  congr 1
  funext a
  apply Fin.ext
  match a with
  | ⟨0, _⟩ => show win2_6.index t 0 * 1 + 1 * (x 0).val = (x 0).val; rw [(idx2_6 t).1]; omega
  | ⟨1, _⟩ => show win2_6.index t 1 * 64 + 1 * (x 1).val = (x 1).val; rw [(idx2_6 t).2]; omega

theorem idx2_7 : ∀ t : Fin cfg2.N, win2_7.index t 0 = 0 ∧ win2_7.index t 1 = 0 :=
  (by decide +kernel : ∀ t : Fin grid2.N, win2_7.index t 0 = 0 ∧ win2_7.index t 1 = 0)
theorem blk7_eq (t : Fin cfg2.N) : (iblk2 V c 7 t : Vec Ideal S64x64 .f32) = V c main_arg10 := by
  funext x
  show ((cfg2.win 7).blk t).view.read (Elt Ideal) (V c (Pipeline.arrRef spec2 7)) x = _
  rw [View.read_apply]
  show V c main_arg10 _ = V c main_arg10 x
  congr 1
  funext a
  apply Fin.ext
  match a with
  | ⟨0, _⟩ => show win2_7.index t 0 * 64 + 1 * (x 0).val = (x 0).val; rw [(idx2_7 t).1]; omega
  | ⟨1, _⟩ => show win2_7.index t 1 * 64 + 1 * (x 1).val = (x 1).val; rw [(idx2_7 t).2]; omega

theorem idx2_8 : ∀ t : Fin cfg2.N, win2_8.index t 0 = 0 ∧ win2_8.index t 1 = 0 :=
  (by decide +kernel : ∀ t : Fin grid2.N, win2_8.index t 0 = 0 ∧ win2_8.index t 1 = 0)
theorem blk8_eq (t : Fin cfg2.N) : (iblk2 V c 8 t : Vec Ideal S1x64 .f32) = V c main_v58 := by
  funext x
  show ((cfg2.win 8).blk t).view.read (Elt Ideal) (V c (Pipeline.arrRef spec2 8)) x = _
  rw [View.read_apply]
  show V c main_v58 _ = V c main_v58 x
  congr 1
  funext a
  apply Fin.ext
  match a with
  | ⟨0, _⟩ => show win2_8.index t 0 * 1 + 1 * (x 0).val = (x 0).val; rw [(idx2_8 t).1]; omega
  | ⟨1, _⟩ => show win2_8.index t 1 * 64 + 1 * (x 1).val = (x 1).val; rw [(idx2_8 t).2]; omega

theorem idx2_9 : ∀ t : Fin cfg2.N, win2_9.index t 0 = 0 ∧ win2_9.index t 1 = 0 :=
  (by decide +kernel : ∀ t : Fin grid2.N, win2_9.index t 0 = 0 ∧ win2_9.index t 1 = 0)
theorem blk9_eq (t : Fin cfg2.N) : (iblk2 V c 9 t : Vec Ideal S64x3 .f32) = V c main_v53 := by
  funext x
  show ((cfg2.win 9).blk t).view.read (Elt Ideal) (V c (Pipeline.arrRef spec2 9)) x = _
  rw [View.read_apply]
  show V c main_v53 _ = V c main_v53 x
  congr 1
  funext a
  apply Fin.ext
  match a with
  | ⟨0, _⟩ => show win2_9.index t 0 * 64 + 1 * (x 0).val = (x 0).val; rw [(idx2_9 t).1]; omega
  | ⟨1, _⟩ => show win2_9.index t 1 * 3 + 1 * (x 1).val = (x 1).val; rw [(idx2_9 t).2]; omega

theorem idx2_10 : ∀ t : Fin cfg2.N, win2_10.index t 0 = 0 ∧ win2_10.index t 1 = 0 :=
  (by decide +kernel : ∀ t : Fin grid2.N, win2_10.index t 0 = 0 ∧ win2_10.index t 1 = 0)
theorem blk10_eq (t : Fin cfg2.N) : (iblk2 V c 10 t : Vec Ideal S64x3 .f32) = V c main_v54 := by
  funext x
  show ((cfg2.win 10).blk t).view.read (Elt Ideal) (V c (Pipeline.arrRef spec2 10)) x = _
  rw [View.read_apply]
  show V c main_v54 _ = V c main_v54 x
  congr 1
  funext a
  apply Fin.ext
  match a with
  | ⟨0, _⟩ => show win2_10.index t 0 * 64 + 1 * (x 0).val = (x 0).val; rw [(idx2_10 t).1]; omega
  | ⟨1, _⟩ => show win2_10.index t 1 * 3 + 1 * (x 1).val = (x 1).val; rw [(idx2_10 t).2]; omega

theorem idx2_11 : ∀ t : Fin cfg2.N, win2_11.index t 0 = 0 ∧ win2_11.index t 1 = 0 :=
  (by decide +kernel : ∀ t : Fin grid2.N, win2_11.index t 0 = 0 ∧ win2_11.index t 1 = 0)
theorem blk11_eq (t : Fin cfg2.N) : (iblk2 V c 11 t : Vec Ideal S1x3 .f32) = V c main_v59 := by
  funext x
  show ((cfg2.win 11).blk t).view.read (Elt Ideal) (V c (Pipeline.arrRef spec2 11)) x = _
  rw [View.read_apply]
  show V c main_v59 _ = V c main_v59 x
  congr 1
  funext a
  apply Fin.ext
  match a with
  | ⟨0, _⟩ => show win2_11.index t 0 * 1 + 1 * (x 0).val = (x 0).val; rw [(idx2_11 t).1]; omega
  | ⟨1, _⟩ => show win2_11.index t 1 * 3 + 1 * (x 1).val = (x 1).val; rw [(idx2_11 t).2]; omega

/-! ## The pooled sums, tile by tile -/

/-- The kernel's membership of node `n` in graph `g`: the node's graph number, read signed, is `g`. -/
def bhitK (n : Fin 50000) (g : Fin 64) : Prop := (arrBatch V c (ix2 n 0)).toInt = (g.val : ℤ)

instance bhitK.instDecidable (n : Fin 50000) (g : Fin 64) : Decidable (bhitK V c n g) :=
  inferInstanceAs (Decidable ((arrBatch V c (ix2 n 0)).toInt = (g.val : ℤ)))

/-- A node's row entering the pooled sums: the aggregated row scaled by the node's factor, plus the bias. -/
abbrev rowK (n : Fin 50000) (f : Fin 64) : EReal :=
  arrAgg2 V c (ix2 n f) * arrDis2 V c (ix2 n 0) + arrB2 V c (ix2 0 f)

theorem cfg2_N : cfg2.N = 10 := N_2

/-- Row `r` of tile `n` as a row of the table. -/
def rowOf (n : ℕ) (hn : n < 10) (r : Fin 5000) : Fin 50000 := ⟨5000 * n + r.val, by have := r.isLt; omega⟩

/-- What tile `n` adds to the pooled sum at `(g, f)`: over its rows, the membership factor times the row's entry. -/
def tileK (n : ℕ) (g f : Fin 64) : EReal :=
  if hn : n < 10 then ∑ r : Fin 5000, (if bhitK V c (rowOf n hn r) g then (1 : EReal) else 0) * rowK V c (rowOf n hn r) f
  else 0

/-- One point's update of the pooled sums, over the point's blocks: it adds the tile's contribution. -/
theorem step_apply (t : Fin cfg2.N) (s : Vec Ideal S64x64 .f32) (g f : Fin 64) :
    (k2_pay2 (F := Ideal) (aBlk V c t) (dBlk V c t) (bBlk V c t) (btBlk V c t) s) (ix2 g f)
      = s (ix2 g f) + tileK V c t.val g f := by
  have ht : t.val < 10 := Nat.lt_of_lt_of_eq t.isLt cfg2_N
  refine (pay2_apply (aBlk V c t) (dBlk V c t) (bBlk V c t) (btBlk V c t) s g f).trans ?_
  unfold tileK
  rw [dif_pos ht]
  refine congrArg (s (ix2 g f) + ·) (Finset.sum_congr rfl fun r _ => ?_)
  rw [aBlk_apply V c t r f (rowOf t.val ht r) rfl, dBlk_apply V c t r (rowOf t.val ht r) rfl,
    btBlk_apply V c t r (rowOf t.val ht r) rfl, show bBlk V c t = arrB2 V c from blk2_eq V c t]
  rfl

/-- After point `n` the pooled sum at `(g, f)` is the sum of the contributions of tiles `0 … n`. -/
theorem scr_apply : ∀ (n : ℕ) (hn : n < cfg2.N) (g f : Fin 64),
    (scr2 V c n hn : Vec Ideal S64x64 .f32) (ix2 g f) = ∑ t ∈ Finset.range (n + 1), tileK V c t g f
  | 0, h0, g, f => by
    rw [scr2_zero V c h0]
    refine (step_apply V c ⟨0, h0⟩ (k2_pay1 (F := Ideal)) g f).trans ?_
    rw [pay1_apply, zero_add, Finset.sum_range_one]
  | n + 1, hn, g, f => by
    rw [scr2_succ V c n hn]
    refine (step_apply V c ⟨n + 1, hn⟩ (scr2 V c n (Nat.lt_of_succ_lt hn)) g f).trans ?_
    rw [scr_apply n (Nat.lt_of_succ_lt hn) g f, Finset.sum_range_succ _ (n + 1)]

/-- The ten tiles' contributions are the sum over all nodes: row `r` of tile `t` is node `5000 t + r`. -/
theorem pool_apply (g f : Fin 64) :
    ∑ t ∈ Finset.range 10, tileK V c t g f = Cert.Spec.poolK (bhitK V c) (rowK V c) g f := by
  unfold Cert.Spec.poolK
  refine Eq.trans ?_ (GcnAlgebra.sum_fin_prod_flat 10 5000
    (fun n : Fin 50000 => (if bhitK V c n g then (1 : EReal) else 0) * rowK V c n f))
  rw [Finset.sum_range]
  refine Finset.sum_congr rfl fun w _ => ?_
  unfold tileK
  rw [dif_pos w.isLt]
  refine Finset.sum_congr rfl fun p _ => ?_
  have e : rowOf w.val w.isLt p = (finProdFinEquiv (w, p) : Fin (10 * 5000)) :=
    Fin.ext (by rw [GcnAlgebra.finProdFinEquiv_val]; show 5000 * w.val + p.val = _; omega)
  rw [e]

/-! ## The output array: the last point's one write-back -/

/-- The last point. -/
def t9 : Fin cfg2.N := ⟨9, by rw [cfg2_N]; decide⟩

/-- What the last point leaves in the output: the head of the pooled sums after all ten tiles. -/
def outG : Buf (Elt Ideal) ((c : Thread nD τ).loc main_v60) :=
  k2_pay3 (k2_pay4 (iblk2 V c 4 t9) (scr2 V c t9.val t9.isLt) (iblk2 V c 5 t9) (iblk2 V c 7 t9) (iblk2 V c 6 t9)
    (iblk2 V c 8 t9) (iblk2 V c 9 t9) (iblk2 V c 10 t9)) (iblk2 V c 11 t9)

/-- The one write-back writes `outG`: the output's one block, at offset zero, is the whole array. -/
theorem flushed12_eq (t : Fin cfg2.N) (hf : (cfg2.win 12).flush t = true) :
    (dat2 V c).flushed 12 t = ((cfg2.win 12).blk t).view.read (Elt Ideal) (outG V c) := by
  have h9 : t.val = 9 := by
    have h := (flush2_12 t).mp hf
    have hlt : t.val < 10 := Nat.lt_of_lt_of_eq t.isLt cfg2_N
    omega
  obtain rfl : t = t9 := Fin.ext h9
  show (cfg2.win 12).cut (grid2.coords t9) ((dat2 V c).after 12 t9) = _
  rw [after2_12_last V c t9 rfl]
  have hz' : (fun a => win2_12.index t9 a * main_v60.ty.shape.size a) = fun _ => 0 :=
    funext fun a => by fin_cases a <;> decide
  exact (Memref.read_access_unit_zero (Elt Ideal) main_v60 hz' (fun a => by rw [congrFun hz' a]; simp) (outG V c)).symm

/-- So the output array ends holding `outG`: the last point's block covers it. -/
theorem arr2_eq : (dat2 V c).arrAt 12 cfg2.N = outG V c :=
  (dat2 V c).arrAt_eq_of_cover 12 (outG V c) (flushed12_eq V c) fun i =>
    ⟨t9, (flush2_12 t9).mpr rfl, by
      show i ∈ ((View.whole main_v60).slice (win2_12.rect t9)).set
      rw [View.set_slice_whole, Rect.mem_set_unit]
      intro a
      have h0 : (i 0 : Nat) < 64 := (i 0).isLt
      have h1 : (i 1 : Nat) < 3 := (i 1).isLt
      match a with
      | ⟨0, _⟩ =>
        show win2_12.index t9 0 * win2_12.size 0 ≤ (i 0 : Nat) ∧ (i 0 : Nat) < win2_12.index t9 0 * win2_12.size 0 + win2_12.xsize (grid2.coords t9) 0
        rw [show win2_12.index t9 0 * win2_12.size 0 = 0 from by decide +kernel, show win2_12.xsize (grid2.coords t9) 0 = 64 from by decide +kernel]
        omega
      | ⟨1, _⟩ =>
        show win2_12.index t9 1 * win2_12.size 1 ≤ (i 1 : Nat) ∧ (i 1 : Nat) < win2_12.index t9 1 * win2_12.size 1 + win2_12.xsize (grid2.coords t9) 1
        rw [show win2_12.index t9 1 * win2_12.size 1 = 0 from by decide +kernel, show win2_12.xsize (grid2.coords t9) 1 = 3 from by decide +kernel]
        omega⟩

/-- The mean of the pooled sums over the larger of the node count and one. -/
abbrev meanK : Fin 64 → Fin 64 → EReal :=
  Cert.Out.meanOf (fun g => arrCnt V c (ix2 g 0)) (Ideal.ofBits .f32 0x3F800000#32) (Cert.Spec.poolK (bhitK V c) (rowK V c))

/-- THE OUTPUT AT AN INDEX: the head of the mean pooled sums of all 50000 nodes. -/
theorem arr2_val (g : Fin 64) (o : Fin 3) :
    arrOut2 V c (ix2 g o)
      = Cert.Spec.headK
          (Cert.Spec.branch (meanK V c) (fun k j => arrKw1 V c (ix2 k j)) (fun j => arrKb1 V c (ix2 0 j)))
          (Cert.Spec.branch (meanK V c) (fun k j => arrKw2 V c (ix2 k j)) (fun j => arrKb2 V c (ix2 0 j)))
          (fun j o => arrKwoA V c (ix2 j o)) (fun j o => arrKwoB V c (ix2 j o)) (fun o => arrKbo V c (ix2 0 o)) g o := by
  refine (congrFun (arr2_eq V c) (ix2 g o)).trans ?_
  unfold outG
  refine (head_apply (iblk2 V c 4 t9) (scr2 V c t9.val t9.isLt) (iblk2 V c 5 t9) (iblk2 V c 7 t9) (iblk2 V c 6 t9)
    (iblk2 V c 8 t9) (iblk2 V c 9 t9) (iblk2 V c 10 t9) (iblk2 V c 11 t9) g o).trans ?_
  have hs : (fun g k => (scr2 V c t9.val t9.isLt : Vec Ideal S64x64 .f32) (ix2 g k)) = Cert.Spec.poolK (bhitK V c) (rowK V c) :=
    funext fun g => funext fun k => (scr_apply V c 9 t9.isLt g k).trans (pool_apply V c g k)
  rw [hs, blk4_eq V c t9, blk5_eq V c t9, blk6_eq V c t9, blk7_eq V c t9, blk8_eq V c t9, blk9_eq V c t9, blk10_eq V c t9, blk11_eq V c t9]

end Cert.KernelIdeal.Val

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KI.HostVal.lean ====
/-
  What the host stretches of the kernel program leave in the buffers the three regions read, as functions of
  what the buffers held when the stretch started (an arbitrary assignment `W` of contents to the buffers).

  Before the first region: the message sources, targets and weights (a row of the edge list followed by every
  node once; the edge weights followed by a one per node), the normalising factors (the reciprocal square root
  of a node's degree where the degree is positive, zero elsewhere), and the factors laid out as a column.
  Before the second and the third region: the weighted messages read from the node table and summed into
  their targets, read at `(n, f)` as the sum over the messages that land on `n`; a bias laid out as a row.
  Before the third region also: the node count of each graph as a column, the two halves of the last matrix,
  the graph labels as a column, and the head's biases as rows.  A reshape keeps the row-major position, a
  slice shifts the index by its offsets, a broadcast along a new axis forgets that axis' coordinate.
-/
import proofs.«415102_j60859686584588_3_alg».proof.Proof.Gen.KernelIdeal.Launch
import Idealize.ShloMosaic.Lib.StableHlo.Run
import Idealize.ShloMosaic.Lib.ValueIdx
import Idealize.ShloMosaic.Lib.Pipeline.Value
import Idealize.ShloMosaic.Lib.IdealHost
import proofs.«415102_j60859686584588_3_alg».proof.Proof.LibIndexed
import proofs.«415102_j60859686584588_3_alg».proof.Proof.LibReshape
import proofs.«415102_j60859686584588_3_alg».proof.Proof.Spec
import proofs.«415102_j60859686584588_3_alg».proof.Proof.Chains

noncomputable section

namespace Cert.KernelIdeal.HostVal

open Cert.KernelIdeal Cert.KernelIdeal.Gen
open Idealize.ShloMosaic Idealize.ShloMosaic.ValueIdx
open scoped BigOperators

variable (W : Valuation τ sig (Elt Ideal))

/-! ## Before the first region: the index and weight chains, and the normalising factors -/

/-- The message sources. -/
theorem v3_eq : StableHlo.after (hostOps0 (F := Ideal)) W (Proc.devRef .tc main_v3)
    = Cert.Chains.srcC (W (Proc.devRef .tc main_arg1)) := by
  unfold Cert.Chains.srcC
  after_results
  first | done | rfl

/-- The message targets. -/
theorem v6_eq : StableHlo.after (hostOps0 (F := Ideal)) W (Proc.devRef .tc main_v6)
    = Cert.Chains.dstC (W (Proc.devRef .tc main_arg1)) := by
  unfold Cert.Chains.dstC
  after_results
  first | done | rfl

/-- The message weights. -/
theorem v8_eq : StableHlo.after (hostOps0 (F := Ideal)) W (Proc.devRef .tc main_v8)
    = Cert.Chains.wC (W (Proc.devRef .tc main_arg2)) := by
  unfold Cert.Chains.wC
  after_results
  first | done | rfl

/-- The choice between the reciprocal square roots and zero, from whatever its three operands hold. -/
theorem v17_of (V0 : Valuation τ sig (Elt Ideal)) :
    StableHlo.after (hostOps0_1 (F := Ideal)) V0 (Proc.devRef .tc main_v17)
      = select (V0 (Proc.devRef .tc main_v13) : Vec Ideal S50000 .i1) (V0 (Proc.devRef .tc main_v16) : Vec Ideal S50000 .f32)
          (broadcastInDim S50000 ![] bcast_S_S50000 (V0 (Proc.devRef .tc main_cst_3) : Vec Ideal S_ .f32)) := by
  after_results
  first | done | rfl

/-- The normalising factors. -/
theorem v17_eq :
    StableHlo.after (hostOps0_1 (F := Ideal)) (StableHlo.after (hostOps0 (F := Ideal)) W) (Proc.devRef .tc main_v17)
      = Cert.Chains.disC (W (Proc.devRef .tc main_arg1)) (W (Proc.devRef .tc main_arg2)) := by
  rw [v17_of]
  unfold Cert.Chains.disC Cert.Chains.degC Cert.Chains.sidxC Cert.Chains.dstC Cert.Chains.wC
  after_results_simp
  -- the operands of the two joined lists: each operation's value at its own buffer, an untouched buffer's earlier value
  repeat (first
    | rw [StableHlo.nullary_result] | rw [StableHlo.unary_result] | rw [StableHlo.binary_result]
    | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  first | done | rfl

/-- The factors as a column. -/
theorem v18_apply (n : Fin 50000) :
    (StableHlo.after (hostOps0_2 (F := Ideal)) W (Proc.devRef .tc main_v18) : Vec Ideal S50000x1 .f32) (ix2 n 0)
      = (W (Proc.devRef .tc main_v17) : Vec Ideal S50000 .f32) (ix1 n) := by
  have e : StableHlo.after (hostOps0_2 (F := Ideal)) W (Proc.devRef .tc main_v18)
      = (fun i => shapeCast S50000x1 (W (Proc.devRef .tc main_v17) : Vec Ideal S50000 .f32) shapeCasts_S50000_S50000x1 i) := by
    after_results
    first | done | rfl
  rw [e]
  exact Cert.Rgcn.Lib.col_of_vec_apply _ _ n

/-! ## The weighted messages summed into their targets -/

/-- A vector laid out as a column and then repeated along 64 columns, read at `(e, f)`: the vector's element `e`. -/
theorem wcol_apply (w : FVec Ideal S850000 .f32) (e : Fin 850000) (f : Fin 64) :
    broadcastInDim S850000x64 ![0, 1] bcast_S850000x1_S850000x64_0_1
      (broadcastInDim S850000x1 ![0] bcast_S850000_S850000x1_0 w) (ix2 e f) = w (ix1 e) := by
  refine (broadcastInDim_apply _ _ _ (ix2 e f) (ix2 e (0 : Fin 1)) (fun a => ?_)).trans ?_
  · match a with
    | ⟨0, _⟩ => show e.val = if (850000 : ℕ) = 1 then 0 else e.val; rw [if_neg (by omega)]
    | ⟨1, _⟩ => show (0 : ℕ) = if (1 : ℕ) = 1 then 0 else f.val; rw [if_pos rfl]
  · refine broadcastInDim_apply _ _ _ (ix2 e (0 : Fin 1)) (ix1 e) (fun a => ?_)
    match a with
    | ⟨0, _⟩ => show e.val = if (850000 : ℕ) = 1 then 0 else e.val; rw [if_neg (by omega)]

/-- The messages summed into their targets, read at `(n, f)`: from a zero table, the sum over the messages that
    land on node `n` of the looked-up row's entry `f` times the message's weight. -/
theorem agg_apply (tab : FVec Ideal S50000x64 .f32) (s t : IVec S850000 32) (w : FVec Ideal S850000 .f32)
    (n : Fin 50000) (f : Fin 64) :
    Host.scatterAdd (F := Ideal) scatter_S50000x64_S850000x1_S850000x64_1_0_0_1
        (broadcastInDim S50000x64 ![] bcast_S_S50000x64 (constant (F := Ideal) S_ .f32 0x00000000#32))
        (Cert.Chains.sidxC t)
        (mulf (Host.gather gather_S50000x64_S850000x1_S850000x64_1_0_n_n_0_1_164 tab (Cert.Chains.gidxC s))
          (broadcastInDim S850000x64 ![0, 1] bcast_S850000x1_S850000x64_0_1
            (broadcastInDim S850000x1 ![0] bcast_S850000_S850000x1_0 w)))
        (ix2 n f)
      = Cert.Spec.aggK (Cert.Chains.srowS s) (Cert.Chains.dhitS t) (fun e => w (ix1 e)) (fun i k => tab (ix2 i k)) n f := by
  rw [Cert.Rgcn.Lib.scatterAdd_rows_apply scatter_S50000x64_S850000x1_S850000x64_1_0_0_1
      scatter_S50000x64_S850000x1_S850000x64_1_0_0_1_wf rfl,
    broadcastInDim_scalar_apply, constant_apply, Ideal.ofBits_zero_f32, zero_add]
  unfold Cert.Spec.aggK
  refine Finset.sum_congr rfl (fun e _ => ?_)
  rw [mulf_apply, wcol_apply,
    Cert.Rgcn.Lib.gather_rows_apply (by omega) gather_S50000x64_S850000x1_S850000x64_1_0_n_n_0_1_164
      gather_S50000x64_S850000x1_S850000x64_1_0_n_n_0_1_164_wf rfl]
  rfl

/-! ## Before the second region -/

theorem v32_term :
    StableHlo.after (hostOps1 (F := Ideal)) W (Proc.devRef .tc main_v32)
      = Host.scatterAdd (F := Ideal) scatter_S50000x64_S850000x1_S850000x64_1_0_0_1
          (broadcastInDim S50000x64 ![] bcast_S_S50000x64 (constant (F := Ideal) S_ .f32 0x00000000#32))
          (Cert.Chains.sidxC (W (Proc.devRef .tc main_v6)))
          (mulf (Host.gather gather_S50000x64_S850000x1_S850000x64_1_0_n_n_0_1_164
                  (W (Proc.devRef .tc main_v19) : Vec Ideal S50000x64 .f32) (Cert.Chains.gidxC (W (Proc.devRef .tc main_v3))))
                (broadcastInDim S850000x64 ![0, 1] bcast_S850000x1_S850000x64_0_1
                  (broadcastInDim S850000x1 ![0] bcast_S850000_S850000x1_0
                    (W (Proc.devRef .tc main_v8) : Vec Ideal S850000 .f32)))) := by
  unfold Cert.Chains.sidxC Cert.Chains.gidxC
  after_results_simp
  first | done | rfl

theorem v32_apply (n : Fin 50000) (f : Fin 64) :
    (StableHlo.after (hostOps1 (F := Ideal)) W (Proc.devRef .tc main_v32) : Vec Ideal S50000x64 .f32) (ix2 n f)
      = Cert.Spec.aggK (Cert.Chains.srowS (W (Proc.devRef .tc main_v3))) (Cert.Chains.dhitS (W (Proc.devRef .tc main_v6)))
          (fun e => (W (Proc.devRef .tc main_v8) : Vec Ideal S850000 .f32) (ix1 e))
          (fun i k => (W (Proc.devRef .tc main_v19) : Vec Ideal S50000x64 .f32) (ix2 i k)) n f := by
  rw [v32_term]
  exact agg_apply _ _ _ _ n f

/-- The first bias as a row. -/
theorem v33_apply (f : Fin 64) :
    (StableHlo.after (hostOps1 (F := Ideal)) W (Proc.devRef .tc main_v33) : Vec Ideal S1x64 .f32) (ix2 0 f)
      = (W (Proc.devRef .tc main_arg5) : Vec Ideal S64 .f32) (ix1 f) := by
  have e : StableHlo.after (hostOps1 (F := Ideal)) W (Proc.devRef .tc main_v33)
      = (fun i => shapeCast S1x64 (W (Proc.devRef .tc main_arg5) : Vec Ideal S64 .f32) shapeCasts_S64_S1x64 i) := by
    after_results
    first | done | rfl
  rw [e]
  exact Cert.Rgcn.Lib.row_of_vec_apply _ _ f

/-! ## Before the third region -/

theorem v47_term :
    StableHlo.after (hostOps2 (F := Ideal)) W (Proc.devRef .tc main_v47)
      = Host.scatterAdd (F := Ideal) scatter_S50000x64_S850000x1_S850000x64_1_0_0_1
          (broadcastInDim S50000x64 ![] bcast_S_S50000x64 (constant (F := Ideal) S_ .f32 0x00000000#32))
          (Cert.Chains.sidxC (W (Proc.devRef .tc main_v6)))
          (mulf (Host.gather gather_S50000x64_S850000x1_S850000x64_1_0_n_n_0_1_164
                  (W (Proc.devRef .tc main_v34) : Vec Ideal S50000x64 .f32) (Cert.Chains.gidxC (W (Proc.devRef .tc main_v3))))
                (broadcastInDim S850000x64 ![0, 1] bcast_S850000x1_S850000x64_0_1
                  (broadcastInDim S850000x1 ![0] bcast_S850000_S850000x1_0
                    (W (Proc.devRef .tc main_v8) : Vec Ideal S850000 .f32)))) := by
  unfold Cert.Chains.sidxC Cert.Chains.gidxC
  after_results_simp
  first | done | rfl

theorem v47_apply (n : Fin 50000) (f : Fin 64) :
    (StableHlo.after (hostOps2 (F := Ideal)) W (Proc.devRef .tc main_v47) : Vec Ideal S50000x64 .f32) (ix2 n f)
      = Cert.Spec.aggK (Cert.Chains.srowS (W (Proc.devRef .tc main_v3))) (Cert.Chains.dhitS (W (Proc.devRef .tc main_v6)))
          (fun e => (W (Proc.devRef .tc main_v8) : Vec Ideal S850000 .f32) (ix1 e))
          (fun i k => (W (Proc.devRef .tc main_v34) : Vec Ideal S50000x64 .f32) (ix2 i k)) n f := by
  rw [v47_term]
  exact agg_apply _ _ _ _ n f

/-- The node counts as a column. -/
theorem v52_apply (g : Fin 64) :
    (StableHlo.after (hostOps2 (F := Ideal)) W (Proc.devRef .tc main_v52) : Vec Ideal S64x1 .f32) (ix2 g 0)
      = Cert.Chains.cntC (W (Proc.devRef .tc main_arg3)) (ix1 g) := by
  have e : StableHlo.after (hostOps2 (F := Ideal)) W (Proc.devRef .tc main_v52)
      = (fun i => shapeCast S64x1 (Cert.Chains.cntC (W (Proc.devRef .tc main_arg3))) shapeCasts_S64_S64x1 i) := by
    unfold Cert.Chains.cntC Cert.Chains.bidxC
    after_results_simp
    first | done | rfl
  rw [e]
  exact Cert.Rgcn.Lib.col_of_vec_apply _ _ g

/-- The upper half of the last matrix. -/
theorem v53_apply (j : Fin 64) (o : Fin 3) :
    (StableHlo.after (hostOps2 (F := Ideal)) W (Proc.devRef .tc main_v53) : Vec Ideal S64x3 .f32) (ix2 j o)
      = (W (Proc.devRef .tc main_arg12) : Vec Ideal S128x3 .f32) (ix2 ⟨j.val, by omega⟩ o) := by
  have e : StableHlo.after (hostOps2 (F := Ideal)) W (Proc.devRef .tc main_v53)
      = extractStridedSlice S64x3 ![0, 0] (W (Proc.devRef .tc main_arg12) : Vec Ideal S128x3 .f32) slices_S128x3_S64x3_0_0 := by
    after_results
    first | done | rfl
  rw [e]
  refine extractStridedSlice_apply _ _ _ _ _ (fun a => ?_)
  match a with
  | ⟨0, _⟩ => show j.val = 0 + j.val; omega
  | ⟨1, _⟩ => show o.val = 0 + o.val; omega

/-- The lower half of the last matrix. -/
theorem v54_apply (j : Fin 64) (o : Fin 3) :
    (StableHlo.after (hostOps2 (F := Ideal)) W (Proc.devRef .tc main_v54) : Vec Ideal S64x3 .f32) (ix2 j o)
      = (W (Proc.devRef .tc main_arg12) : Vec Ideal S128x3 .f32) (ix2 ⟨64 + j.val, by omega⟩ o) := by
  have e : StableHlo.after (hostOps2 (F := Ideal)) W (Proc.devRef .tc main_v54)
      = extractStridedSlice S64x3 ![64, 0] (W (Proc.devRef .tc main_arg12) : Vec Ideal S128x3 .f32) slices_S128x3_S64x3_64_0 := by
    after_results
    first | done | rfl
  rw [e]
  refine extractStridedSlice_apply _ _ _ _ _ (fun a => ?_)
  match a with
  | ⟨0, _⟩ => show 64 + j.val = 64 + j.val; rfl
  | ⟨1, _⟩ => show o.val = 0 + o.val; omega

/-- The graph labels as a column. -/
theorem v55_apply (n : Fin 50000) :
    (StableHlo.after (hostOps2 (F := Ideal)) W (Proc.devRef .tc main_v55) : Vec Ideal S50000x1 .i32) (ix2 n 0)
      = (W (Proc.devRef .tc main_arg3) : Vec Ideal S50000 .i32) (ix1 n) := by
  have e : StableHlo.after (hostOps2 (F := Ideal)) W (Proc.devRef .tc main_v55)
      = (fun i => shapeCast S50000x1 (W (Proc.devRef .tc main_arg3) : Vec Ideal S50000 .i32) shapeCasts_S50000_S50000x1 i) := by
    after_results
    first | done | rfl
  rw [e]
  exact Cert.Rgcn.Lib.col_of_vec_apply _ _ n

/-- The second bias as a row. -/
theorem v56_apply (f : Fin 64) :
    (StableHlo.after (hostOps2 (F := Ideal)) W (Proc.devRef .tc main_v56) : Vec Ideal S1x64 .f32) (ix2 0 f)
      = (W (Proc.devRef .tc main_arg7) : Vec Ideal S64 .f32) (ix1 f) := by
  have e : StableHlo.after (hostOps2 (F := Ideal)) W (Proc.devRef .tc main_v56)
      = (fun i => shapeCast S1x64 (W (Proc.devRef .tc main_arg7) : Vec Ideal S64 .f32) shapeCasts_S64_S1x64 i) := by
    after_results
    first | done | rfl
  rw [e]
  exact Cert.Rgcn.Lib.row_of_vec_apply _ _ f

/-- The first branch's bias as a row. -/
theorem v57_apply (f : Fin 64) :
    (StableHlo.after (hostOps2 (F := Ideal)) W (Proc.devRef .tc main_v57) : Vec Ideal S1x64 .f32) (ix2 0 f)
      = (W (Proc.devRef .tc main_arg9) : Vec Ideal S64 .f32) (ix1 f) := by
  have e : StableHlo.after (hostOps2 (F := Ideal)) W (Proc.devRef .tc main_v57)
      = (fun i => shapeCast S1x64 (W (Proc.devRef .tc main_arg9) : Vec Ideal S64 .f32) shapeCasts_S64_S1x64 i) := by
    after_results
    first | done | rfl
  rw [e]
  exact Cert.Rgcn.Lib.row_of_vec_apply _ _ f

/-- The second branch's bias as a row. -/
theorem v58_apply (f : Fin 64) :
    (StableHlo.after (hostOps2 (F := Ideal)) W (Proc.devRef .tc main_v58) : Vec Ideal S1x64 .f32) (ix2 0 f)
      = (W (Proc.devRef .tc main_arg11) : Vec Ideal S64 .f32) (ix1 f) := by
  have e : StableHlo.after (hostOps2 (F := Ideal)) W (Proc.devRef .tc main_v58)
      = (fun i => shapeCast S1x64 (W (Proc.devRef .tc main_arg11) : Vec Ideal S64 .f32) shapeCasts_S64_S1x64 i) := by
    after_results
    first | done | rfl
  rw [e]
  exact Cert.Rgcn.Lib.row_of_vec_apply _ _ f

/-- The output bias as a row. -/
theorem v59_apply (o : Fin 3) :
    (StableHlo.after (hostOps2 (F := Ideal)) W (Proc.devRef .tc main_v59) : Vec Ideal S1x3 .f32) (ix2 0 o)
      = (W (Proc.devRef .tc main_arg13) : Vec Ideal S3 .f32) (ix1 o) := by
  have e : StableHlo.after (hostOps2 (F := Ideal)) W (Proc.devRef .tc main_v59)
      = (fun i => shapeCast S1x3 (W (Proc.devRef .tc main_arg13) : Vec Ideal S3 .f32) shapeCasts_S3_S1x3 i) := by
    after_results
    first | done | rfl
  rw [e]
  exact Cert.Rgcn.Lib.row_of_vec_apply _ _ o

end Cert.KernelIdeal.HostVal

end
-- ==== Proof.KI.KOut.lean ====
/- The result of the run, read at plain indices, in the kernel-side arrangement of the mathematics.

   The result array after the third region is the head of the mean pooled second-layer rows. Each operand of
   that head is traced back through the run to the launched arguments: a buffer no item has written holds what it
   held at launch; the message sources, targets and weights and the nodes' normalising factor are computed by the
   first stretches and only read afterwards; each aggregation reads the table the region before it left; and the two
   tables are the two regions' results. Put together, the result at graph g and output o is Cert.Out.outK of the
   launched arguments. -/
import proofs.«415102_j60859686584588_3_alg».proof.Proof.KI.Run
import proofs.«415102_j60859686584588_3_alg».proof.Proof.KI.Val01
import proofs.«415102_j60859686584588_3_alg».proof.Proof.KI.Val2
import proofs.«415102_j60859686584588_3_alg».proof.Proof.KI.HostVal
import proofs.«415102_j60859686584588_3_alg».proof.Proof.Chains2
import proofs.«415102_j60859686584588_3_alg».proof.Proof.Out
import Idealize.ShloMosaic.Lib.ValueIdx

set_option maxRecDepth 16384

noncomputable section

namespace Cert.KernelIdeal.Val

open Cert.KernelIdeal Cert.KernelIdeal.Gen Cert.KernelIdeal.HostVal
open Idealize.ShloMosaic Idealize.ShloMosaic.TcCoe Idealize.ShloMosaic.ValueIdx
open scoped BigOperators

variable [Cert.KernelIdeal.Facts]
variable (m : (ℓ : Loc nD τ sig) → Buf (Elt Ideal) ℓ) (c : Dev nD)

/-! ## The arguments as launched, each at its literal type -/

/-- The edge list. -/
abbrev edges : IVec S2x800000 32 := m ((c : Thread nD τ).loc main_arg1)
/-- The edge weights. -/
abbrev edgeWeights : FVec Ideal S800000 .f32 := m ((c : Thread nD τ).loc main_arg2)
/-- The graph label of each node. -/
abbrev labels : IVec S50000 32 := m ((c : Thread nD τ).loc main_arg3)
/-- The node features. -/
abbrev feat (n : Fin 50000) (k : Fin 64) : EReal := (m ((c : Thread nD τ).loc main_arg0) : Vec Ideal S50000x64 .f32) (ix2 n k)
/-- The two layers' weights and biases. -/
abbrev wt1 (k f : Fin 64) : EReal := (m ((c : Thread nD τ).loc main_arg4) : Vec Ideal S64x64 .f32) (ix2 k f)
abbrev bs1 (f : Fin 64) : EReal := (m ((c : Thread nD τ).loc main_arg5) : Vec Ideal S64 .f32) (ix1 f)
abbrev wt2 (k f : Fin 64) : EReal := (m ((c : Thread nD τ).loc main_arg6) : Vec Ideal S64x64 .f32) (ix2 k f)
abbrev bs2 (f : Fin 64) : EReal := (m ((c : Thread nD τ).loc main_arg7) : Vec Ideal S64 .f32) (ix1 f)
/-- The two branches' weights and biases. -/
abbrev hw1 (k j : Fin 64) : EReal := (m ((c : Thread nD τ).loc main_arg8) : Vec Ideal S64x64 .f32) (ix2 k j)
abbrev hb1 (j : Fin 64) : EReal := (m ((c : Thread nD τ).loc main_arg9) : Vec Ideal S64 .f32) (ix1 j)
abbrev hw2 (k j : Fin 64) : EReal := (m ((c : Thread nD τ).loc main_arg10) : Vec Ideal S64x64 .f32) (ix2 k j)
abbrev hb2 (j : Fin 64) : EReal := (m ((c : Thread nD τ).loc main_arg11) : Vec Ideal S64 .f32) (ix1 j)
/-- The two halves of the last matrix, and the last bias. -/
abbrev hwoA (j : Fin 64) (o : Fin 3) : EReal := (m ((c : Thread nD τ).loc main_arg12) : Vec Ideal S128x3 .f32) (ix2 ⟨j.val, by omega⟩ o)
abbrev hwoB (j : Fin 64) (o : Fin 3) : EReal := (m ((c : Thread nD τ).loc main_arg12) : Vec Ideal S128x3 .f32) (ix2 ⟨64 + j.val, by omega⟩ o)
abbrev hbo (o : Fin 3) : EReal := (m ((c : Thread nD τ).loc main_arg13) : Vec Ideal S3 .f32) (ix1 o)

/-! ## A buffer nothing has written yet is as launched -/

/-- When the first region is entered; -/
theorem enter0_launched (b : Ref sig .tc) (h0 : b ∉ hostOps0_W) (h1 : b ∉ hostOps0_1_W) (h2 : b ∉ hostOps0_2_W) :
    Hand.W3 m c (Proc.devRef .tc b) = m ((c : Thread nD τ).loc b) :=
  (Hand.W3_of m c b h2).trans <| (Hand.W2_of m c b h1).trans <| (Hand.W1_of m c b h0).trans rfl
/-- when it is left; -/
theorem leave0_launched (b : Ref sig .tc) (h0 : b ∉ hostOps0_W) (h1 : b ∉ hostOps0_1_W) (h2 : b ∉ hostOps0_2_W) (h3 : b ≠ main_v19) :
    Hand.W4 m c (Proc.devRef .tc b) = m ((c : Thread nD τ).loc b) :=
  (Hand.W4_keep m c b h3).trans (enter0_launched m c b h0 h1 h2)
/-- when the second region is entered; -/
theorem enter1_launched (b : Ref sig .tc) (h0 : b ∉ hostOps0_W) (h1 : b ∉ hostOps0_1_W) (h2 : b ∉ hostOps0_2_W) (h3 : b ≠ main_v19)
    (h4 : b ∉ hostOps1_W) : Hand.W5 m c (Proc.devRef .tc b) = m ((c : Thread nD τ).loc b) :=
  (Hand.W5_of m c b h4).trans (leave0_launched m c b h0 h1 h2 h3)
/-- when it is left; -/
theorem leave1_launched (b : Ref sig .tc) (h0 : b ∉ hostOps0_W) (h1 : b ∉ hostOps0_1_W) (h2 : b ∉ hostOps0_2_W) (h3 : b ≠ main_v19)
    (h4 : b ∉ hostOps1_W) (h5 : b ≠ main_v34) : Hand.W6 m c (Proc.devRef .tc b) = m ((c : Thread nD τ).loc b) :=
  (Hand.W6_keep m c b h5).trans (enter1_launched m c b h0 h1 h2 h3 h4)
/-- when the third region is entered. -/
theorem enter2_launched (b : Ref sig .tc) (h0 : b ∉ hostOps0_W) (h1 : b ∉ hostOps0_1_W) (h2 : b ∉ hostOps0_2_W) (h3 : b ≠ main_v19)
    (h4 : b ∉ hostOps1_W) (h5 : b ≠ main_v34) (h6 : b ∉ hostOps2_W) : Hand.W7 m c (Proc.devRef .tc b) = m ((c : Thread nD τ).loc b) :=
  (Hand.W7_of m c b h6).trans (leave1_launched m c b h0 h1 h2 h3 h4 h5)

/-! ## What the first stretch computes stays until the regions read it -/

theorem leave0_stretch0 (b : Ref sig .tc) (h1 : b ∉ hostOps0_1_W) (h2 : b ∉ hostOps0_2_W) (h3 : b ≠ main_v19) :
    Hand.W4 m c (Proc.devRef .tc b) = Hand.W1 m c (Proc.devRef .tc b) :=
  (Hand.W4_keep m c b h3).trans <| (Hand.W3_of m c b h2).trans (Hand.W2_of m c b h1)
theorem leave1_stretch0 (b : Ref sig .tc) (h1 : b ∉ hostOps0_1_W) (h2 : b ∉ hostOps0_2_W) (h3 : b ≠ main_v19)
    (h4 : b ∉ hostOps1_W) (h5 : b ≠ main_v34) : Hand.W6 m c (Proc.devRef .tc b) = Hand.W1 m c (Proc.devRef .tc b) :=
  (Hand.W6_keep m c b h5).trans <| (Hand.W5_of m c b h4).trans (leave0_stretch0 m c b h1 h2 h3)

/-- The message sources, targets and weights, when the first region is left, -/
theorem src_leave0 : Hand.W4 m c (Proc.devRef .tc main_v3) = Cert.Chains.srcC (edges m c) :=
  (leave0_stretch0 m c main_v3 (by decide) (by decide) (by decide)).trans (v3_eq (Hand.W0 m c))
theorem dst_leave0 : Hand.W4 m c (Proc.devRef .tc main_v6) = Cert.Chains.dstC (edges m c) :=
  (leave0_stretch0 m c main_v6 (by decide) (by decide) (by decide)).trans (v6_eq (Hand.W0 m c))
theorem wts_leave0 : Hand.W4 m c (Proc.devRef .tc main_v8) = Cert.Chains.wC (edgeWeights m c) :=
  (leave0_stretch0 m c main_v8 (by decide) (by decide) (by decide)).trans (v8_eq (Hand.W0 m c))
/-- and when the second is. -/
theorem src_leave1 : Hand.W6 m c (Proc.devRef .tc main_v3) = Cert.Chains.srcC (edges m c) :=
  (leave1_stretch0 m c main_v3 (by decide) (by decide) (by decide) (by decide) (by decide)).trans (v3_eq (Hand.W0 m c))
theorem dst_leave1 : Hand.W6 m c (Proc.devRef .tc main_v6) = Cert.Chains.dstC (edges m c) :=
  (leave1_stretch0 m c main_v6 (by decide) (by decide) (by decide) (by decide) (by decide)).trans (v6_eq (Hand.W0 m c))
theorem wts_leave1 : Hand.W6 m c (Proc.devRef .tc main_v8) = Cert.Chains.wC (edgeWeights m c) :=
  (leave1_stretch0 m c main_v8 (by decide) (by decide) (by decide) (by decide) (by decide)).trans (v8_eq (Hand.W0 m c))

/-! ## The normalising factor, as each region finds it -/

theorem scale_enter0 (n : Fin 50000) :
    (Hand.W3 m c (Proc.devRef .tc main_v18) : Vec Ideal S50000x1 .f32) (ix2 n 0) = Cert.Chains.dv (edges m c) (edgeWeights m c) n :=
  (v18_apply (Hand.W2 m c) n).trans (congrFun (v17_eq (Hand.W0 m c)) (ix1 n))
theorem scale_enter1 (n : Fin 50000) :
    (Hand.W5 m c (Proc.devRef .tc main_v18) : Vec Ideal S50000x1 .f32) (ix2 n 0) = Cert.Chains.dv (edges m c) (edgeWeights m c) n := by
  rw [Hand.W5_of m c main_v18 (by decide), Hand.W4_keep m c main_v18 (by decide)]; exact scale_enter0 m c n
theorem scale_enter2 (n : Fin 50000) :
    (Hand.W7 m c (Proc.devRef .tc main_v18) : Vec Ideal S50000x1 .f32) (ix2 n 0) = Cert.Chains.dv (edges m c) (edgeWeights m c) n := by
  rw [Hand.W7_of m c main_v18 (by decide), Hand.W6_keep m c main_v18 (by decide)]; exact scale_enter1 m c n

/-! ## The mathematics depends on its function arguments only through their values -/

theorem lin_congr {a a' d d' b b' : EReal} (ha : a = a') (hd : d = d') (hb : b = b') : a * d + b = a' * d' + b' := by
  subst ha hd hb; rfl

theorem tabK_congr {N : ℕ} {d d' : Fin N → EReal} {h h' : Fin N → Fin 64 → EReal} {W W' : Fin 64 → Fin 64 → EReal}
    (hd : ∀ n, d n = d' n) (hh : ∀ n k, h n k = h' n k) (hW : ∀ k f, W k f = W' k f) (i : Fin N) (f : Fin 64) :
    Cert.Spec.tabK d h W i f = Cert.Spec.tabK d' h' W' i f := by
  obtain rfl : d = d' := funext hd
  obtain rfl : h = h' := funext fun n => funext (hh n)
  obtain rfl : W = W' := funext fun k => funext (hW k)
  rfl

theorem aggK_congr {N E : ℕ} {srow srow' : Fin E → Fin N} {p p' : Fin E → Fin N → Prop}
    [∀ e n, Decidable (p e n)] [∀ e n, Decidable (p' e n)] {w w' : Fin E → EReal} {tab tab' : Fin N → Fin 64 → EReal}
    (hs : ∀ e, srow e = srow' e) (hp : ∀ e n, p e n ↔ p' e n) (hw : ∀ e, w e = w' e) (ht : ∀ i k, tab i k = tab' i k)
    (n : Fin N) (f : Fin 64) : Cert.Spec.aggK srow p w tab n f = Cert.Spec.aggK srow' p' w' tab' n f := by
  unfold Cert.Spec.aggK
  refine Finset.sum_congr (Finset.filter_congr fun e _ => hp e n) fun e _ => ?_
  rw [hs, ht, hw]

theorem relu_congr {N : ℕ} {a a' : Fin N → Fin 64 → EReal} (h : ∀ n f, a n f = a' n f) (n : Fin N) (f : Fin 64) :
    Cert.Spec.relu a n f = Cert.Spec.relu a' n f := by
  unfold Cert.Spec.relu; rw [h]

/-- The whole head: the node counts, the membership, the pooled table, the two branches' and the last product's
    operands may each be replaced by anything with the same values. -/
theorem head_congr {N : ℕ} {cnt cnt' : Fin 64 → EReal} (one : EReal)
    {p p' : Fin N → Fin 64 → Prop} [∀ n g, Decidable (p n g)] [∀ n g, Decidable (p' n g)]
    {a a' : Fin N → Fin 64 → EReal} {kw1 kw1' kw2 kw2' : Fin 64 → Fin 64 → EReal} {kb1 kb1' kb2 kb2' : Fin 64 → EReal}
    {A A' B B' : Fin 64 → Fin 3 → EReal} {bo bo' : Fin 3 → EReal}
    (hc : ∀ g, cnt g = cnt' g) (hp : ∀ n g, p n g ↔ p' n g) (ha : ∀ n f, a n f = a' n f)
    (hw1 : ∀ k j, kw1 k j = kw1' k j) (hb1 : ∀ j, kb1 j = kb1' j) (hw2 : ∀ k j, kw2 k j = kw2' k j) (hb2 : ∀ j, kb2 j = kb2' j)
    (hA : ∀ j o, A j o = A' j o) (hB : ∀ j o, B j o = B' j o) (hbo : ∀ o, bo o = bo' o) (g : Fin 64) (o : Fin 3) :
    Cert.Spec.headK (Cert.Spec.branch (Cert.Out.meanOf cnt one (Cert.Spec.poolK p a)) kw1 kb1)
        (Cert.Spec.branch (Cert.Out.meanOf cnt one (Cert.Spec.poolK p a)) kw2 kb2) A B bo g o
      = Cert.Spec.headK (Cert.Spec.branch (Cert.Out.meanOf cnt' one (Cert.Spec.poolK p' a')) kw1' kb1')
        (Cert.Spec.branch (Cert.Out.meanOf cnt' one (Cert.Spec.poolK p' a')) kw2' kb2') A' B' bo' g o := by
  obtain rfl : cnt = cnt' := funext hc
  obtain rfl : a = a' := funext fun n => funext (ha n)
  obtain rfl : kw1 = kw1' := funext fun k => funext (hw1 k)
  obtain rfl : kb1 = kb1' := funext hb1
  obtain rfl : kw2 = kw2' := funext fun k => funext (hw2 k)
  obtain rfl : kb2 = kb2' := funext hb2
  obtain rfl : A = A' := funext fun j => funext (hA j)
  obtain rfl : B = B' := funext fun j => funext (hB j)
  obtain rfl : bo = bo' := funext hbo
  have hpool : Cert.Spec.poolK p a = Cert.Spec.poolK p' a := by
    funext g f; unfold Cert.Spec.poolK
    exact Finset.sum_congr rfl fun n _ => by rw [if_congr (hp n g) rfl rfl]
  rw [hpool]

/-! ## The two layers -/

/-- The first region's result: the features times the first weights, each row scaled. -/
theorem tab1_val (i : Fin 50000) (k : Fin 64) :
    (Hand.W4 m c (Proc.devRef .tc main_v19) : Vec Ideal S50000x64 .f32) (ix2 i k)
      = Cert.Spec.tabK (Cert.Chains.dv (edges m c) (edgeWeights m c)) (feat m c) (wt1 m c) i k := by
  rw [Hand.W4_out]
  refine (arr0_val (Hand.V3 m) c i k).trans ?_
  exact tabK_congr (scale_enter0 m c)
    (fun n k => congrFun (enter0_launched m c main_arg0 (by decide) (by decide) (by decide)) (ix2 n k))
    (fun k f => congrFun (enter0_launched m c main_arg4 (by decide) (by decide) (by decide)) (ix2 k f)) i k

/-- The first aggregation: the weighted messages read from that table, summed into their targets. -/
theorem agg1_val (n : Fin 50000) (k : Fin 64) :
    (Hand.W5 m c (Proc.devRef .tc main_v32) : Vec Ideal S50000x64 .f32) (ix2 n k)
      = Cert.Spec.aggK (Cert.Chains.srow (edges m c)) (Cert.Chains.dhit (edges m c)) (Cert.Chains.wv (edgeWeights m c))
          (Cert.Spec.tabK (Cert.Chains.dv (edges m c) (edgeWeights m c)) (feat m c) (wt1 m c)) n k := by
  refine (v32_apply (Hand.W4 m c) n k).trans ?_
  refine aggK_congr (fun e => ?_) (fun e n => ?_) (fun e => ?_) (tab1_val m c) n k
  · rw [src_leave0]; rfl
  · rw [dst_leave0]; exact Iff.rfl
  · rw [wts_leave0]; rfl

/-- The second region's result: the first layer cut at zero, times the second weights, each row scaled. -/
theorem tab2_val (i : Fin 50000) (k : Fin 64) :
    (Hand.W6 m c (Proc.devRef .tc main_v34) : Vec Ideal S50000x64 .f32) (ix2 i k)
      = Cert.Spec.tabK (Cert.Chains.dv (edges m c) (edgeWeights m c))
          (Cert.Spec.relu (Cert.Spec.layK (Cert.Chains.srow (edges m c)) (Cert.Chains.dhit (edges m c)) (Cert.Chains.wv (edgeWeights m c))
            (Cert.Chains.dv (edges m c) (edgeWeights m c))
            (Cert.Spec.tabK (Cert.Chains.dv (edges m c) (edgeWeights m c)) (feat m c) (wt1 m c)) (bs1 m c)))
          (wt2 m c) i k := by
  rw [Hand.W6_out]
  refine (arr1_val (Hand.V5 m) c i k).trans ?_
  refine tabK_congr (scale_enter1 m c) (fun n k => relu_congr (fun n k => ?_) n k)
    (fun k f => congrFun (enter1_launched m c main_arg6 (by decide) (by decide) (by decide) (by decide) (by decide)) (ix2 k f)) i k
  exact lin_congr (agg1_val m c n k) (scale_enter1 m c n)
    ((v33_apply (Hand.W4 m c) k).trans
      (congrFun (leave0_launched m c main_arg5 (by decide) (by decide) (by decide) (by decide)) (ix1 k)))

/-- The second aggregation. -/
theorem agg2_val (n : Fin 50000) (f : Fin 64) :
    (Hand.W7 m c (Proc.devRef .tc main_v47) : Vec Ideal S50000x64 .f32) (ix2 n f)
      = Cert.Spec.aggK (Cert.Chains.srow (edges m c)) (Cert.Chains.dhit (edges m c)) (Cert.Chains.wv (edgeWeights m c))
          (Cert.Spec.tabK (Cert.Chains.dv (edges m c) (edgeWeights m c))
            (Cert.Spec.relu (Cert.Spec.layK (Cert.Chains.srow (edges m c)) (Cert.Chains.dhit (edges m c)) (Cert.Chains.wv (edgeWeights m c))
              (Cert.Chains.dv (edges m c) (edgeWeights m c))
              (Cert.Spec.tabK (Cert.Chains.dv (edges m c) (edgeWeights m c)) (feat m c) (wt1 m c)) (bs1 m c)))
            (wt2 m c)) n f := by
  refine (v47_apply (Hand.W6 m c) n f).trans ?_
  refine aggK_congr (fun e => ?_) (fun e n => ?_) (fun e => ?_) (tab2_val m c) n f
  · rw [src_leave1]; rfl
  · rw [dst_leave1]; exact Iff.rfl
  · rw [wts_leave1]; rfl

/-! ## The result -/

/-- A node's label as the third region finds it is the launched one. -/
theorem label_enter2 (n : Fin 50000) :
    (Hand.W7 m c (Proc.devRef .tc main_v55) : Vec Ideal S50000x1 .i32) (ix2 n 0) = (labels m c) (ix1 n) :=
  (v55_apply (Hand.W6 m c) n).trans
    (congrFun (leave1_launched m c main_arg3 (by decide) (by decide) (by decide) (by decide) (by decide) (by decide)) (ix1 n))

theorem kern_out (g : Fin 64) (o : Fin 3) :
    (Hand.W8 m c (Proc.devRef .tc main_v60) : Vec Ideal S64x3 .f32) (ix2 g o)
      = Cert.Out.outK (Cert.Chains.srow (edges m c)) (Cert.Chains.dhit (edges m c)) (Cert.Chains.wv (edgeWeights m c))
          (Cert.Chains.dv (edges m c) (edgeWeights m c)) (Cert.Chains.bhit (labels m c)) (Cert.Chains.cntv (labels m c))
          (Ideal.ofBits .f32 0x3F800000#32)
          (feat m c) (wt1 m c) (bs1 m c) (wt2 m c) (bs2 m c) (hw1 m c) (hb1 m c) (hw2 m c) (hb2 m c) (hwoA m c) (hwoB m c) (hbo m c) g o := by
  rw [Hand.W8_out]
  refine (arr2_val (Hand.V7 m) c g o).trans ?_
  refine head_congr _ (fun g => ?cnt) (fun n g => ?mem) (fun n f => ?net) (fun k j => ?w1) (fun j => ?b1) (fun k j => ?w2) (fun j => ?b2)
    (fun j o => ?oA) (fun j o => ?oB) (fun o => ?ob) g o
  case cnt =>
    refine (v52_apply (Hand.W6 m c) g).trans ?_
    rw [leave1_launched m c main_arg3 (by decide) (by decide) (by decide) (by decide) (by decide) (by decide)]; rfl
  case mem =>
    unfold bhitK Cert.Chains.bhit
    rw [Cert.Chains.bidxC_apply, ← label_enter2 m c n]
  case net =>
    exact lin_congr (agg2_val m c n f) (scale_enter2 m c n)
      ((v56_apply (Hand.W6 m c) f).trans
        (congrFun (leave1_launched m c main_arg7 (by decide) (by decide) (by decide) (by decide) (by decide) (by decide)) (ix1 f)))
  case w1 =>
    exact congrFun (enter2_launched m c main_arg8 (by decide) (by decide) (by decide) (by decide) (by decide) (by decide) (by decide)) (ix2 k j)
  case b1 =>
    exact (v57_apply (Hand.W6 m c) j).trans
      (congrFun (leave1_launched m c main_arg9 (by decide) (by decide) (by decide) (by decide) (by decide) (by decide)) (ix1 j))
  case w2 =>
    exact congrFun (enter2_launched m c main_arg10 (by decide) (by decide) (by decide) (by decide) (by decide) (by decide) (by decide)) (ix2 k j)
  case b2 =>
    exact (v58_apply (Hand.W6 m c) j).trans
      (congrFun (leave1_launched m c main_arg11 (by decide) (by decide) (by decide) (by decide) (by decide) (by decide)) (ix1 j))
  case oA =>
    exact (v53_apply (Hand.W6 m c) j o).trans
      (congrFun (leave1_launched m c main_arg12 (by decide) (by decide) (by decide) (by decide) (by decide) (by decide)) (ix2 ⟨j.val, by omega⟩ o))
  case oB =>
    exact (v54_apply (Hand.W6 m c) j o).trans
      (congrFun (leave1_launched m c main_arg12 (by decide) (by decide) (by decide) (by decide) (by decide) (by decide)) (ix2 ⟨64 + j.val, by omega⟩ o))
  case ob =>
    exact (v59_apply (Hand.W6 m c) o).trans
      (congrFun (leave1_launched m c main_arg13 (by decide) (by decide) (by decide) (by decide) (by decide) (by decide)) (ix1 o))

end Cert.KernelIdeal.Val

end
-- ==== Proof.Alg.lean ====
/-
  The value claim, assembled.

  From memories that agree on the fourteen arguments and satisfy the precondition, the kernel program and the
  reference program both run to the end, leave their arguments as they were, and end with equal results.  The common
  result is the kernel's final contents of its result array.  Entry by entry that array holds the kernel's
  arrangement of the network (the normalising factor outside the message sums, the pooled sums as products with a
  0/1 membership matrix, the last matrix as two halves) evaluated on the argument arrays, and the reference's
  result holds its own arrangement (the factors on the messages, the pooled sums over each graph's nodes, the whole
  last matrix) evaluated on its argument arrays, which are the kernel's.  The precondition makes every float entry a
  real number, every message is added only at its own target, and the two halves of the last matrix are its rows
  0..63 and 64..127: so the two arrangements are one function.
-/
import proofs.«415102_j60859686584588_3_alg».proof.Defs
import proofs.«415102_j60859686584588_3_alg».proof.Proof.Gen.KernelIdeal
import proofs.«415102_j60859686584588_3_alg».proof.Proof.Gen.ReferenceIdeal
import proofs.«415102_j60859686584588_3_alg».proof.Proof.Gen.Pre_finite_inputs
import proofs.«415102_j60859686584588_3_alg».proof.Proof.Chains
import proofs.«415102_j60859686584588_3_alg».proof.Proof.Chains2
import proofs.«415102_j60859686584588_3_alg».proof.Proof.Out
import proofs.«415102_j60859686584588_3_alg».proof.Proof.SpecAlg
import proofs.«415102_j60859686584588_3_alg».proof.Proof.Finite
import proofs.«415102_j60859686584588_3_alg».proof.Proof.KI.Run
import proofs.«415102_j60859686584588_3_alg».proof.Proof.KI.KOut
import proofs.«415102_j60859686584588_3_alg».proof.Proof.Ref
import Idealize.ShloMosaic.Lib.ValueIdx

noncomputable section

namespace Cert.Alg

open Idealize.ShloMosaic Idealize.ShloMosaic.ValueIdx
open Cert.KernelIdeal (S50000x64 S2x800000 S800000 S50000 S64x64 S64 S128x3 S3 S64x3)

section Arrays

/-- The kernel's arrangement as a function of the fourteen argument arrays, read at plain indices. -/
def outKof (a0 : FVec Ideal S50000x64 .f32) (a1 : IVec S2x800000 32) (a2 : FVec Ideal S800000 .f32) (a3 : IVec S50000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64 .f32) (a12 : FVec Ideal S128x3 .f32) (a13 : FVec Ideal S3 .f32) (g : Fin 64) (o : Fin 3) : EReal :=
  Cert.Out.outK (Cert.Chains.srow a1) (Cert.Chains.dhit a1) (Cert.Chains.wv a2) (Cert.Chains.dv a1 a2)
      (Cert.Chains.bhit a3) (Cert.Chains.cntv a3) (Ideal.ofBits .f32 0x3F800000#32)
      (fun n k => a0 (ix2 n k)) (fun k f => a4 (ix2 k f)) (fun f => a5 (ix1 f)) (fun k f => a6 (ix2 k f)) (fun f => a7 (ix1 f))
      (fun k f => a8 (ix2 k f)) (fun f => a9 (ix1 f)) (fun k f => a10 (ix2 k f)) (fun f => a11 (ix1 f))
      (fun j o => a12 (ix2 ⟨j.val, by omega⟩ o)) (fun j o => a12 (ix2 ⟨64 + j.val, by omega⟩ o)) (fun o => a13 (ix1 o)) g o

/-- The reference's arrangement as a function of the fourteen argument arrays, read at plain indices. -/
def outRof (a0 : FVec Ideal S50000x64 .f32) (a1 : IVec S2x800000 32) (a2 : FVec Ideal S800000 .f32) (a3 : IVec S50000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64 .f32) (a12 : FVec Ideal S128x3 .f32) (a13 : FVec Ideal S3 .f32) (g : Fin 64) (o : Fin 3) : EReal :=
  Cert.Out.outR (Cert.Chains.srow a1) (Cert.Chains.drow a1) (Cert.Chains.dhit a1) (Cert.Chains.wv a2) (Cert.Chains.dv a1 a2)
      (Cert.Chains.bhit a3) (Cert.Chains.cntv a3) (Ideal.ofBits .f32 0x3F800000#32)
      (fun n k => a0 (ix2 n k)) (fun k f => a4 (ix2 k f)) (fun f => a5 (ix1 f)) (fun k f => a6 (ix2 k f)) (fun f => a7 (ix1 f))
      (fun k f => a8 (ix2 k f)) (fun f => a9 (ix1 f)) (fun k f => a10 (ix2 k f)) (fun f => a11 (ix1 f))
      (fun j o => a12 (ix2 j o)) (fun o => a13 (ix1 o)) g o

/-- Under the precondition the two arrangements are one function: every float entry is a real, every message
    is added only at its own target, and the last matrix's two halves are its rows 0..63 and 64..127. -/
theorem outKof_eq_outRof (a0 : FVec Ideal S50000x64 .f32) (a1 : IVec S2x800000 32) (a2 : FVec Ideal S800000 .f32) (a3 : IVec S50000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64 .f32) (a12 : FVec Ideal S128x3 .f32) (a13 : FVec Ideal S3 .f32)
    (h : Cert.Pre_finite_inputs.fn (F := Ideal) a0 a1 a2 a3 a4 a5 a6 a7 a8 a9 a10 a11 a12 a13 = (fun _ => 1#1)) :
    outKof a0 a1 a2 a3 a4 a5 a6 a7 a8 a9 a10 a11 a12 a13 = outRof a0 a1 a2 a3 a4 a5 a6 a7 a8 a9 a10 a11 a12 a13 := by
  obtain ⟨r0, r2, r4, r5, r6, _, _, _, _, _, _, _⟩ := Cert.Finite.real_of_pre a0 a1 a2 a3 a4 a5 a6 a7 a8 a9 a10 a11 a12 a13 h
  exact Cert.Out.outK_eq_outR (Cert.Chains.srow a1) (Cert.Chains.drow a1) (Cert.Chains.dhit a1) (Cert.Chains.wv a2)
    (Cert.Chains.dv a1 a2) (Cert.Chains.bhit a3) (Cert.Chains.cntv a3) (Ideal.ofBits .f32 0x3F800000#32)
    (fun n k => a0 (ix2 n k)) (fun k f => a4 (ix2 k f)) (fun f => a5 (ix1 f)) (fun k f => a6 (ix2 k f)) (fun f => a7 (ix1 f))
      (fun k f => a8 (ix2 k f)) (fun f => a9 (ix1 f)) (fun k f => a10 (ix2 k f)) (fun f => a11 (ix1 f))
    (fun j o => a12 (ix2 ⟨j.val, by omega⟩ o)) (fun j o => a12 (ix2 ⟨64 + j.val, by omega⟩ o)) (fun j o => a12 (ix2 j o))
    (fun o => a13 (ix1 o))
    (Cert.Chains.drow_of_dhit a1) (Cert.Chains.wv_real a2 r2) (Cert.Chains.dv_real a1 a2 r2)
    (fun n k => r0 _) (fun k f => r4 _) (fun f => r5 _) (fun k f => r6 _) (fun _ _ => rfl) (fun _ _ => rfl)

end Arrays

end Cert.Alg

namespace Cert.Alg

open Idealize.ShloMosaic Idealize.ShloMosaic.TcCoe Idealize.SL.Sem Idealize.ShloMosaic.ValueIdx
open Cert.KernelIdeal (S64x3)

/-- On a core, from memories that agree on the arguments and under the precondition, the reference's result is the
    kernel's final contents of its result array: entry by entry the reference's is its arrangement of the argument
    arrays, the kernel's is its own, and the two arrangements are one function. -/
theorem ref_eq_kern (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (Cert.ReferenceIdeal.RefVal.refOut m' c : FVec Ideal S64x3 .f32)
      = (Cert.KernelIdeal.Hand.W8 m c (Proc.devRef .tc Cert.KernelIdeal.main_v60) : FVec Ideal S64x3 .f32) := by
  funext j
  calc (Cert.ReferenceIdeal.RefVal.refOut m' c : FVec Ideal S64x3 .f32) j
      = outRof (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (j 0) (j 1) := rfl
    _ = outRof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (j 0) (j 1) := by
        rw [h0, h1, h2, h3, h4, h5, h6, h7, h8, h9, h10, h11, h12, h13]
    _ = outKof (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (j 0) (j 1) := by
        rw [outKof_eq_outRof _ _ _ _ _ _ _ _ _ _ _ _ _ _ hpre]
    _ = (Cert.KernelIdeal.Hand.W8 m c (Proc.devRef .tc Cert.KernelIdeal.main_v60) : FVec Ideal S64x3 .f32) (ix2 (j 0) (j 1)) :=
        (Cert.KernelIdeal.Val.kern_out m c (j 0) (j 1)).symm
    _ = (Cert.KernelIdeal.Hand.W8 m c (Proc.devRef .tc Cert.KernelIdeal.main_v60) : FVec Ideal S64x3 .f32) j :=
        congrArg _ (eq_ix2 j).symm

/-- The two programs, run from memories that agree on the arguments and satisfy the precondition, end with equal
    results and unchanged arguments: the common result is the kernel's final contents of its result array. -/
theorem algebraic : Cert.algebraic_KernelIdeal_ReferenceIdeal := by
  intro m ρ m' ρ' hpre hagree
  refine ⟨fun c => Cert.KernelIdeal.Hand.W8 m c (Proc.devRef .tc Cert.KernelIdeal.main_v60), ?_, ?_⟩
  · exact (θ_run Cert.KernelIdeal.defs _ _).mono (fun r h c =>
      ⟨h c _ (Cert.KernelIdeal.Hand.mem_uc Cert.KernelIdeal.main_v60 (by decide)),
      (h c _ (Cert.KernelIdeal.Hand.mem_uc Cert.KernelIdeal.main_arg0 (by decide))).trans (Cert.KernelIdeal.Hand.W8_main_arg0 m c),
      (h c _ (Cert.KernelIdeal.Hand.mem_uc Cert.KernelIdeal.main_arg1 (by decide))).trans (Cert.KernelIdeal.Hand.W8_main_arg1 m c),
      (h c _ (Cert.KernelIdeal.Hand.mem_uc Cert.KernelIdeal.main_arg2 (by decide))).trans (Cert.KernelIdeal.Hand.W8_main_arg2 m c),
      (h c _ (Cert.KernelIdeal.Hand.mem_uc Cert.KernelIdeal.main_arg3 (by decide))).trans (Cert.KernelIdeal.Hand.W8_main_arg3 m c),
      (h c _ (Cert.KernelIdeal.Hand.mem_uc Cert.KernelIdeal.main_arg4 (by decide))).trans (Cert.KernelIdeal.Hand.W8_main_arg4 m c),
      (h c _ (Cert.KernelIdeal.Hand.mem_uc Cert.KernelIdeal.main_arg5 (by decide))).trans (Cert.KernelIdeal.Hand.W8_main_arg5 m c),
      (h c _ (Cert.KernelIdeal.Hand.mem_uc Cert.KernelIdeal.main_arg6 (by decide))).trans (Cert.KernelIdeal.Hand.W8_main_arg6 m c),
      (h c _ (Cert.KernelIdeal.Hand.mem_uc Cert.KernelIdeal.main_arg7 (by decide))).trans (Cert.KernelIdeal.Hand.W8_main_arg7 m c),
      (h c _ (Cert.KernelIdeal.Hand.mem_uc Cert.KernelIdeal.main_arg8 (by decide))).trans (Cert.KernelIdeal.Hand.W8_main_arg8 m c),
      (h c _ (Cert.KernelIdeal.Hand.mem_uc Cert.KernelIdeal.main_arg9 (by decide))).trans (Cert.KernelIdeal.Hand.W8_main_arg9 m c),
      (h c _ (Cert.KernelIdeal.Hand.mem_uc Cert.KernelIdeal.main_arg10 (by decide))).trans (Cert.KernelIdeal.Hand.W8_main_arg10 m c),
      (h c _ (Cert.KernelIdeal.Hand.mem_uc Cert.KernelIdeal.main_arg11 (by decide))).trans (Cert.KernelIdeal.Hand.W8_main_arg11 m c),
      (h c _ (Cert.KernelIdeal.Hand.mem_uc Cert.KernelIdeal.main_arg12 (by decide))).trans (Cert.KernelIdeal.Hand.W8_main_arg12 m c),
      (h c _ (Cert.KernelIdeal.Hand.mem_uc Cert.KernelIdeal.main_arg13 (by decide))).trans (Cert.KernelIdeal.Hand.W8_main_arg13 m c)⟩) (Cert.KernelIdeal.Hand.run_main m ρ)
  · refine (θ_run Cert.ReferenceIdeal.defs _ _).mono (fun r h c => ⟨(h c).1.trans ?_, (h c).2⟩)
      (Cert.ReferenceIdeal.RefVal.ref_run m' ρ')
    obtain ⟨h0, h1, h2, h3, h4, h5, h6, h7, h8, h9, h10, h11, h12, h13⟩ := hagree c
    exact ref_eq_kern m m' c (hpre c) h0 h1 h2 h3 h4 h5 h6 h7 h8 h9 h10 h11 h12 h13

end Cert.Alg

end
-- ==== Proof.lean ====
/- The certificate of the graph-convolution network kernel against its reference.

   The program is three TensorCore regions among host stretches: the first scales the transformed features
   (x · W1) row by row with the nodes' factors `dis`; the second adds the bias to the summed, rescaled messages of
   layer one, cuts at zero, transforms by W2 and scales again; the third rescales the summed messages of layer two,
   adds the bias, sums the rows of each graph through a 0/1 membership matrix into an accumulator carried over
   the ten row tiles, and on the last tile takes the mean, the two branches and the output product.

   The frames (the runs end, nothing faults, the arguments end as launched) come from the run of @main as
   segments: each region's proof data and body obligation, the host stretches between them.  The value claim
   reads the kernel's result off that run, the reference's off its run, and joins them by the algebra of
   `Cert.Out.outK_eq_outR`: the normalising factor of a target node moves across the sum of its messages because,
   the inputs being finite, every term is a real number. -/
import proofs.«415102_j60859686584588_3_alg».proof.Defs
import proofs.«415102_j60859686584588_3_alg».proof.Proof.Gen.Kernel
import proofs.«415102_j60859686584588_3_alg».proof.Proof.Gen.KernelIdeal
import proofs.«415102_j60859686584588_3_alg».proof.Proof.Gen.ReferenceIdeal
import proofs.«415102_j60859686584588_3_alg».proof.Proof.Gen.Pre_finite_inputs
import proofs.«415102_j60859686584588_3_alg».proof.Proof.K.Run
import proofs.«415102_j60859686584588_3_alg».proof.Proof.KI.Run
import proofs.«415102_j60859686584588_3_alg».proof.Proof.Ref
import proofs.«415102_j60859686584588_3_alg».proof.Proof.Alg

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.RefVal.ref_frame,
    trivial,
    Cert.Alg.algebraic⟩

end Cert.Proof

end
